-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1024 : Shape := ⟨3, ![1, 4096, 1024]⟩
abbrev S3072x1024 : Shape := ⟨2, ![3072, 1024]⟩
abbrev S1024x1024 : Shape := ⟨2, ![1024, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x4096x1024 .f32) (main_arg1 : FVec F S3072x1024 .f32) (main_arg2 : FVec F S1024x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1x4096x1024 : Shape := ⟨3, ![1, 4096, 1024]⟩
abbrev S3072x1024 : Shape := ⟨2, ![3072, 1024]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S4096x16x64 : Shape := ⟨3, ![4096, 16, 64]⟩
abbrev S16x4096x64 : Shape := ⟨3, ![16, 4096, 64]⟩
abbrev S1x1024x64 : Shape := ⟨3, ![1, 1024, 64]⟩
abbrev S1024x1 : Shape := ⟨2, ![1024, 1]⟩
abbrev S1024x64 : Shape := ⟨2, ![1024, 64]⟩
abbrev S64x1024 : Shape := ⟨2, ![64, 1024]⟩
abbrev S1x1024 : Shape := ⟨2, ![1, 1024]⟩
abbrev S1024 : Shape := ⟨1, ![1024]⟩

abbrev nBuf : Space → Nat
  | .hbm => 21
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S3072x1024, .f32⟩
  | .hbm, ⟨2, _⟩ => ⟨S1024x1024, .f32⟩
  | .hbm, ⟨3, _⟩ => ⟨S4096x1024, .f32⟩
  | .hbm, ⟨4, _⟩ => ⟨S3072x1024, .bf16⟩
  | .hbm, ⟨5, _⟩ => ⟨S1024x1024, .bf16⟩
  | .hbm, ⟨6, _⟩ => ⟨S4096x3072, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x16x64, .bf16⟩
  | .hbm, ⟨11, _⟩ => ⟨S16x4096x64, .bf16⟩
  | .hbm, ⟨12, _⟩ => ⟨S4096x16x64, .bf16⟩
  | .hbm, ⟨13, _⟩ => ⟨S16x4096x64, .bf16⟩
  | .hbm, ⟨14, _⟩ => ⟨S4096x16x64, .bf16⟩
  | .hbm, ⟨15, _⟩ => ⟨S16x4096x64, .bf16⟩
  | .hbm, ⟨16, _⟩ => ⟨S16x4096x64, .bf16⟩
  | .hbm, ⟨17, _⟩ => ⟨S4096x16x64, .bf16⟩
  | .hbm, ⟨18, _⟩ => ⟨S4096x1024, .bf16⟩
  | .hbm, ⟨19, _⟩ => ⟨S4096x1024, .f32⟩
  | .hbm, ⟨20, _⟩ => ⟨S1x4096x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1024x1, .f32⟩
  | .local _ .vmem, ⟨14, _⟩ => ⟨S1024x1, .f32⟩
  | .local _ .vmem, ⟨15, _⟩ => ⟨S1024x64, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![16, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x4096x1024_S4096x1024 : S1x4096x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S4096x16x64 : S4096x1024.ShapeCasts S4096x16x64
  transposes_S4096x16x64_S16x4096x64_1_0_2 : S4096x16x64.Transposes [1, 0, 2] S16x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  transposes_S16x4096x64_S4096x16x64_1_0_2 : S16x4096x64.Transposes [1, 0, 2] S4096x16x64
  shapeCasts_S4096x16x64_S4096x1024 : S4096x16x64.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S1x4096x1024 : S4096x1024.ShapeCasts S1x4096x1024
  dot_S512x1024_S3072x1024_S512x3072_1_1_0_0_n_n_wf : DotDims.WF S512x1024 S3072x1024 S512x3072 [1] [1] [0] [0] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x4096x64.size a
  hwx1_0 : ∀ i : grid1.Coords, EltTy.bits .bf16 = 32 ∨ (Rect.block (s := S16x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S16x4096x64.size a
  hwx1_1 : ∀ i : grid1.Coords, EltTy.bits .bf16 = 32 ∨ (Rect.block (s := S16x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S16x4096x64.size a
  hwx1_2 : ∀ i : grid1.Coords, EltTy.bits .bf16 = 32 ∨ (Rect.block (s := S16x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S16x4096x64.size a
  hwx1_3 : ∀ i : grid1.Coords, EltTy.bits .bf16 = 32 ∨ (Rect.block (s := S16x4096x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x4096x1024 : Shape := ⟨3, ![1, 4096, 1024]⟩
abbrev S3072x1024 : Shape := ⟨2, ![3072, 1024]⟩
abbrev S1024x1024 : Shape := ⟨2, ![1024, 1024]⟩
abbrev S1x4096x3072 : Shape := ⟨3, ![1, 4096, 3072]⟩
abbrev S1x4096x16x64 : Shape := ⟨4, ![1, 4096, 16, 64]⟩
abbrev S1x16x4096x64 : Shape := ⟨4, ![1, 16, 4096, 64]⟩
abbrev S1x16x4096x4096 : Shape := ⟨4, ![1, 16, 4096, 4096]⟩
abbrev S_ : Shape := ⟨0, ![]⟩
abbrev S4096x4096 : Shape := ⟨2, ![4096, 4096]⟩
abbrev S1x1x4096x4096 : Shape := ⟨4, ![1, 1, 4096, 4096]⟩
abbrev S1x16x4096 : Shape := ⟨3, ![1, 16, 4096]⟩
abbrev S1x16x4096x1 : Shape := ⟨4, ![1, 16, 4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S3072x1024, .f32⟩
  | .hbm, ⟨2, _⟩ => ⟨S1024x1024, .f32⟩
  | .hbm, ⟨3, _⟩ => ⟨S1x4096x3072, .f32⟩
  | .hbm, ⟨4, _⟩ => ⟨S1x4096x1024, .f32⟩
  | .hbm, ⟨5, _⟩ => ⟨S1x4096x1024, .f32⟩
  | .hbm, ⟨6, _⟩ => ⟨S1x4096x1024, .f32⟩
  | .hbm, ⟨7, _⟩ => ⟨S1x4096x16x64, .f32⟩
  | .hbm, ⟨8, _⟩ => ⟨S1x16x4096x64, .f32⟩
  | .hbm, ⟨9, _⟩ => ⟨S1x4096x16x64, .f32⟩
  | .hbm, ⟨10, _⟩ => ⟨S1x16x4096x64, .f32⟩
  | .hbm, ⟨11, _⟩ => ⟨S1x4096x16x64, .f32⟩
  | .hbm, ⟨12, _⟩ => ⟨S1x16x4096x64, .f32⟩
  | .hbm, ⟨13, _⟩ => ⟨S1x16x4096x4096, .f32⟩
  | .hbm, ⟨14, _⟩ => ⟨S_, .f32⟩
  | .hbm, ⟨15, _⟩ => ⟨S1x16x4096x4096, .f32⟩
  | .hbm, ⟨16, _⟩ => ⟨S1x16x4096x4096, .f32⟩
  | .hbm, ⟨17, _⟩ => ⟨S_, .i1⟩
  | .hbm, ⟨18, _⟩ => ⟨S4096x4096, .i1⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .i1⟩
  | .hbm, ⟨26, _⟩ => ⟨S4096x4096, .i1⟩
  | .hbm, ⟨27, _⟩ => ⟨S4096x4096, .i1⟩
  | .hbm, ⟨28, _⟩ => ⟨S1x1x4096x4096, .i1⟩
  | .hbm, ⟨29, _⟩ => ⟨S_, .f32⟩
  | .hbm, ⟨30, _⟩ => ⟨S_, .f32⟩
  | .hbm, ⟨31, _⟩ => ⟨S1x16x4096x4096, .i1⟩
  | .hbm, ⟨32, _⟩ => ⟨S1x16x4096x4096, .f32⟩
  | .hbm, ⟨33, _⟩ => ⟨S1x16x4096x4096, .f32⟩
  | .hbm, ⟨34, _⟩ => ⟨S_, .f32⟩
  | .hbm, ⟨35, _⟩ => ⟨S1x16x4096, .f32⟩
  | .hbm, ⟨36, _⟩ => ⟨S_, .f32⟩
  | .hbm, ⟨37, _⟩ => ⟨S1x16x4096, .f32⟩
  | .hbm, ⟨38, _⟩ => ⟨S1x16x4096, .f32⟩
  | .hbm, ⟨39, _⟩ => ⟨S1x16x4096x1, .f32⟩
  | .hbm, ⟨40, _⟩ => ⟨S1x16x4096x4096, .f32⟩
  | .hbm, ⟨41, _⟩ => ⟨S1x16x4096x4096, .f32⟩
  | .hbm, ⟨42, _⟩ => ⟨S1x16x4096x4096, .f32⟩
  | .hbm, ⟨43, _⟩ => ⟨S_, .f32⟩
  | .hbm, ⟨44, _⟩ => ⟨S1x16x4096, .f32⟩
  | .hbm, ⟨45, _⟩ => ⟨S1x16x4096x1, .f32⟩
  | .hbm, ⟨46, _⟩ => ⟨S1x16x4096x4096, .f32⟩
  | .hbm, ⟨47, _⟩ => ⟨S1x16x4096x4096, .f32⟩
  | .hbm, ⟨48, _⟩ => ⟨S1x16x4096x64, .f32⟩
  | .hbm, ⟨49, _⟩ => ⟨S1x4096x16x64, .f32⟩
  | .hbm, ⟨50, _⟩ => ⟨S1x4096x1024, .f32⟩
  | .hbm, ⟨51, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S1x4096x3072_S1x4096x1024_0_0_0 : S1x4096x3072.Slices ![0, 0, 0] S1x4096x1024
  slices_S1x4096x3072_S1x4096x1024_0_0_1024 : S1x4096x3072.Slices ![0, 0, 1024] S1x4096x1024
  slices_S1x4096x3072_S1x4096x1024_0_0_2048 : S1x4096x3072.Slices ![0, 0, 2048] S1x4096x1024
  shapeCasts_S1x4096x1024_S1x4096x16x64 : S1x4096x1024.ShapeCasts S1x4096x16x64
  transposes_S1x4096x16x64_S1x16x4096x64_0_2_1_3 : S1x4096x16x64.Transposes [0, 2, 1, 3] S1x16x4096x64
  bcast_S_S1x16x4096x4096 : S_.BroadcastsInDim S1x16x4096x4096 (![] : Fin 0 → Fin S1x16x4096x4096.rank)
  bcast_S_S4096x4096 : S_.BroadcastsInDim S4096x4096 (![] : Fin 0 → Fin S4096x4096.rank)
  bcast_S4096x4096_S1x1x4096x4096_2_3 : S4096x4096.BroadcastsInDim S1x1x4096x4096 (![2, 3] : Fin 2 → Fin S1x1x4096x4096.rank)
  bcast_S1x1x4096x4096_S1x16x4096x4096_0_1_2_3 : S1x1x4096x4096.BroadcastsInDim S1x16x4096x4096 (![0, 1, 2, 3] : Fin 4 → Fin S1x16x4096x4096.rank)
  reducesTo_S1x16x4096x4096_S1x16x4096_d3 : S1x16x4096x4096.ReducesTo [3] S1x16x4096
  h_S_ : 0 < S_.numel
  bcast_S_S1x16x4096 : S_.BroadcastsInDim S1x16x4096 (![] : Fin 0 → Fin S1x16x4096.rank)
  bcast_S1x16x4096_S1x16x4096x1_0_1_2 : S1x16x4096.BroadcastsInDim S1x16x4096x1 (![0, 1, 2] : Fin 3 → Fin S1x16x4096x1.rank)
  bcast_S1x16x4096x1_S1x16x4096x4096_0_1_2_3 : S1x16x4096x1.BroadcastsInDim S1x16x4096x4096 (![0, 1, 2, 3] : Fin 4 → Fin S1x16x4096x4096.rank)
  transposes_S1x16x4096x64_S1x4096x16x64_0_2_1_3 : S1x16x4096x64.Transposes [0, 2, 1, 3] S1x4096x16x64
  shapeCasts_S1x4096x16x64_S1x4096x1024 : S1x4096x16x64.ShapeCasts S1x4096x1024
  dot_S1x4096x1024_S3072x1024_S1x4096x3072_2_1_01_0_n_n_wf : DotDims.WF S1x4096x1024 S3072x1024 S1x4096x3072 [2] [1] [0, 1] [0] [] []
  dot_S1x16x4096x64_S1x16x4096x64_S1x16x4096x4096_3_3_2_2_01_01_wf : DotDims.WF S1x16x4096x64 S1x16x4096x64 S1x16x4096x4096 [3] [3] [2] [2] [0, 1] [0, 1]
  dot_S1x16x4096x4096_S1x16x4096x64_S1x16x4096x64_3_2_2_3_01_01_wf : DotDims.WF S1x16x4096x4096 S1x16x4096x64 S1x16x4096x64 [3] [2] [2] [3] [0, 1] [0, 1]
  dot_S1x4096x1024_S1024x1024_S1x4096x1024_2_1_01_0_n_n_wf : DotDims.WF S1x4096x1024 S1024x1024 S1x4096x1024 [2] [1] [0, 1] [0] [] []

variable [Facts₀]

def dot_S1x4096x1024_S3072x1024_S1x4096x3072_2_1_01_0_n_n : DotDims S1x4096x1024 S3072x1024 S1x4096x3072 where
  lhsContracting := [2]
  rhsContracting := [1]
  lhsNonContracting := [0, 1]
  rhsNonContracting := [0]
  lhsBatch := []
  rhsBatch := []
  wf := dot_S1x4096x1024_S3072x1024_S1x4096x3072_2_1_01_0_n_n_wf
def dot_S1x16x4096x64_S1x16x4096x64_S1x16x4096x4096_3_3_2_2_01_01 : DotDims S1x16x4096x64 S1x16x4096x64 S1x16x4096x4096 where
  lhsContracting := [3]
  rhsContracting := [3]
  lhsNonContracting := [2]
  rhsNonContracting := [2]
  lhsBatch := [0, 1]
  rhsBatch := [0, 1]
  wf := dot_S1x16x4096x64_S1x16x4096x64_S1x16x4096x4096_3_3_2_2_01_01_wf
def dot_S1x16x4096x4096_S1x16x4096x64_S1x16x4096x64_3_2_2_3_01_01 : DotDims S1x16x4096x4096 S1x16x4096x64 S1x16x4096x64 where
  lhsContracting := [3]
  rhsContracting := [2]
  lhsNonContracting := [2]
  rhsNonContracting := [3]
  lhsBatch := [0, 1]
  rhsBatch := [0, 1]
  wf := dot_S1x16x4096x4096_S1x16x4096x64_S1x16x4096x64_3_2_2_3_01_01_wf
def dot_S1x4096x1024_S1024x1024_S1x4096x1024_2_1_01_0_n_n : DotDims S1x4096x1024 S1024x1024 S1x4096x1024 where
  lhsContracting := [2]
  rhsContracting := [1]
  lhsNonContracting := [0, 1]
  rhsNonContracting := [0]
  lhsBatch := []
  rhsBatch := []
  wf := dot_S1x4096x1024_S1024x1024_S1x4096x1024_2_1_01_0_n_n_wf

class Facts : Prop extends Facts₀ where

variable [Facts]
-- ==== Proof.Bits.LinearBody.lean ====
/-
  The two projection kernels' bodies at one grid point: a tile of rows of the left operand against the whole
  (resident) weight, contracted over the shared axis into the output tile.  The first rounds its input tile to
  bf16 and its product to bf16 (identities over the reals); the second leaves the f32 product.
-/
import proofs.«429902_j84310208020548_3_alg».proof.Proof.Gen.Kernel.Launch
import proofs.«429902_j84310208020548_3_alg».proof.Proof.Gen.Kernel.Skeleton
import proofs.«429902_j84310208020548_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles of the linear kernels' accesses. -/
abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rO0 : Rect S512x3072 := Rect.unit (s := S512x3072) ![0, 0] S512x3072.size inb_S512x3072_S512x3072_0_0
abbrev rW2 : Rect S1024x1024 := Rect.unit (s := S1024x1024) ![0, 0] S1024x1024.size inb_S1024x1024_S1024x1024_0_0

/-- What the first projection's body leaves in its output tile: the product of the row tile with the weight. -/
def linOut0 (x : Vec F S512x1024 .f32) (w : Vec F S3072x1024 .bf16) : Vec F S512x3072 .bf16 :=
  View.canon [⟨rO0, k0_pay1 (View.ld x rX0) (View.ld w rW0)⟩]

/-- What the second projection's body leaves in its output tile. -/
def linOut2 (x : Vec F S512x1024 .bf16) (w : Vec F S1024x1024 .bf16) : Vec F S512x1024 .f32 :=
  View.canon [⟨rX0, k2_pay1 (View.ld x rX0) (View.ld w rW2)⟩]

/-- The zero offsets of a rank-2 access are the constant zero function. -/
theorem linZeros2 : (![0, 0] : Fin 2 → Nat) = fun _ => 0 := funext fun a => by fin_cases a <;> rfl

/-- The one store covers the whole tile, and the loads read whole tiles: the tile is the payload itself. -/
theorem linOut0_eq (x : Vec F S512x1024 .f32) (w : Vec F S3072x1024 .bf16) : linOut0 x w = k0_pay1 x w := by
  unfold linOut0
  rw [View.canon_unit_zero (S := S512x3072) linZeros2 inb_S512x3072_S512x3072_0_0]
  rw [View.ld_unit_zero (S := S512x1024) linZeros2 inb_S512x1024_S512x1024_0_0,
    View.ld_unit_zero (S := S3072x1024) linZeros2 inb_S3072x1024_S3072x1024_0_0]

theorem linOut2_eq (x : Vec F S512x1024 .bf16) (w : Vec F S1024x1024 .bf16) : linOut2 x w = k2_pay1 x w := by
  unfold linOut2
  rw [View.canon_unit_zero (S := S512x1024) linZeros2 inb_S512x1024_S512x1024_0_0]
  rw [View.ld_unit_zero (S := S512x1024) linZeros2 inb_S512x1024_S512x1024_0_0,
    View.ld_unit_zero (S := S1024x1024) linZeros2 inb_S1024x1024_S1024x1024_0_0]

/-- The first projection kernel's triple on whole staging memrefs. -/
theorem linear0_run (c : Dev nD) (E : Set ℕ) (i : grid0.Coords)
    (a1 : Memref sig .tc .vmem S512x1024 .f32) (h1 : a1.IsWhole) (a2 : Memref sig .tc .vmem S3072x1024 .bf16) (h2 : a2.IsWhole)
    (a3 : Memref sig .tc .vmem S512x3072 .bf16) (h3 : a3.IsWhole)
    (x : Vec F S512x1024 .f32) (w : Vec F S3072x1024 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (linOut0 x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO0, _⟩] S512x3072.size (by rfl))

/-- The second projection kernel's triple on whole staging memrefs. -/
theorem linear2_run (c : Dev nD) (E : Set ℕ) (i : grid2.Coords)
    (a1 : Memref sig .tc .vmem S512x1024 .bf16) (h1 : a1.IsWhole) (a2 : Memref sig .tc .vmem S1024x1024 .bf16) (h2 : a2.IsWhole)
    (a3 : Memref sig .tc .vmem S512x1024 .f32) (h3 : a3.IsWhole)
    (x : Vec F S512x1024 .bf16) (w : Vec F S1024x1024 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (linOut2 x w)) -∗ K ⟨⟩))
      ⊢ wp frame (wpE (defs₀ (F := F)) Variants.none c none) E (cc2__linear_kernel i a1 h1 a2 h2 a3 h3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rX0, _⟩] S512x1024.size (by rfl))

end Cert.Kernel.Hand

end
-- ==== Proof.Bits.FlashBody.lean ====
/-
  The attention kernel's body at one grid point (head, query tile qi, key tile ki), as a transformer of the three
  scratch buffers it carries from point to point — the running row maximum, the running row sum of exponentials and
  the running weighted sum of value rows — and of the output tile.  At ki = 0 the three are reset; when ki ≤ qi the
  tile pair is folded in by the online-softmax update; at the last key tile the output tile is the weighted sum
  divided by the sum of exponentials.  The three conditions are the kernel's own scalar comparisons of the grid
  coordinates.
-/
import proofs.«429902_j84310208020548_3_alg».proof.Proof.Gen.Kernel.Launch
import proofs.«429902_j84310208020548_3_alg».proof.Proof.Gen.Kernel.Skeleton
import proofs.«429902_j84310208020548_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three scratch buffers' contents: running maximum, running sum, running weighted sum. -/
abbrev St (F : FTy → Type) [FloatOps F] : Type := Vec F S1024x1 .f32 × Vec F S1024x1 .f32 × Vec F S1024x64 .f32

/-- ki = 0: the point opens a sweep over the key tiles and resets the scratch buffers. -/
abbrev condA (i : grid1.Coords) : Prop :=
  (Scalar.cmpi .ne (Scalar.extui (Scalar.cmpi .eq (BitVec.ofNat 32 (i 2).val) 0#32)) 0#32) = 1#1
/-- ki ≤ qi: the key tile is not wholly above the diagonal, so it is folded in. -/
abbrev condB (i : grid1.Coords) : Prop :=
  (Scalar.cmpi .ne (Scalar.extui (Scalar.cmpi .sle (BitVec.ofNat 32 (i 2).val) (BitVec.ofNat 32 (i 1).val))) 0#32) = 1#1
/-- ki = 3: the sweep's last point, where the output tile is written. -/
abbrev condC (i : grid1.Coords) : Prop := k1_cond3 i = 1#1

/-- The scratch buffers after the reset: maximum −∞, sum 0, weighted sum 0. -/
def stReset : St F := (k1_pay1, k1_pay2, k1_pay3)

/-- The online-softmax update of the scratch buffers by one (query tile, key tile, value tile) triple. -/
def stUpd (a1 a2 : BitVec 32) (q k v : Vec F S1x1024x64 .bf16) (s : St F) : St F :=
  (k1_pay6 (k1_pay10 a1 a2 q k s.1),
   k1_pay4 (k1_pay13 a1 a2 q k s.1 s.2.1),
   k1_pay5 (k1_pay8 v) (k1_pay11 a1 a2 q k s.1) (k1_pay12 a1 a2 q k s.1) s.2.2)

/-- One grid point's effect on the scratch buffers. -/
def flashStep (i : grid1.Coords) (q k v : Vec F S1x1024x64 .bf16) (s : St F) : St F :=
  let s1 := if condA i then stReset else s
  if condB i then stUpd (BitVec.ofNat 32 (i 1).val) (BitVec.ofNat 32 (i 2).val) q k v s1 else s1

/-- The output tile written at the sweep's last point: weighted sum over sum of exponentials. -/
def flashOut (s : St F) : Vec F S1x1024x64 .bf16 := k1_pay7 s.2.2 s.2.1

/-- One grid point's effect on the output window's staging buffer. -/
def flashEmit (i : grid1.Coords) (s : St F) (o : Vec F S1x1024x64 .bf16) : Vec F S1x1024x64 .bf16 :=
  if condC i then flashOut s else o

/-- A point that resets forgets what the scratch buffers held. -/
theorem flashStep_of_condA (i : grid1.Coords) (q k v : Vec F S1x1024x64 .bf16) (s s' : St F) (h : condA i) :
    flashStep i q k v s = flashStep i q k v s' := by
  unfold flashStep; rw [if_pos h, if_pos h]

/-- The zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, LAST, leaves its payload as the buffer's contents, whatever was
    stored or held before. -/
theorem read_writes_whole {Val : EltTy → Type} [∀ e, Nonempty (Val e)] {sg : RefSig} {κ : Kind} {sp : Space} {S : Shape} {e : EltTy}
    (vw : View sg κ sp S e) (f : vw.ty.Contents Val) {off : Fin S.rank → Nat} (h : off = fun _ => 0)
    (inb : ∀ a, off a + S.size a ≤ S.size a) (w : S.Idx → Val e) (L : List (View.Piece Val S e)) :
    vw.read Val (vw.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load through the whole-shape rectangle after such a store reads the payload. -/
theorem readCov_whole {Val : EltTy → Type} [∀ e, Nonempty (Val e)] {sg : RefSig} {κ : Kind} {sp : Space} {S : Shape} {e : EltTy}
    (vw : View sg κ sp S e) {off : Fin S.rank → Nat} (h : off = fun _ => 0)
    (inb : ∀ a, off a + S.size a ≤ S.size a) (w : S.Idx → Val e) (L : List (View.Piece Val S e)) :
    vw.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

set_option maxHeartbeats 1000000 in
/-- The body's triple at a point where ki ≠ 0, ki > qi and ki ≠ 3: nothing is stored. -/
theorem flash_run_nnn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : ¬condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = s := by
    unfold flashStep; simp only [if_neg hA, if_neg hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; · ipureintro; exact hf9
  iexact H9

set_option maxHeartbeats 1000000 in
/-- The body's triple at a point where ki ≠ 0, ki > qi and ki = 3: the output tile is written. -/
theorem flash_run_nnC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : ¬condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = s := by
    unfold flashStep; simp only [if_neg hA, if_neg hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr; · ipureintro; exact hf7
    iexact H7
  isplitl [H8]
  · iexists _; isplitr; · ipureintro; exact hf8
    iexact H8
  iexists _; isplitr; · ipureintro; exact hf9
  iexact H9

set_option maxHeartbeats 1000000 in
/-- The body's triple at a point where ki ≠ 0, ki ≤ qi and ki ≠ 3: the tile pair is folded in. -/
theorem flash_run_nBn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v s := by
    unfold flashStep; simp only [if_neg hA, if_pos hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki ≠ 0, ki ≤ qi and ki = 3: the tile pair is folded in, the output tile is written. -/
theorem flash_run_nBC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v s := by
    unfold flashStep; simp only [if_neg hA, if_pos hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki > qi and ki ≠ 3: the scratch buffers are reset. -/
theorem flash_run_Ann (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : ¬condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stReset := by
    unfold flashStep; simp only [if_pos hA, if_neg hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki > qi and ki = 3: the scratch buffers are reset, the output tile is written. -/
theorem flash_run_AnC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : ¬condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stReset := by
    unfold flashStep; simp only [if_pos hA, if_neg hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki ≤ qi and ki ≠ 3: the scratch buffers are reset, the tile pair is folded in. -/
theorem flash_run_ABn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v stReset := by
    unfold flashStep; simp only [if_pos hA, if_pos hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki ≤ qi and ki = 3: the scratch buffers are reset, the tile pair is folded in, the output tile is written. -/
theorem flash_run_ABC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v stReset := by
    unfold flashStep; simp only [if_pos hA, if_pos hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

/-- The body's triple: on whole memrefs holding the three input tiles, the output tile's buffer at `o` and the three
    scratch buffers at `s`, the kernel function runs to its return leaving the inputs as they were, the scratch
    buffers at `flashStep` and the output buffer at `flashEmit`. -/
theorem flash_run (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  by_cases hA : condA i <;> by_cases hB : condB i <;> by_cases hC : condC i
  · exact flash_run_ABC c E i a3 h3 a4 h4 a5 h5 a6 h6 a7 h7 a8 h8 a9 h9 q k v o s K hA hB hC
  · exact flash_run_ABn c E i a3 h3 a4 h4 a5 h5 a6 h6 a7 h7 a8 h8 a9 h9 q k v o s K hA hB hC
  · exact flash_run_AnC c E i a3 h3 a4 h4 a5 h5 a6 h6 a7 h7 a8 h8 a9 h9 q k v o s K hA hB hC
  · exact flash_run_Ann c E i a3 h3 a4 h4 a5 h5 a6 h6 a7 h7 a8 h8 a9 h9 q k v o s K hA hB hC
  · exact flash_run_nBC c E i a3 h3 a4 h4 a5 h5 a6 h6 a7 h7 a8 h8 a9 h9 q k v o s K hA hB hC
  · exact flash_run_nBn c E i a3 h3 a4 h4 a5 h5 a6 h6 a7 h7 a8 h8 a9 h9 q k v o s K hA hB hC
  · exact flash_run_nnC c E i a3 h3 a4 h4 a5 h5 a6 h6 a7 h7 a8 h8 a9 h9 q k v o s K hA hB hC
  · exact flash_run_nnn c E i a3 h3 a4 h4 a5 h5 a6 h6 a7 h7 a8 h8 a9 h9 q k v o s K hA hB hC

end Cert.Kernel.Hand

end
-- ==== Proof.Bits.Data.lean ====
/-
  The proof data of the three pallas_calls, each at the buffer contents `V` its region is entered from: the windows'
  blocks at a grid point, what the body leaves in every window's staging buffer there, and — for the attention
  call — what the three scratch buffers hold after every point: the fold of the online-softmax step along the
  grid's row-major order, restarted wherever the key-tile coordinate is 0.
-/
import proofs.«429902_j84310208020548_3_alg».proof.Proof.Bits.LinearBody
import proofs.«429902_j84310208020548_3_alg».proof.Proof.Bits.FlashBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, read off the region-entry contents -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same blocks at their literal vector types. -/
abbrev xTile0 (c : Dev nD) (t : Fin cfg0.N) : Vec F S512x1024 .f32 := iblk0 V c 0 t
abbrev wTile0 (c : Dev nD) (t : Fin cfg0.N) : Vec F S3072x1024 .bf16 := iblk0 V c 1 t
abbrev qTile (c : Dev nD) (t : Fin cfg1.N) : Vec F S1x1024x64 .bf16 := iblk1 V c 0 t
abbrev kTile (c : Dev nD) (t : Fin cfg1.N) : Vec F S1x1024x64 .bf16 := iblk1 V c 1 t
abbrev vTile (c : Dev nD) (t : Fin cfg1.N) : Vec F S1x1024x64 .bf16 := iblk1 V c 2 t
abbrev yTile2 (c : Dev nD) (t : Fin cfg2.N) : Vec F S512x1024 .bf16 := iblk2 V c 0 t
abbrev wTile2 (c : Dev nD) (t : Fin cfg2.N) : Vec F S1024x1024 .bf16 := iblk2 V c 1 t

/-! ## The attention call's scratch buffers after each point -/

/-- The scratch buffers after the body at position `n` of the grid's row-major order. Position 0 opens a sweep
    (its key-tile coordinate is 0), so what the buffers held before it does not matter. -/
def scr (c : Dev nD) : (n : ℕ) → n < cfg1.N → St F
  | 0, h => flashStep (grid1.coords ⟨0, h⟩) (qTile V c ⟨0, h⟩) (kTile V c ⟨0, h⟩) (vTile V c ⟨0, h⟩) stReset
  | n + 1, h => flashStep (grid1.coords ⟨n + 1, h⟩) (qTile V c ⟨n + 1, h⟩) (kTile V c ⟨n + 1, h⟩) (vTile V c ⟨n + 1, h⟩)
      (scr c n (Nat.lt_of_succ_lt h))

theorem scr_succ (c : Dev nD) (n : ℕ) (h : n + 1 < cfg1.N) :
    scr V c (n + 1) h = flashStep (grid1.coords ⟨n + 1, h⟩) (qTile V c ⟨n + 1, h⟩) (kTile V c ⟨n + 1, h⟩) (vTile V c ⟨n + 1, h⟩)
      (scr V c n (Nat.lt_of_succ_lt h)) := rfl

/-- The scratch operands as memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x64 .f32 := Memref.whole cc1_scratch2

/-- The scoped buffers of the other two calls (held at anything) and the generator register (at some state): the part
    of the attention region's invariant that its body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ r, prngReg c r))

/-- The attention region's invariant before position `n`: before the first point every scoped buffer the pipeline
    does not stage is held at anything (and the generator register at some state); afterwards the three scratch
    buffers hold what the point before left, the others as before. -/
def PhiS (c : Dev nD) : (n : ℕ) → n ≤ cfg1.N → sProp 𝕄
  | 0, _ => Pipeline.ΦA spec1 c
  | n + 1, hn => iprop(owns (c : Thread nD τ) scM0 fullShare (scr V c n hn).1 ∗ owns (c : Thread nD τ) scM1 fullShare (scr V c n hn).2.1
      ∗ owns (c : Thread nD τ) scM2 fullShare (scr V c n hn).2.2 ∗ rest1 c)

/-! ## The proof data -/

/-- First projection: the row tile and the weight as fetched, the output tile at their product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut0 (xTile0 V c t) (wTile0 V c t)
  Φ _ := Pipeline.ΦA spec0 c
  q _ := fullShare
  owed _ := 0

/-- Attention: the three input tiles as fetched; the output tile's buffer at the quotient of the scratch buffers'
    contents after the point (consulted only where the tile is written back: the sweep's last point). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flashOut (scr V c t.val t.isLt)
  Φ t := PhiS V c t.val (Nat.le_of_lt_succ t.isLt)
  q _ := fullShare
  owed _ := 0

/-- Second projection. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => linOut2 (yTile2 V c t) (wTile2 V c t)
  Φ _ := Pipeline.ΦA spec2 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut0 (xTile0 V c t) (wTile0 V c t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flashOut (scr V c t.val t.isLt) := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = linOut2 (yTile2 V c t) (wTile2 V c t) := by dsimp only [dat2]

end Cert.Kernel.Hand

end
-- ==== Proof.Bits.ObligLinear.lean ====
/-
  The two projection calls' body obligations: at every grid point the pipeline hands the body its windows' staging
  buffers — the inputs holding their blocks, fetched there or not —, the body leaves the output tile at the product,
  and the region's invariant and the core's dues pass through untouched.
-/
import proofs.«429902_j84310208020548_3_alg».proof.Proof.Bits.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Projection one: the input windows' buffers, and the body at a generic point -/

/-- The row tile's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight's staging buffer holds the whole weight at every point, though fetched at the first only: its block
    index never moves. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (linear0_run c Set.univ _ _ _ _ _ _ _ (xTile0 V c t) (wTile0 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The first projection's body obligation. -/
theorem body_obligation0 (c : Dev nD) : BodyObligation (dat0 (F := F) V c) (defs₀ (F := F)) Variants.none () Set.univ := fun t => by
  rw [bigSep_W0, bigSep_W0]
  exact sound_body0 V c t

/-! ## Projection two: the input windows' buffers, and the body at a generic point -/

/-- The row tile's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's staging buffer holds the whole weight at every point, though fetched at the first only: its block
    index never moves. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the kernel's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (linear2_run c Set.univ _ _ _ _ _ _ _ (yTile2 V c t) (wTile2 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second projection's body obligation. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.ObligFlash.lean ====
/-
  The attention call's body obligation.  The grid's row-major position t is (head, query tile qi, key tile ki) with
  ki = t mod 4 and qi = (t / 4) mod 4; the body resets its scratch buffers where ki = 0, folds the tile pair in where
  ki ≤ qi, and writes the output tile where ki = 3 — the only points at which the pipeline writes that window back;
  elsewhere the output window's buffer is handed back as found.  The invariant carries the scratch buffers'
  contents from one point to the next.
-/
import proofs.«429902_j84310208020548_3_alg».proof.Proof.Bits.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's conditions and the output window's schedule, in closed form over the grid -/

/-- The reset condition holds exactly where the key-tile coordinate is 0. -/
theorem hcondA : ∀ t : Fin cfg1.N, condA (grid1.coords t) ↔ t.val % 4 = 0 :=
  (by decide +kernel : ∀ t : Fin grid1.N, condA (grid1.coords t) ↔ t.val % 4 = 0)

/-- The write condition holds exactly where the key-tile coordinate is 3. -/
theorem hcondC : ∀ t : Fin cfg1.N, condC (grid1.coords t) ↔ t.val % 4 = 3 :=
  (by decide +kernel : ∀ t : Fin grid1.N, condC (grid1.coords t) ↔ t.val % 4 = 3)

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- The output window is live exactly where the body writes it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- idle elsewhere, -/
theorem idleAt1_3 : ∀ t : Fin cfg1.N, ¬t.val % 4 = 3 → cfg1.idle 3 (grid1.coords t) = true :=
  (by decide +kernel : ∀ t : Fin grid1.N, ¬t.val % 4 = 3 → cfg1.idle 3 (grid1.coords t) = true)
/-- and there the pipeline does not write its block back. -/
theorem noFlush1_3 : ∀ t : Fin cfg1.N, ¬t.val % 4 = 3 → (cfg1.win 3).flush t = false :=
  (by decide +kernel : ∀ t : Fin grid1.N, ¬t.val % 4 = 3 → win1_3.flush t = false)

/-! ## What the input windows' buffers hold when the body runs -/

/-- Each input window's current buffer holds its block at every point, fetched there or not: where it is not
    fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant -/

theorem PhiS_zero (c : Dev nD) (n : ℕ) (h : n ≤ cfg1.N) (hz : n = 0) : PhiS V c n h = Pipeline.ΦA spec1 c := by
  subst hz; rfl

/-- After position `n`: the scratch buffers at that point's contents. -/
theorem PhiS_succ (c : Dev nD) (n : ℕ) (hn : n < cfg1.N) :
    PhiS V c (n + 1) hn = iprop(owns (c : Thread nD τ) scM0 fullShare (scr V c n hn).1 ∗ owns (c : Thread nD τ) scM1 fullShare (scr V c n hn).2.1
      ∗ owns (c : Thread nD τ) scM2 fullShare (scr V c n hn).2.2 ∗ rest1 c) := rfl

/-- The invariant at a point's start, restated at the position's value. -/
theorem PhiS_castSucc (c : Dev nD) (t : Fin cfg1.N) :
    (dat1 V c).Φ t.castSucc = PhiS V c t.val (Nat.le_of_lt t.isLt) := by
  dsimp only [dat1]; simp only [Fin.coe_castSucc]

/-- The three scratch buffers at some contents beside the part the body never touches. -/
def scrAny (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ rest1 (F := F) c)

/-- What the launch hands the region holds the three scratch buffers at some contents, -/
theorem PhiA1_open (c : Dev nD) : (Pipeline.ΦA spec1 c : sProp 𝕄) ⊢ scrAny (F := F) c := by
  unfold Pipeline.ΦA scrAny rest1; rw [scopedRest1_eq]; simp only [owns_whole]
  iintro ⟨⟨H1, H2, H3, H4, H5, S0, S1, S2, H6, H7, H8, H9, H10⟩, Hg⟩
  isplitl [S0]; · iexact S0
  isplitl [S1]; · iexact S1
  isplitl [S2]; · iexact S2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hg

/-- and conversely. -/
theorem PhiA1_close (c : Dev nD) : scrAny (F := F) c ⊢ (Pipeline.ΦA spec1 c : sProp 𝕄) := by
  unfold Pipeline.ΦA scrAny rest1; rw [scopedRest1_eq]; simp only [owns_whole]
  iintro ⟨S0, S1, S2, H1, H2, H3, H4, H5, H6, H7, H8, H9, H10, Hg⟩
  isplitr [Hg]
  · isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [H6]; · iexact H6
    isplitl [H7]; · iexact H7
    isplitl [H8]; · iexact H8
    isplitl [H9]; · iexact H9
    iexact H10
  iexact Hg

/-- So the two are one assertion. -/
theorem PhiA1_eq (c : Dev nD) : (Pipeline.ΦA spec1 c : sProp 𝕄) = scrAny (F := F) c :=
  BI.equiv_iff.mp ⟨PhiA1_open c, PhiA1_close c⟩

/-- What the launch hands the region is the invariant before the first point. -/
theorem phi1_in (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the scoped rest back, the scratch buffers' contents forgotten. -/
theorem phi1_out (c : Dev nD) : (dat1 V c).Φ (Fin.last cfg1.N) ⊢ (Pipeline.ΦA spec1 c : sProp 𝕄) := by
  have hN : cfg1.N = 255 + 1 := N_1
  rw [show (dat1 V c).Φ (Fin.last cfg1.N) = PhiS V c cfg1.N (Nat.le_refl _) from rfl]
  refine Idealize.SL.BI.Entails.trans ?_ (PhiA1_close c)
  have h : ∀ (n : ℕ) (hn : n ≤ cfg1.N), n = 255 + 1 → PhiS V c n hn ⊢ scrAny (F := F) c := by
    intro n hn e; subst e
    rw [PhiS_succ]; unfold scrAny
    iintro ⟨S0, S1, S2, Hr⟩
    isplitl [S0]; · iexists _; iexact S0
    isplitl [S1]; · iexists _; iexact S1
    isplitl [S2]; · iexists _; iexact S2
    iexact Hr
  exact h _ _ hN

/-! ## The body at a point -/

/-- Each window's current staging memref at point `t`, at its literal type, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- The body at point `t` from scratch contents `s` that one step takes to the point's own: the three inputs come
    back as they were, the scratch buffers at the step's result, and the output window's buffer at the quotient
    where the key-tile coordinate is 3 (live, written back) and as found elsewhere (idle, not written back). -/
theorem sound_core (c : Dev nD) (t : Fin cfg1.N) (s : St F)
    (hs : flashStep (grid1.coords t) (qTile V c t) (kTile V c t) (vTile V c t) s = scr V c t.val t.isLt) :
    iprop(owns (c : Thread nD τ) scM0 fullShare s.1 ∗ owns (c : Thread nD τ) scM1 fullShare s.2.1
        ∗ owns (c : Thread nD τ) scM2 fullShare s.2.2 ∗ rest1 c ∗ (dat1 V c).owesAt () t.castSucc
        ∗ owns (c : Thread nD τ) (ms1_0 t) fullShare (qTile V c t)
        ∗ owns (c : Thread nD τ) (ms1_1 t) fullShare (kTile V c t)
        ∗ owns (c : Thread nD τ) (ms1_2 t) fullShare (vTile V c t)
        ∗ (∃ d, owns (c : Thread nD τ) (ms1_3 t) fullShare ((dat1 V c).before 3 t d)))
      ⊢ wp frame (wpE (defs₀ (F := F)) Variants.none c none) Set.univ (bodyAt1 t) (fun _ => bodyPost1 V c t) := by
  unfold bodyPost1 bodyAt1
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases hC : t.val % 4 = 3
  · have hE : ∀ (st : St F) (o : Vec F S1x1024x64 .bf16), flashEmit (grid1.coords t) st o = flashOut st :=
      fun st o => if_pos ((hcondC t).mpr hC)
    rw [show (dat1 V c).leavesExact 3 t = owns (c : Thread nD τ) (ms1_3 t) fullShare ((dat1 V c).after 3 t) from by
      unfold Dat.leavesExact; rw [liveAt1_3 t hC], after1_3]
    rw [← hs]
    iintro ⟨HS0, HS1, HS2, Hr, Ho, H0, H1, H2, ⟨%d, H3⟩⟩
    iapply (flash_run c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      (qTile V c t) (kTile V c t) (vTile V c t) ((dat1 V c).before 3 t d) s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [hE]
    iintro ⟨H0, H1, H2, H3, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    iexact H3
  · have hE : ∀ (st : St F) (o : Vec F S1x1024x64 .bf16), flashEmit (grid1.coords t) st o = o :=
      fun st o => if_neg (fun h => hC ((hcondC t).mp h))
    rw [Dat.leavesExact_idle (dat1 V c) 3 t (idleAt1_3 t hC) (noFlush1_3 t hC)]
    rw [← hs]
    iintro ⟨HS0, HS1, HS2, Hr, Ho, H0, H1, H2, ⟨%d, H3⟩⟩
    iapply (flash_run c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      (qTile V c t) (kTile V c t) (vTile V c t) ((dat1 V c).before 3 t d) s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [hE]
    iintro ⟨H0, H1, H2, H3, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    iexists d; iexact H3

set_option maxHeartbeats 1600000 in
/-- The body at any point.  At the first the scratch buffers hold anything, and the point resets them; at a later
    one they hold what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  simp only [before1_0, before1_1, before1_2]
  rw [PhiS_castSucc]
  obtain ⟨n, hn⟩ := t
  cases n with
  | zero =>
    rw [PhiS_zero V c _ _ rfl, PhiA1_eq]
    unfold scrAny
    iintro ⟨⟨⟨%d0, S0⟩, ⟨%d1, S1⟩, ⟨%d2, S2⟩, Hr⟩, Ho, ⟨%e0, H0⟩, ⟨%e1, H1⟩, ⟨%e2, H2⟩, H3⟩
    iapply (sound_core V c ⟨0, hn⟩ (d0, d1, d2)
      ((flashStep_of_condA _ _ _ _ (d0, d1, d2) stReset ((hcondA ⟨0, hn⟩).mpr rfl)).trans rfl))
    isplitl [S0]; · iexact S0
    isplitl [S1]; · iexact S1
    isplitl [S2]; · iexact S2
    isplitl [Hr]; · iexact Hr
    isplitl [Ho]; · iexact Ho
    isplitl [H0]; · iexact H0
    isplitl [H1]; · iexact H1
    isplitl [H2]; · iexact H2
    iexact H3
  | succ n =>
    rw [PhiS_succ]
    iintro ⟨⟨S0, S1, S2, Hr⟩, Ho, ⟨%e0, H0⟩, ⟨%e1, H1⟩, ⟨%e2, H2⟩, H3⟩
    iapply (sound_core V c ⟨n + 1, hn⟩ (scr V c n (Nat.lt_of_succ_lt hn)) (scr_succ V c n hn).symm)
    isplitl [S0]; · iexact S0
    isplitl [S1]; · iexact S1
    isplitl [S2]; · iexact S2
    isplitl [Hr]; · iexact Hr
    isplitl [Ho]; · iexact Ho
    isplitl [H0]; · iexact H0
    isplitl [H1]; · iexact H1
    isplitl [H2]; · iexact H2
    iexact H3

/-- The attention call's body obligation. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Fold.lean ====
/-
  The buffer contents at each boundary of @main: a fold from the launch memory — a host stretch applies its
  operations, a region replaces its windows' arrays by what its write-backs leave.
-/
import proofs.«429902_j84310208020548_3_alg».proof.Proof.Bits.Data
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first projection: its arrays at what its write-backs leave. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (the second projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the second projection. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last host stretch: the end. -/
abbrev W7 : Dev nD → Valuation τ sig (Elt F) := fun c => StableHlo.after hostOps3 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Bits.Run.lean ====
/-
  The whole program as a run: @main is four stretches of host operations around the three pallas_calls.  The buffer
  contents at each boundary are a fold from the launch memory — a host stretch applies its operations, a region
  replaces its windows' arrays by what its write-backs leave — and every weakly fair execution ends with every
  unscoped buffer at the fold's last stage.  The argument arrays are written by nothing, so they end as launched.
-/
import proofs.«429902_j84310208020548_3_alg».proof.Proof.Bits.ObligLinear
import proofs.«429902_j84310208020548_3_alg».proof.Proof.Bits.ObligFlash
import proofs.«429902_j84310208020548_3_alg».proof.Proof.Bits.Fold
import proofs.«429902_j84310208020548_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- No host operation and no region writes an argument array: the fold at an argument's buffer walks back to the
    launch memory. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## What a region leaves: its arrays at what its write-backs leave, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- Every call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the fold's last stage, the generator
    register at some state. -/
abbrev Tₙ (c : Dev nD) : sProp 𝕄 := iprop(StableHlo.held (c : Thread nD τ) (Pipeline.ucRefs τ sig) (W7 m c) ∗ ∃ r, prngReg c r)

/-- The last host stretch's exit is the last thread state beside the core owing nothing. -/
theorem last_chain (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first projection: entered from every unscoped buffer at `W1`, left at `W2`. Its arrays are split out of the
    unscoped buffers and put back at the exit contents; the generator register goes into the invariant and comes
    back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from `W3`, left at `W4`. Its invariant carries the scratch buffers' contents from point
    to point; at the two ends it is the scoped rest and the generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := phi1_in (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := phi1_out (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection: entered from `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: every weakly fair execution of @main terminates, and every final memory holds every unscoped buffer at
    the fold's last stage. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame claim: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.Kernel.Hand

end
-- ==== Proof.Ideal.LinearBody.lean ====
/-
  The two projection kernels' bodies at one grid point: a tile of rows of the left operand against the whole
  (resident) weight, contracted over the shared axis into the output tile.  The first rounds its input tile to
  bf16 and its product to bf16 (identities over the reals); the second leaves the f32 product.
-/
import proofs.«429902_j84310208020548_3_alg».proof.Proof.Gen.KernelIdeal.Launch
import proofs.«429902_j84310208020548_3_alg».proof.Proof.Gen.KernelIdeal.Skeleton
import proofs.«429902_j84310208020548_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The whole-buffer rectangles of the linear kernels' accesses. -/
abbrev rX0 : Rect S512x1024 := Rect.unit (s := S512x1024) ![0, 0] S512x1024.size inb_S512x1024_S512x1024_0_0
abbrev rW0 : Rect S3072x1024 := Rect.unit (s := S3072x1024) ![0, 0] S3072x1024.size inb_S3072x1024_S3072x1024_0_0
abbrev rO0 : Rect S512x3072 := Rect.unit (s := S512x3072) ![0, 0] S512x3072.size inb_S512x3072_S512x3072_0_0
abbrev rW2 : Rect S1024x1024 := Rect.unit (s := S1024x1024) ![0, 0] S1024x1024.size inb_S1024x1024_S1024x1024_0_0

/-- What the first projection's body leaves in its output tile: the product of the row tile with the weight. -/
def linOut0 (x : Vec F S512x1024 .f32) (w : Vec F S3072x1024 .bf16) : Vec F S512x3072 .bf16 :=
  View.canon [⟨rO0, k0_pay1 (View.ld x rX0) (View.ld w rW0)⟩]

/-- What the second projection's body leaves in its output tile. -/
def linOut2 (x : Vec F S512x1024 .bf16) (w : Vec F S1024x1024 .bf16) : Vec F S512x1024 .f32 :=
  View.canon [⟨rX0, k2_pay1 (View.ld x rX0) (View.ld w rW2)⟩]

/-- The zero offsets of a rank-2 access are the constant zero function. -/
theorem linZeros2 : (![0, 0] : Fin 2 → Nat) = fun _ => 0 := funext fun a => by fin_cases a <;> rfl

/-- The one store covers the whole tile, and the loads read whole tiles: the tile is the payload itself. -/
theorem linOut0_eq (x : Vec F S512x1024 .f32) (w : Vec F S3072x1024 .bf16) : linOut0 x w = k0_pay1 x w := by
  unfold linOut0
  rw [View.canon_unit_zero (S := S512x3072) linZeros2 inb_S512x3072_S512x3072_0_0]
  rw [View.ld_unit_zero (S := S512x1024) linZeros2 inb_S512x1024_S512x1024_0_0,
    View.ld_unit_zero (S := S3072x1024) linZeros2 inb_S3072x1024_S3072x1024_0_0]

theorem linOut2_eq (x : Vec F S512x1024 .bf16) (w : Vec F S1024x1024 .bf16) : linOut2 x w = k2_pay1 x w := by
  unfold linOut2
  rw [View.canon_unit_zero (S := S512x1024) linZeros2 inb_S512x1024_S512x1024_0_0]
  rw [View.ld_unit_zero (S := S512x1024) linZeros2 inb_S512x1024_S512x1024_0_0,
    View.ld_unit_zero (S := S1024x1024) linZeros2 inb_S1024x1024_S1024x1024_0_0]

/-- The first projection kernel's triple on whole staging memrefs. -/
theorem linear0_run (c : Dev nD) (E : Set ℕ) (i : grid0.Coords)
    (a1 : Memref sig .tc .vmem S512x1024 .f32) (h1 : a1.IsWhole) (a2 : Memref sig .tc .vmem S3072x1024 .bf16) (h2 : a2.IsWhole)
    (a3 : Memref sig .tc .vmem S512x3072 .bf16) (h3 : a3.IsWhole)
    (x : Vec F S512x1024 .f32) (w : Vec F S3072x1024 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (linOut0 x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rO0, _⟩] S512x3072.size (by rfl))

/-- The second projection kernel's triple on whole staging memrefs. -/
theorem linear2_run (c : Dev nD) (E : Set ℕ) (i : grid2.Coords)
    (a1 : Memref sig .tc .vmem S512x1024 .bf16) (h1 : a1.IsWhole) (a2 : Memref sig .tc .vmem S1024x1024 .bf16) (h2 : a2.IsWhole)
    (a3 : Memref sig .tc .vmem S512x1024 .f32) (h3 : a3.IsWhole)
    (x : Vec F S512x1024 .bf16) (w : Vec F S1024x1024 .bf16) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (linOut2 x w)) -∗ K ⟨⟩))
      ⊢ wp frame (wpE (defs₀ (F := F)) Variants.none c none) E (cc2__linear_kernel i a1 h1 a2 h2 a3 h3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled [⟨rX0, _⟩] S512x1024.size (by rfl))

end Cert.KernelIdeal.Hand

end
-- ==== Proof.Ideal.FlashBody.lean ====
/-
  The attention kernel's body at one grid point (head, query tile qi, key tile ki), as a transformer of the three
  scratch buffers it carries from point to point — the running row maximum, the running row sum of exponentials and
  the running weighted sum of value rows — and of the output tile.  At ki = 0 the three are reset; when ki ≤ qi the
  tile pair is folded in by the online-softmax update; at the last key tile the output tile is the weighted sum
  divided by the sum of exponentials.  The three conditions are the kernel's own scalar comparisons of the grid
  coordinates.
-/
import proofs.«429902_j84310208020548_3_alg».proof.Proof.Gen.KernelIdeal.Launch
import proofs.«429902_j84310208020548_3_alg».proof.Proof.Gen.KernelIdeal.Skeleton
import proofs.«429902_j84310208020548_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three scratch buffers' contents: running maximum, running sum, running weighted sum. -/
abbrev St (F : FTy → Type) [FloatOps F] : Type := Vec F S1024x1 .f32 × Vec F S1024x1 .f32 × Vec F S1024x64 .f32

/-- ki = 0: the point opens a sweep over the key tiles and resets the scratch buffers. -/
abbrev condA (i : grid1.Coords) : Prop :=
  (Scalar.cmpi .ne (Scalar.extui (Scalar.cmpi .eq (BitVec.ofNat 32 (i 2).val) 0#32)) 0#32) = 1#1
/-- ki ≤ qi: the key tile is not wholly above the diagonal, so it is folded in. -/
abbrev condB (i : grid1.Coords) : Prop :=
  (Scalar.cmpi .ne (Scalar.extui (Scalar.cmpi .sle (BitVec.ofNat 32 (i 2).val) (BitVec.ofNat 32 (i 1).val))) 0#32) = 1#1
/-- ki = 3: the sweep's last point, where the output tile is written. -/
abbrev condC (i : grid1.Coords) : Prop := k1_cond3 i = 1#1

/-- The scratch buffers after the reset: maximum −∞, sum 0, weighted sum 0. -/
def stReset : St F := (k1_pay1, k1_pay2, k1_pay3)

/-- The online-softmax update of the scratch buffers by one (query tile, key tile, value tile) triple. -/
def stUpd (a1 a2 : BitVec 32) (q k v : Vec F S1x1024x64 .bf16) (s : St F) : St F :=
  (k1_pay6 (k1_pay10 a1 a2 q k s.1),
   k1_pay4 (k1_pay13 a1 a2 q k s.1 s.2.1),
   k1_pay5 (k1_pay8 v) (k1_pay11 a1 a2 q k s.1) (k1_pay12 a1 a2 q k s.1) s.2.2)

/-- One grid point's effect on the scratch buffers. -/
def flashStep (i : grid1.Coords) (q k v : Vec F S1x1024x64 .bf16) (s : St F) : St F :=
  let s1 := if condA i then stReset else s
  if condB i then stUpd (BitVec.ofNat 32 (i 1).val) (BitVec.ofNat 32 (i 2).val) q k v s1 else s1

/-- The output tile written at the sweep's last point: weighted sum over sum of exponentials. -/
def flashOut (s : St F) : Vec F S1x1024x64 .bf16 := k1_pay7 s.2.2 s.2.1

/-- One grid point's effect on the output window's staging buffer. -/
def flashEmit (i : grid1.Coords) (s : St F) (o : Vec F S1x1024x64 .bf16) : Vec F S1x1024x64 .bf16 :=
  if condC i then flashOut s else o

/-- A point that resets forgets what the scratch buffers held. -/
theorem flashStep_of_condA (i : grid1.Coords) (q k v : Vec F S1x1024x64 .bf16) (s s' : St F) (h : condA i) :
    flashStep i q k v s = flashStep i q k v s' := by
  unfold flashStep; rw [if_pos h, if_pos h]

/-- The zero offsets, however spelt. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, LAST, leaves its payload as the buffer's contents, whatever was
    stored or held before. -/
theorem read_writes_whole {Val : EltTy → Type} [∀ e, Nonempty (Val e)] {sg : RefSig} {κ : Kind} {sp : Space} {S : Shape} {e : EltTy}
    (vw : View sg κ sp S e) (f : vw.ty.Contents Val) {off : Fin S.rank → Nat} (h : off = fun _ => 0)
    (inb : ∀ a, off a + S.size a ≤ S.size a) (w : S.Idx → Val e) (L : List (View.Piece Val S e)) :
    vw.read Val (vw.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load through the whole-shape rectangle after such a store reads the payload. -/
theorem readCov_whole {Val : EltTy → Type} [∀ e, Nonempty (Val e)] {sg : RefSig} {κ : Kind} {sp : Space} {S : Shape} {e : EltTy}
    (vw : View sg κ sp S e) {off : Fin S.rank → Nat} (h : off = fun _ => 0)
    (inb : ∀ a, off a + S.size a ≤ S.size a) (w : S.Idx → Val e) (L : List (View.Piece Val S e)) :
    vw.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

set_option maxHeartbeats 1000000 in
/-- The body's triple at a point where ki ≠ 0, ki > qi and ki ≠ 3: nothing is stored. -/
theorem flash_run_nnn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : ¬condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = s := by
    unfold flashStep; simp only [if_neg hA, if_neg hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  iexists _; isplitr; · ipureintro; exact hf9
  iexact H9

set_option maxHeartbeats 1000000 in
/-- The body's triple at a point where ki ≠ 0, ki > qi and ki = 3: the output tile is written. -/
theorem flash_run_nnC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : ¬condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = s := by
    unfold flashStep; simp only [if_neg hA, if_neg hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr; · ipureintro; exact hf7
    iexact H7
  isplitl [H8]
  · iexists _; isplitr; · ipureintro; exact hf8
    iexact H8
  iexists _; isplitr; · ipureintro; exact hf9
  iexact H9

set_option maxHeartbeats 1000000 in
/-- The body's triple at a point where ki ≠ 0, ki ≤ qi and ki ≠ 3: the tile pair is folded in. -/
theorem flash_run_nBn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v s := by
    unfold flashStep; simp only [if_neg hA, if_pos hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki ≠ 0, ki ≤ qi and ki = 3: the tile pair is folded in, the output tile is written. -/
theorem flash_run_nBC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : ¬condA i) (hB : condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v s := by
    unfold flashStep; simp only [if_neg hA, if_pos hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki > qi and ki ≠ 3: the scratch buffers are reset. -/
theorem flash_run_Ann (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : ¬condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stReset := by
    unfold flashStep; simp only [if_pos hA, if_neg hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki > qi and ki = 3: the scratch buffers are reset, the output tile is written. -/
theorem flash_run_AnC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : ¬condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stReset := by
    unfold flashStep; simp only [if_pos hA, if_neg hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki ≤ qi and ki ≠ 3: the scratch buffers are reset, the tile pair is folded in. -/
theorem flash_run_ABn (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : condB i) (hC : ¬condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v stReset := by
    unfold flashStep; simp only [if_pos hA, if_pos hB]
  have e2 : ∀ s', flashEmit i s' o = o := by intro s'; unfold flashEmit; rw [if_neg hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

set_option maxHeartbeats 1000000 in
/-- The body's triple at a point where ki = 0, ki ≤ qi and ki = 3: the scratch buffers are reset, the tile pair is folded in, the output tile is written. -/
theorem flash_run_ABC (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) (hA : condA i) (hB : condB i) (hC : condC i) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  have e1 : flashStep i q k v s = stUpd (BitVec.ofNat 32 (i 1).val) (BitVec.ofNat 32 (i 2).val) q k v stReset := by
    unfold flashStep; simp only [if_pos hA, if_pos hB]
  have e2 : ∀ s', flashEmit i s' o = flashOut s' := by intro s'; unfold flashEmit; rw [if_pos hC]
  rw [e1, e2]
  simp only [cc1__flash_causal_kernel_eq_skeleton]; unfold cc1__flash_causal_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hA | exact hB | exact hC)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    rotate_left
    · iexact H6
    · ipureintro
      sl_unfold_words
      rw [read_writes_whole _ _ hz3]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H7]
  · iexists _; isplitr
    rotate_left
    · iexact H7
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  isplitl [H8]
  · iexists _; isplitr
    rotate_left
    · iexact H8
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]
  · iexists _; isplitr
    rotate_left
    · iexact H9
    · ipureintro
      sl_unfold_words
      rw [read_writes_whole _ _ hz2]
      simp only [flashOut, stUpd, stReset, readCov_whole (S := S1024x1) _ hz2, readCov_whole (S := S1024x64) _ hz2, View.readAt_eq_ld, hf3, hf4, hf5, hf6, hf7, hf8, hf9, View.ld_unit_zero (S := S1x1024x64) hz3, View.ld_unit_zero (S := S1024x1) hz2, View.ld_unit_zero (S := S1024x64) hz2]

/-- The body's triple: on whole memrefs holding the three input tiles, the output tile's buffer at `o` and the three
    scratch buffers at `s`, the kernel function runs to its return leaving the inputs as they were, the scratch
    buffers at `flashStep` and the output buffer at `flashEmit`. -/
theorem flash_run (c : Dev nD) (E : Set ℕ) (i : grid1.Coords)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1024x64 .bf16) (h6 : a6.IsWhole)
    (a7 : Memref sig .tc .vmem S1024x1 .f32) (h7 : a7.IsWhole) (a8 : Memref sig .tc .vmem S1024x1 .f32) (h8 : a8.IsWhole)
    (a9 : Memref sig .tc .vmem S1024x64 .f32) (h9 : a9.IsWhole)
    (q k v o : Vec F S1x1024x64 .bf16) (s : St F) (K : PUnit → sProp 𝕄) :
    iprop(owns (c : Thread nD τ) a3 fullShare q ∗ owns (c : Thread nD τ) a4 fullShare k ∗ owns (c : Thread nD τ) a5 fullShare v
        ∗ owns (c : Thread nD τ) a6 fullShare o
        ∗ owns (c : Thread nD τ) a7 fullShare s.1 ∗ owns (c : Thread nD τ) a8 fullShare s.2.1 ∗ owns (c : Thread nD τ) a9 fullShare s.2.2
        ∗ (iprop(owns (c : Thread nD τ) a3 fullShare q ∗ owns (c : Thread nD τ) a4 fullShare k ∗ owns (c : Thread nD τ) a5 fullShare v
            ∗ owns (c : Thread nD τ) a6 fullShare (flashEmit i (flashStep i q k v s) o)
            ∗ owns (c : Thread nD τ) a7 fullShare (flashStep i q k v s).1 ∗ owns (c : Thread nD τ) a8 fullShare (flashStep i q k v s).2.1
            ∗ owns (c : Thread nD τ) a9 fullShare (flashStep i q k v s).2.2) -∗ K ⟨⟩))
      ⊢ wp frame (wpE (defs₀ (F := F)) Variants.none c none) E (cc1__flash_causal_kernel i a3 h3 a4 h4 a5 h5 a6 h6 a7 h7 a8 h8 a9 h9) K := by
  by_cases hA : condA i <;> by_cases hB : condB i <;> by_cases hC : condC i
  · exact flash_run_ABC c E i a3 h3 a4 h4 a5 h5 a6 h6 a7 h7 a8 h8 a9 h9 q k v o s K hA hB hC
  · exact flash_run_ABn c E i a3 h3 a4 h4 a5 h5 a6 h6 a7 h7 a8 h8 a9 h9 q k v o s K hA hB hC
  · exact flash_run_AnC c E i a3 h3 a4 h4 a5 h5 a6 h6 a7 h7 a8 h8 a9 h9 q k v o s K hA hB hC
  · exact flash_run_Ann c E i a3 h3 a4 h4 a5 h5 a6 h6 a7 h7 a8 h8 a9 h9 q k v o s K hA hB hC
  · exact flash_run_nBC c E i a3 h3 a4 h4 a5 h5 a6 h6 a7 h7 a8 h8 a9 h9 q k v o s K hA hB hC
  · exact flash_run_nBn c E i a3 h3 a4 h4 a5 h5 a6 h6 a7 h7 a8 h8 a9 h9 q k v o s K hA hB hC
  · exact flash_run_nnC c E i a3 h3 a4 h4 a5 h5 a6 h6 a7 h7 a8 h8 a9 h9 q k v o s K hA hB hC
  · exact flash_run_nnn c E i a3 h3 a4 h4 a5 h5 a6 h6 a7 h7 a8 h8 a9 h9 q k v o s K hA hB hC

end Cert.KernelIdeal.Hand

end
-- ==== Proof.Ideal.Data.lean ====
/-
  The proof data of the three pallas_calls, each at the buffer contents `V` its region is entered from: the windows'
  blocks at a grid point, what the body leaves in every window's staging buffer there, and — for the attention
  call — what the three scratch buffers hold after every point: the fold of the online-softmax step along the
  grid's row-major order, restarted wherever the key-tile coordinate is 0.
-/
import proofs.«429902_j84310208020548_3_alg».proof.Proof.Ideal.LinearBody
import proofs.«429902_j84310208020548_3_alg».proof.Proof.Ideal.FlashBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks, read off the region-entry contents -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same blocks at their literal vector types. -/
abbrev xTile0 (c : Dev nD) (t : Fin cfg0.N) : Vec F S512x1024 .f32 := iblk0 V c 0 t
abbrev wTile0 (c : Dev nD) (t : Fin cfg0.N) : Vec F S3072x1024 .bf16 := iblk0 V c 1 t
abbrev qTile (c : Dev nD) (t : Fin cfg1.N) : Vec F S1x1024x64 .bf16 := iblk1 V c 0 t
abbrev kTile (c : Dev nD) (t : Fin cfg1.N) : Vec F S1x1024x64 .bf16 := iblk1 V c 1 t
abbrev vTile (c : Dev nD) (t : Fin cfg1.N) : Vec F S1x1024x64 .bf16 := iblk1 V c 2 t
abbrev yTile2 (c : Dev nD) (t : Fin cfg2.N) : Vec F S512x1024 .bf16 := iblk2 V c 0 t
abbrev wTile2 (c : Dev nD) (t : Fin cfg2.N) : Vec F S1024x1024 .bf16 := iblk2 V c 1 t

/-! ## The attention call's scratch buffers after each point -/

/-- The scratch buffers after the body at position `n` of the grid's row-major order. Position 0 opens a sweep
    (its key-tile coordinate is 0), so what the buffers held before it does not matter. -/
def scr (c : Dev nD) : (n : ℕ) → n < cfg1.N → St F
  | 0, h => flashStep (grid1.coords ⟨0, h⟩) (qTile V c ⟨0, h⟩) (kTile V c ⟨0, h⟩) (vTile V c ⟨0, h⟩) stReset
  | n + 1, h => flashStep (grid1.coords ⟨n + 1, h⟩) (qTile V c ⟨n + 1, h⟩) (kTile V c ⟨n + 1, h⟩) (vTile V c ⟨n + 1, h⟩)
      (scr c n (Nat.lt_of_succ_lt h))

theorem scr_succ (c : Dev nD) (n : ℕ) (h : n + 1 < cfg1.N) :
    scr V c (n + 1) h = flashStep (grid1.coords ⟨n + 1, h⟩) (qTile V c ⟨n + 1, h⟩) (kTile V c ⟨n + 1, h⟩) (vTile V c ⟨n + 1, h⟩)
      (scr V c n (Nat.lt_of_succ_lt h)) := rfl

/-- The scratch operands as memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x64 .f32 := Memref.whole cc1_scratch2

/-- The scoped buffers of the other two calls (held at anything) and the generator register (at some state): the part
    of the attention region's invariant that its body never touches. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ r, prngReg c r))

/-- The attention region's invariant before position `n`: before the first point every scoped buffer the pipeline
    does not stage is held at anything (and the generator register at some state); afterwards the three scratch
    buffers hold what the point before left, the others as before. -/
def PhiS (c : Dev nD) : (n : ℕ) → n ≤ cfg1.N → sProp 𝕄
  | 0, _ => Pipeline.ΦA spec1 c
  | n + 1, hn => iprop(owns (c : Thread nD τ) scM0 fullShare (scr V c n hn).1 ∗ owns (c : Thread nD τ) scM1 fullShare (scr V c n hn).2.1
      ∗ owns (c : Thread nD τ) scM2 fullShare (scr V c n hn).2.2 ∗ rest1 c)

/-! ## The proof data -/

/-- First projection: the row tile and the weight as fetched, the output tile at their product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => linOut0 (xTile0 V c t) (wTile0 V c t)
  Φ _ := Pipeline.ΦA spec0 c
  q _ := fullShare
  owed _ := 0

/-- Attention: the three input tiles as fetched; the output tile's buffer at the quotient of the scratch buffers'
    contents after the point (consulted only where the tile is written back: the sweep's last point). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => flashOut (scr V c t.val t.isLt)
  Φ t := PhiS V c t.val (Nat.le_of_lt_succ t.isLt)
  q _ := fullShare
  owed _ := 0

/-- Second projection. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => linOut2 (yTile2 V c t) (wTile2 V c t)
  Φ _ := Pipeline.ΦA spec2 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = linOut0 (xTile0 V c t) (wTile0 V c t) := by dsimp only [dat0]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = flashOut (scr V c t.val t.isLt) := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = linOut2 (yTile2 V c t) (wTile2 V c t) := by dsimp only [dat2]

end Cert.KernelIdeal.Hand

end
-- ==== Proof.Ideal.ObligLinear.lean ====
/-
  The two projection calls' body obligations: at every grid point the pipeline hands the body its windows' staging
  buffers — the inputs holding their blocks, fetched there or not —, the body leaves the output tile at the product,
  and the region's invariant and the core's dues pass through untouched.
-/
import proofs.«429902_j84310208020548_3_alg».proof.Proof.Ideal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Projection one: the input windows' buffers, and the body at a generic point -/

/-- The row tile's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The weight's staging buffer holds the whole weight at every point, though fetched at the first only: its block
    index never moves. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is handed at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (linear0_run c Set.univ _ _ _ _ _ _ _ (xTile0 V c t) (wTile0 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The first projection's body obligation. -/
theorem body_obligation0 (c : Dev nD) : BodyObligation (dat0 (F := F) V c) (defs₀ (F := F)) Variants.none () Set.univ := fun t => by
  rw [bigSep_W0, bigSep_W0]
  exact sound_body0 V c t

/-! ## Projection two: the input windows' buffers, and the body at a generic point -/

/-- The row tile's current staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The weight's staging buffer holds the whole weight at every point, though fetched at the first only: its block
    index never moves. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- What the body is handed at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the kernel's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (linear2_run c Set.univ _ _ _ _ _ _ _ (yTile2 V c t) (wTile2 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The second projection's body obligation. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.ObligFlash.lean ====
/-
  The attention call's body obligation.  The grid's row-major position t is (head, query tile qi, key tile ki) with
  ki = t mod 4 and qi = (t / 4) mod 4; the body resets its scratch buffers where ki = 0, folds the tile pair in where
  ki ≤ qi, and writes the output tile where ki = 3 — the only points at which the pipeline writes that window back;
  elsewhere the output window's buffer is handed back as found.  The invariant carries the scratch buffers'
  contents from one point to the next.
-/
import proofs.«429902_j84310208020548_3_alg».proof.Proof.Ideal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body's conditions and the output window's schedule, in closed form over the grid -/

/-- The reset condition holds exactly where the key-tile coordinate is 0. -/
theorem hcondA : ∀ t : Fin cfg1.N, condA (grid1.coords t) ↔ t.val % 4 = 0 :=
  (by decide +kernel : ∀ t : Fin grid1.N, condA (grid1.coords t) ↔ t.val % 4 = 0)

/-- The write condition holds exactly where the key-tile coordinate is 3. -/
theorem hcondC : ∀ t : Fin cfg1.N, condC (grid1.coords t) ↔ t.val % 4 = 3 :=
  (by decide +kernel : ∀ t : Fin grid1.N, condC (grid1.coords t) ↔ t.val % 4 = 3)

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- The output window is live exactly where the body writes it, -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)
/-- idle elsewhere, -/
theorem idleAt1_3 : ∀ t : Fin cfg1.N, ¬t.val % 4 = 3 → cfg1.idle 3 (grid1.coords t) = true :=
  (by decide +kernel : ∀ t : Fin grid1.N, ¬t.val % 4 = 3 → cfg1.idle 3 (grid1.coords t) = true)
/-- and there the pipeline does not write its block back. -/
theorem noFlush1_3 : ∀ t : Fin cfg1.N, ¬t.val % 4 = 3 → (cfg1.win 3).flush t = false :=
  (by decide +kernel : ∀ t : Fin grid1.N, ¬t.val % 4 = 3 → win1_3.flush t = false)

/-! ## What the input windows' buffers hold when the body runs -/

/-- Each input window's current buffer holds its block at every point, fetched there or not: where it is not
    fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The invariant -/

theorem PhiS_zero (c : Dev nD) (n : ℕ) (h : n ≤ cfg1.N) (hz : n = 0) : PhiS V c n h = Pipeline.ΦA spec1 c := by
  subst hz; rfl

/-- After position `n`: the scratch buffers at that point's contents. -/
theorem PhiS_succ (c : Dev nD) (n : ℕ) (hn : n < cfg1.N) :
    PhiS V c (n + 1) hn = iprop(owns (c : Thread nD τ) scM0 fullShare (scr V c n hn).1 ∗ owns (c : Thread nD τ) scM1 fullShare (scr V c n hn).2.1
      ∗ owns (c : Thread nD τ) scM2 fullShare (scr V c n hn).2.2 ∗ rest1 c) := rfl

/-- The invariant at a point's start, restated at the position's value. -/
theorem PhiS_castSucc (c : Dev nD) (t : Fin cfg1.N) :
    (dat1 V c).Φ t.castSucc = PhiS V c t.val (Nat.le_of_lt t.isLt) := by
  dsimp only [dat1]; simp only [Fin.coe_castSucc]

/-- The three scratch buffers at some contents beside the part the body never touches. -/
def scrAny (c : Dev nD) : sProp 𝕄 :=
  iprop((∃ d, owns (c : Thread nD τ) scM0 fullShare d) ∗ (∃ d, owns (c : Thread nD τ) scM1 fullShare d)
    ∗ (∃ d, owns (c : Thread nD τ) scM2 fullShare d) ∗ rest1 (F := F) c)

/-- What the launch hands the region holds the three scratch buffers at some contents, -/
theorem PhiA1_open (c : Dev nD) : (Pipeline.ΦA spec1 c : sProp 𝕄) ⊢ scrAny (F := F) c := by
  unfold Pipeline.ΦA scrAny rest1; rw [scopedRest1_eq]; simp only [owns_whole]
  iintro ⟨⟨H1, H2, H3, H4, H5, S0, S1, S2, H6, H7, H8, H9, H10⟩, Hg⟩
  isplitl [S0]; · iexact S0
  isplitl [S1]; · iexact S1
  isplitl [S2]; · iexact S2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact Hg

/-- and conversely. -/
theorem PhiA1_close (c : Dev nD) : scrAny (F := F) c ⊢ (Pipeline.ΦA spec1 c : sProp 𝕄) := by
  unfold Pipeline.ΦA scrAny rest1; rw [scopedRest1_eq]; simp only [owns_whole]
  iintro ⟨S0, S1, S2, H1, H2, H3, H4, H5, H6, H7, H8, H9, H10, Hg⟩
  isplitr [Hg]
  · isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    isplitl [H6]; · iexact H6
    isplitl [H7]; · iexact H7
    isplitl [H8]; · iexact H8
    isplitl [H9]; · iexact H9
    iexact H10
  iexact Hg

/-- So the two are one assertion. -/
theorem PhiA1_eq (c : Dev nD) : (Pipeline.ΦA spec1 c : sProp 𝕄) = scrAny (F := F) c :=
  BI.equiv_iff.mp ⟨PhiA1_open c, PhiA1_close c⟩

/-- What the launch hands the region is the invariant before the first point. -/
theorem phi1_in (c : Dev nD) : (Pipeline.ΦA spec1 c : sProp 𝕄) ⊢ (dat1 V c).Φ 0 := by
  rw [show (dat1 V c).Φ 0 = PhiS V c 0 (Nat.zero_le _) from rfl, PhiS_zero V c 0 _ rfl]

/-- After the last point the invariant gives the scoped rest back, the scratch buffers' contents forgotten. -/
theorem phi1_out (c : Dev nD) : (dat1 V c).Φ (Fin.last cfg1.N) ⊢ (Pipeline.ΦA spec1 c : sProp 𝕄) := by
  have hN : cfg1.N = 255 + 1 := N_1
  rw [show (dat1 V c).Φ (Fin.last cfg1.N) = PhiS V c cfg1.N (Nat.le_refl _) from rfl]
  refine Idealize.SL.BI.Entails.trans ?_ (PhiA1_close c)
  have h : ∀ (n : ℕ) (hn : n ≤ cfg1.N), n = 255 + 1 → PhiS V c n hn ⊢ scrAny (F := F) c := by
    intro n hn e; subst e
    rw [PhiS_succ]; unfold scrAny
    iintro ⟨S0, S1, S2, Hr⟩
    isplitl [S0]; · iexists _; iexact S0
    isplitl [S1]; · iexists _; iexact S1
    isplitl [S2]; · iexists _; iexact S2
    iexact Hr
  exact h _ _ hN

/-! ## The body at a point -/

/-- Each window's current staging memref at point `t`, at its literal type, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- The body at point `t` from scratch contents `s` that one step takes to the point's own: the three inputs come
    back as they were, the scratch buffers at the step's result, and the output window's buffer at the quotient
    where the key-tile coordinate is 3 (live, written back) and as found elsewhere (idle, not written back). -/
theorem sound_core (c : Dev nD) (t : Fin cfg1.N) (s : St F)
    (hs : flashStep (grid1.coords t) (qTile V c t) (kTile V c t) (vTile V c t) s = scr V c t.val t.isLt) :
    iprop(owns (c : Thread nD τ) scM0 fullShare s.1 ∗ owns (c : Thread nD τ) scM1 fullShare s.2.1
        ∗ owns (c : Thread nD τ) scM2 fullShare s.2.2 ∗ rest1 c ∗ (dat1 V c).owesAt () t.castSucc
        ∗ owns (c : Thread nD τ) (ms1_0 t) fullShare (qTile V c t)
        ∗ owns (c : Thread nD τ) (ms1_1 t) fullShare (kTile V c t)
        ∗ owns (c : Thread nD τ) (ms1_2 t) fullShare (vTile V c t)
        ∗ (∃ d, owns (c : Thread nD τ) (ms1_3 t) fullShare ((dat1 V c).before 3 t d)))
      ⊢ wp frame (wpE (defs₀ (F := F)) Variants.none c none) Set.univ (bodyAt1 t) (fun _ => bodyPost1 V c t) := by
  unfold bodyPost1 bodyAt1
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases hC : t.val % 4 = 3
  · have hE : ∀ (st : St F) (o : Vec F S1x1024x64 .bf16), flashEmit (grid1.coords t) st o = flashOut st :=
      fun st o => if_pos ((hcondC t).mpr hC)
    rw [show (dat1 V c).leavesExact 3 t = owns (c : Thread nD τ) (ms1_3 t) fullShare ((dat1 V c).after 3 t) from by
      unfold Dat.leavesExact; rw [liveAt1_3 t hC], after1_3]
    rw [← hs]
    iintro ⟨HS0, HS1, HS2, Hr, Ho, H0, H1, H2, ⟨%d, H3⟩⟩
    iapply (flash_run c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      (qTile V c t) (kTile V c t) (vTile V c t) ((dat1 V c).before 3 t d) s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [hE]
    iintro ⟨H0, H1, H2, H3, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    iexact H3
  · have hE : ∀ (st : St F) (o : Vec F S1x1024x64 .bf16), flashEmit (grid1.coords t) st o = o :=
      fun st o => if_neg (fun h => hC ((hcondC t).mp h))
    rw [Dat.leavesExact_idle (dat1 V c) 3 t (idleAt1_3 t hC) (noFlush1_3 t hC)]
    rw [← hs]
    iintro ⟨HS0, HS1, HS2, Hr, Ho, H0, H1, H2, ⟨%d, H3⟩⟩
    iapply (flash_run c Set.univ (grid1.coords t) (ms1_0 t) (hs1_0 t) (ms1_1 t) (hs1_1 t) (ms1_2 t) (hs1_2 t) (ms1_3 t) (hs1_3 t)
      scM0 (Memref.isWhole_whole _) scM1 (Memref.isWhole_whole _) scM2 (Memref.isWhole_whole _)
      (qTile V c t) (kTile V c t) (vTile V c t) ((dat1 V c).before 3 t d) s _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    rw [hE]
    iintro ⟨H0, H1, H2, H3, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    iexists d; iexact H3

set_option maxHeartbeats 1600000 in
/-- The body at any point.  At the first the scratch buffers hold anything, and the point resets them; at a later
    one they hold what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1
  simp only [before1_0, before1_1, before1_2]
  rw [PhiS_castSucc]
  obtain ⟨n, hn⟩ := t
  cases n with
  | zero =>
    rw [PhiS_zero V c _ _ rfl, PhiA1_eq]
    unfold scrAny
    iintro ⟨⟨⟨%d0, S0⟩, ⟨%d1, S1⟩, ⟨%d2, S2⟩, Hr⟩, Ho, ⟨%e0, H0⟩, ⟨%e1, H1⟩, ⟨%e2, H2⟩, H3⟩
    iapply (sound_core V c ⟨0, hn⟩ (d0, d1, d2)
      ((flashStep_of_condA _ _ _ _ (d0, d1, d2) stReset ((hcondA ⟨0, hn⟩).mpr rfl)).trans rfl))
    isplitl [S0]; · iexact S0
    isplitl [S1]; · iexact S1
    isplitl [S2]; · iexact S2
    isplitl [Hr]; · iexact Hr
    isplitl [Ho]; · iexact Ho
    isplitl [H0]; · iexact H0
    isplitl [H1]; · iexact H1
    isplitl [H2]; · iexact H2
    iexact H3
  | succ n =>
    rw [PhiS_succ]
    iintro ⟨⟨S0, S1, S2, Hr⟩, Ho, ⟨%e0, H0⟩, ⟨%e1, H1⟩, ⟨%e2, H2⟩, H3⟩
    iapply (sound_core V c ⟨n + 1, hn⟩ (scr V c n (Nat.lt_of_succ_lt hn)) (scr_succ V c n hn).symm)
    isplitl [S0]; · iexact S0
    isplitl [S1]; · iexact S1
    isplitl [S2]; · iexact S2
    isplitl [Hr]; · iexact Hr
    isplitl [Ho]; · iexact Ho
    isplitl [H0]; · iexact H0
    isplitl [H1]; · iexact H1
    isplitl [H2]; · iexact H2
    iexact H3

/-- The attention call's body obligation. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Fold.lean ====
/-
  The buffer contents at each boundary of @main: a fold from the launch memory — a host stretch applies its
  operations, a region replaces its windows' arrays by what its write-backs leave.
-/
import proofs.«429902_j84310208020548_3_alg».proof.Proof.Ideal.Data
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the first host stretch (the first projection's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first projection: its arrays at what its write-backs leave. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (the attention call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention call. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the third host stretch (the second projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the second projection. -/
def W6 (c : Dev nD) : Valuation τ sig (Elt F) :=
  Pipeline.withArrays spec2 c (W5 m c) fun w => (dat2 (V5 m) c).arrAt w cfg2.N
abbrev V6 : (c : Dev nD) → (b : Ref sig .tc) → Buf (Elt F) ((c : Thread nD τ).loc b) := fun c b => W6 m c b
/-- After the last host stretch: the end. -/
abbrev W7 : Dev nD → Valuation τ sig (Elt F) := fun c => StableHlo.after hostOps3 (W6 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Ideal.Run.lean ====
/-
  The whole program as a run: @main is four stretches of host operations around the three pallas_calls.  The buffer
  contents at each boundary are a fold from the launch memory — a host stretch applies its operations, a region
  replaces its windows' arrays by what its write-backs leave — and every weakly fair execution ends with every
  unscoped buffer at the fold's last stage.  The argument arrays are written by nothing, so they end as launched.
-/
import proofs.«429902_j84310208020548_3_alg».proof.Proof.Ideal.ObligLinear
import proofs.«429902_j84310208020548_3_alg».proof.Proof.Ideal.ObligFlash
import proofs.«429902_j84310208020548_3_alg».proof.Proof.Ideal.Fold
import proofs.«429902_j84310208020548_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- No host operation and no region writes an argument array: the fold at an argument's buffer walks back to the
    launch memory. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-! ## What a region leaves: its arrays at what its write-backs leave, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- Every call's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what the
    core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes: every unscoped buffer at the fold's last stage, the generator
    register at some state. -/
abbrev Tₙ (c : Dev nD) : sProp 𝕄 := iprop(StableHlo.held (c : Thread nD τ) (Pipeline.ucRefs τ sig) (W7 m c) ∗ ∃ r, prngReg c r)

/-- The last host stretch's exit is the last thread state beside the core owing nothing. -/
theorem last_chain (c : Dev nD) :
    (iprop(StableHlo.held (c : Thread nD τ) (Pipeline.ucRefs τ sig) (W7 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The first projection: entered from every unscoped buffer at `W1`, left at `W2`. Its arrays are split out of the
    unscoped buffers and put back at the exit contents; the generator register goes into the invariant and comes
    back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered from `W3`, left at `W4`. Its invariant carries the scratch buffers' contents from point
    to point; at the two ends it is the scoped rest and the generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := phi1_in (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := phi1_out (V3 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection: entered from `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- @main is the run of the segments. -/
theorem main_run (c : Dev nD) : main (F := F) c = Pipeline.Seg.run (segs m) := (main_chain c).trans (by chain_rfl)

set_option backward.isDefEq.respectTransparency.types false in
/-- THE RUN: every weakly fair execution of @main terminates, and every final memory holds every unscoped buffer at
    the fold's last stage. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => last_chain m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- The frame claim: the argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c)⟩) (run_all m ρ)

end Cert.KernelIdeal.Hand

end
-- ==== Proof.Math.Spec.lean ====
/-
  The mathematics both programs compute, over plain index types and the extended reals.

  A projection is a matrix product against a transposed weight.  Causal attention for one head: the score of query
  row r against key row j is the scaled inner product when j ≤ r and −∞ otherwise; the reference normalises the
  exponentials of a row's scores (shifted by the row maximum) and takes the weighted sum of value rows; the kernel
  sweeps the key rows in four blocks of 1024, keeping per query row a running maximum m, a running sum l and a
  running weighted sum acc, rescaling both sums by exp(m_old − m_new) at every block, skipping the blocks wholly
  above the diagonal, and divides acc by l at the end.  Over finite inputs the two agree.
-/
import Idealize.ShloMosaic.PureOps.Ideal
import Idealize.ShloMosaic.Lib.ValueIdx

noncomputable section

open scoped BigOperators

namespace Cert.Spec

open Idealize.ShloMosaic

/-- The scale 1/√64 as both programs spell it: the f32 pattern of 0.125. -/
def eighth : EReal := Ideal.ofBits .f32 0x3E000000#32

/-- `x · wᵀ`: row i of x against row j of w. -/
def proj {M N K : ℕ} (x : Fin M → Fin K → EReal) (w : Fin N → Fin K → EReal) (i : Fin M) (j : Fin N) : EReal :=
  ∑ k : Fin K, x i k * w j k

/-- Key row κ of key block b. -/
def keyRow (b : Fin 4) (κ : Fin 1024) : Fin 4096 := ⟨b.val * 1024 + κ.val, by omega⟩

/-- The causally masked, scaled score of query row r against key row j. -/
def score (q k : Fin 4096 → Fin 64 → EReal) (r j : Fin 4096) : EReal :=
  if j.val ≤ r.val then (∑ d : Fin 64, q r d * k j d) * eighth else ⊥

/-- A query row's running state: maximum, sum of exponentials, weighted sum of value rows. -/
abbrev RowSt : Type := EReal × EReal × (Fin 64 → EReal)

/-- Before the first key block: maximum −∞, both sums 0. -/
def rowInit : RowSt := (⊥, 0, fun _ => 0)

/-- Folding one key block's scores `s` and value rows `v` into a row's state. -/
def rowStep (s : Fin 1024 → EReal) (v : Fin 1024 → Fin 64 → EReal) (st : RowSt) : RowSt :=
  (max st.1 (Finset.univ.sup s),
   Ideal.exp (st.1 - max st.1 (Finset.univ.sup s)) * st.2.1 + ∑ κ : Fin 1024, Ideal.exp (s κ - max st.1 (Finset.univ.sup s)),
   fun d => Ideal.exp (st.1 - max st.1 (Finset.univ.sup s)) * st.2.2 d
     + ∑ κ : Fin 1024, Ideal.exp (s κ - max st.1 (Finset.univ.sup s)) * v κ d)

/-- Query row r's state after the key blocks below `n` that are not wholly above the diagonal. -/
def rowAfter (q k v : Fin 4096 → Fin 64 → EReal) (r : Fin 4096) : ℕ → RowSt
  | 0 => rowInit
  | n + 1 =>
    if h : n < 4 ∧ n ≤ r.val / 1024 then
      rowStep (fun κ => score q k r (keyRow ⟨n, h.1⟩ κ)) (fun κ d => v (keyRow ⟨n, h.1⟩ κ) d) (rowAfter q k v r n)
    else rowAfter q k v r n

/-- The kernel's attention output: weighted sum over sum of exponentials, after all four key blocks. -/
def attnOnline (q k v : Fin 4096 → Fin 64 → EReal) (r : Fin 4096) (d : Fin 64) : EReal :=
  Ideal.div ((rowAfter q k v r 4).2.2 d) (rowAfter q k v r 4).2.1

/-- The reference's attention output: softmax of the masked scores against the value rows. -/
def attnSoftmax (q k v : Fin 4096 → Fin 64 → EReal) (r : Fin 4096) (d : Fin 64) : EReal :=
  ∑ j : Fin 4096,
    Ideal.div (Ideal.exp (score q k r j - Finset.univ.sup (score q k r)))
      (∑ j' : Fin 4096, Ideal.exp (score q k r j' - Finset.univ.sup (score q k r))) * v j d

/-- Head h's query / key / value rows inside the fused projection's 3072 columns. -/
def headQ (a : Fin 4096 → Fin 3072 → EReal) (h : Fin 16) (r : Fin 4096) (d : Fin 64) : EReal :=
  a r ⟨h.val * 64 + d.val, by omega⟩
def headK (a : Fin 4096 → Fin 3072 → EReal) (h : Fin 16) (r : Fin 4096) (d : Fin 64) : EReal :=
  a r ⟨1024 + (h.val * 64 + d.val), by omega⟩
def headV (a : Fin 4096 → Fin 3072 → EReal) (h : Fin 16) (r : Fin 4096) (d : Fin 64) : EReal :=
  a r ⟨2048 + (h.val * 64 + d.val), by omega⟩

/-- The heads' outputs side by side: column c is head c / 64, feature c % 64. -/
def merged (A : Fin 16 → Fin 4096 → Fin 64 → EReal) (r : Fin 4096) (c : Fin 1024) : EReal :=
  A ⟨c.val / 64, by omega⟩ r ⟨c.val % 64, by omega⟩

/-- The whole layer with a given attention: fused projection, per-head attention, output projection. -/
def layer (attn : (Fin 4096 → Fin 64 → EReal) → (Fin 4096 → Fin 64 → EReal) → (Fin 4096 → Fin 64 → EReal) → Fin 4096 → Fin 64 → EReal)
    (x : Fin 4096 → Fin 1024 → EReal) (wa : Fin 3072 → Fin 1024 → EReal) (wp : Fin 1024 → Fin 1024 → EReal) :
    Fin 4096 → Fin 1024 → EReal :=
  proj (merged fun h => attn (headQ (proj x wa) h) (headK (proj x wa) h) (headV (proj x wa) h)) wp

/-- What the kernel computes, and what the reference computes. -/
abbrev layerOnline := layer attnOnline
abbrev layerSoftmax := layer attnSoftmax

end Cert.Spec

end
-- ==== Proof.Value.HostReads.lean ====
/-
  The host operations between the pallas_calls, read at an index over the extended reals.  Before the first call:
  a reshape [1,4096,1024] → [4096,1024] of the activations and two conversions to bf16 of the weights (identities
  here).  Before the attention call: three column slices of the fused projection (offsets 0, 1024, 2048), each
  reshaped [4096,1024] → [4096,16,64] and transposed to [16,4096,64]: head h, row r, feature d is column
  offset + h·64 + d of row r.  Before the last call: the inverse transpose and reshape.  After it: a reshape
  [4096,1024] → [1,4096,1024].
-/
import proofs.«429902_j84310208020548_3_alg».proof.Proof.Ideal.Fold
import proofs.«429902_j84310208020548_3_alg».proof.Proof.Math.Spec
import proofs.«429902_j84310208020548_3_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The three inputs as matrices over plain indices. -/
def inX (c : Dev nD) (r : Fin 4096) (k : Fin 1024) : EReal :=
  (m ((c.tc : Thread nD τ).loc main_arg0) : (⟨S1x4096x1024, .f32⟩ : BufTy).Contents (Elt Ideal)) (ix3 (0 : Fin 1) r k)
def inWA (c : Dev nD) (f : Fin 3072) (k : Fin 1024) : EReal :=
  (m ((c.tc : Thread nD τ).loc main_arg1) : (⟨S3072x1024, .f32⟩ : BufTy).Contents (Elt Ideal)) (ix2 f k)
def inWP (c : Dev nD) (o : Fin 1024) (k : Fin 1024) : EReal :=
  (m ((c.tc : Thread nD τ).loc main_arg2) : (⟨S1024x1024, .f32⟩ : BufTy).Contents (Elt Ideal)) (ix2 o k)

/-- The buffers the reads below speak of, at their literal types. -/
abbrev b1v0 (c : Dev nD) : (⟨S4096x1024, .f32⟩ : BufTy).Contents (Elt Ideal) := W1 (F := Ideal) m c (Proc.devRef .tc main_v0)
abbrev b1v1 (c : Dev nD) : (⟨S3072x1024, .bf16⟩ : BufTy).Contents (Elt Ideal) := W1 (F := Ideal) m c (Proc.devRef .tc main_v1)
abbrev b1v2 (c : Dev nD) : (⟨S1024x1024, .bf16⟩ : BufTy).Contents (Elt Ideal) := W1 (F := Ideal) m c (Proc.devRef .tc main_v2)
abbrev b2v3 (c : Dev nD) : (⟨S4096x3072, .bf16⟩ : BufTy).Contents (Elt Ideal) := W2 (F := Ideal) m c (Proc.devRef .tc main_v3)
abbrev b3v8 (c : Dev nD) : (⟨S16x4096x64, .bf16⟩ : BufTy).Contents (Elt Ideal) := W3 (F := Ideal) m c (Proc.devRef .tc main_v8)
abbrev b3v10 (c : Dev nD) : (⟨S16x4096x64, .bf16⟩ : BufTy).Contents (Elt Ideal) := W3 (F := Ideal) m c (Proc.devRef .tc main_v10)
abbrev b3v12 (c : Dev nD) : (⟨S16x4096x64, .bf16⟩ : BufTy).Contents (Elt Ideal) := W3 (F := Ideal) m c (Proc.devRef .tc main_v12)
abbrev b4v13 (c : Dev nD) : (⟨S16x4096x64, .bf16⟩ : BufTy).Contents (Elt Ideal) := W4 (F := Ideal) m c (Proc.devRef .tc main_v13)
abbrev b5v15 (c : Dev nD) : (⟨S4096x1024, .bf16⟩ : BufTy).Contents (Elt Ideal) := W5 (F := Ideal) m c (Proc.devRef .tc main_v15)
abbrev b5v2 (c : Dev nD) : (⟨S1024x1024, .bf16⟩ : BufTy).Contents (Elt Ideal) := W5 (F := Ideal) m c (Proc.devRef .tc main_v2)
abbrev b6v16 (c : Dev nD) : (⟨S4096x1024, .f32⟩ : BufTy).Contents (Elt Ideal) := W6 (F := Ideal) m c (Proc.devRef .tc main_v16)
abbrev b7v17 (c : Dev nD) : (⟨S1x4096x1024, .f32⟩ : BufTy).Contents (Elt Ideal) := W7 (F := Ideal) m c (Proc.devRef .tc main_v17)

/-- A [4096,1024] matrix split into 16 heads of 64 features with the head axis moved to the front: head h, row r,
    feature d is column h·64 + d of row r. -/
private theorem heads_apply {α : Type} (X : S4096x1024.Idx → α) (hc : S4096x1024.ShapeCasts S4096x16x64)
    (ht : S4096x16x64.Transposes [1, 0, 2] S16x4096x64) (h : Fin 16) (r : Fin 4096) (d : Fin 64) (col : Fin 1024)
    (hcol : col.val = h.val * 64 + d.val) :
    transpose S16x4096x64 [1, 0, 2] (shapeCast S4096x16x64 X hc) ht (ix3 h r d) = X (ix2 r col) := by
  refine (transpose_apply [1, 0, 2] _ ht (ix3 h r d) (ix3 r h d)
    (fun b => match b with | ⟨0, _⟩ => rfl | ⟨1, _⟩ => rfl | ⟨2, _⟩ => rfl)).trans ?_
  refine shapeCast_apply X hc (ix3 r h d) (ix2 r col) ?_
  rw [Shape.rowMajor_val_two, Shape.rowMajor_val_three]
  show r.val * 1024 + col.val = (r.val * 16 + h.val) * 64 + d.val
  omega

/-- The inverse: 16 heads of 64 features laid side by side again: row r, column col is head col / 64, feature
    col % 64 of row r. -/
private theorem unheads_apply {α : Type} (Y : S16x4096x64.Idx → α) (ht : S16x4096x64.Transposes [1, 0, 2] S4096x16x64)
    (hc : S4096x16x64.ShapeCasts S4096x1024) (r : Fin 4096) (col : Fin 1024) (h : Fin 16) (d : Fin 64)
    (hh : h.val = col.val / 64) (hd : d.val = col.val % 64) :
    shapeCast S4096x1024 (transpose S4096x16x64 [1, 0, 2] Y ht) hc (ix2 r col) = Y (ix3 h r d) := by
  refine (shapeCast_apply _ hc (ix2 r col) (ix3 r h d) ?_).trans ?_
  · rw [Shape.rowMajor_val_three, Shape.rowMajor_val_two]
    show (r.val * 16 + h.val) * 64 + d.val = r.val * 1024 + col.val
    omega
  · exact transpose_apply [1, 0, 2] Y ht (ix3 r h d) (ix3 h r d)
      (fun b => match b with | ⟨0, _⟩ => rfl | ⟨1, _⟩ => rfl | ⟨2, _⟩ => rfl)

/-- Before the first call. -/
theorem read_v0 (c : Dev nD) (r : Fin 4096) (k : Fin 1024) : b1v0 m c (ix2 r k) = inX m c r k := by
  show StableHlo.after hostOps0 (W0 (F := Ideal) m c) (Proc.devRef .tc main_v0) (ix2 r k) = _
  after_results
  exact shapeCast_1ab_ab_apply _ _ r k
theorem read_v1 (c : Dev nD) (f : Fin 3072) (k : Fin 1024) : b1v1 m c (ix2 f k) = inWA m c f k := by
  show StableHlo.after hostOps0 (W0 (F := Ideal) m c) (Proc.devRef .tc main_v1) (ix2 f k) = _
  after_results <;> rfl
theorem read_v2 (c : Dev nD) (o : Fin 1024) (k : Fin 1024) : b1v2 m c (ix2 o k) = inWP m c o k := by
  show StableHlo.after hostOps0 (W0 (F := Ideal) m c) (Proc.devRef .tc main_v2) (ix2 o k) = _
  after_results <;> rfl

/-- Before the attention call: head h's query, key and value rows inside the fused projection's columns. -/
theorem read_v8 (c : Dev nD) (h : Fin 16) (r : Fin 4096) (d : Fin 64) :
    b3v8 m c (ix3 h r d) = b2v3 m c (ix2 r (⟨h.val * 64 + d.val, by omega⟩ : Fin 3072)) := by
  show StableHlo.after hostOps1 (W2 (F := Ideal) m c) (Proc.devRef .tc main_v8) (ix3 h r d) = _
  after_results
  refine (heads_apply _ _ _ h r d (⟨h.val * 64 + d.val, by omega⟩ : Fin 1024) rfl).trans ?_
  exact slice2_axis1_apply 0 _ _ r _ _ (Nat.zero_add _).symm
theorem read_v10 (c : Dev nD) (h : Fin 16) (r : Fin 4096) (d : Fin 64) :
    b3v10 m c (ix3 h r d) = b2v3 m c (ix2 r (⟨1024 + (h.val * 64 + d.val), by omega⟩ : Fin 3072)) := by
  show StableHlo.after hostOps1 (W2 (F := Ideal) m c) (Proc.devRef .tc main_v10) (ix3 h r d) = _
  after_results
  refine (heads_apply _ _ _ h r d (⟨h.val * 64 + d.val, by omega⟩ : Fin 1024) rfl).trans ?_
  exact slice2_axis1_apply 1024 _ _ r _ _ rfl
theorem read_v12 (c : Dev nD) (h : Fin 16) (r : Fin 4096) (d : Fin 64) :
    b3v12 m c (ix3 h r d) = b2v3 m c (ix2 r (⟨2048 + (h.val * 64 + d.val), by omega⟩ : Fin 3072)) := by
  show StableHlo.after hostOps1 (W2 (F := Ideal) m c) (Proc.devRef .tc main_v12) (ix3 h r d) = _
  after_results
  refine (heads_apply _ _ _ h r d (⟨h.val * 64 + d.val, by omega⟩ : Fin 1024) rfl).trans ?_
  exact slice2_axis1_apply 2048 _ _ r _ _ rfl

/-- Before the last call: the heads' outputs side by side, and the output weight as converted at the start. -/
theorem read_v15 (c : Dev nD) (r : Fin 4096) (col : Fin 1024) :
    b5v15 m c (ix2 r col) = b4v13 m c (ix3 (⟨col.val / 64, by omega⟩ : Fin 16) r (⟨col.val % 64, by omega⟩ : Fin 64)) := by
  show StableHlo.after hostOps2 (W4 (F := Ideal) m c) (Proc.devRef .tc main_v15) (ix2 r col) = _
  after_results
  exact unheads_apply _ _ _ r col _ _ rfl rfl
theorem read_v2_late (c : Dev nD) : b5v2 m c = b1v2 m c := by
  show W5 (F := Ideal) m c (Proc.devRef .tc main_v2) = W1 (F := Ideal) m c (Proc.devRef .tc main_v2)
  exact (StableHlo.after_of_writes_sub (hostOps2 (F := Ideal)) _ hostOps2_writes (by decide)).trans <|
    (W4_of_ne m c main_v2 (by decide)).trans <|
    (StableHlo.after_of_writes_sub (hostOps1 (F := Ideal)) _ hostOps1_writes (by decide)).trans <|
    W2_of_ne m c main_v2 (by decide)

/-- After the last call. -/
theorem read_v17 (c : Dev nD) (r : Fin 4096) (o : Fin 1024) : b7v17 m c (ix3 (0 : Fin 1) r o) = b6v16 m c (ix2 r o) := by
  show StableHlo.after hostOps3 (W6 (F := Ideal) m c) (Proc.devRef .tc main_v17) (ix3 (0 : Fin 1) r o) = _
  after_results
  exact shapeCast_ab_1ab_apply _ _ 0 r o

end Cert.KernelIdeal.Hand

end
-- ==== Proof.Value.LinearValue.lean ====
/-
  What the two projection calls leave in their output arrays, over the extended reals: entry (r, f) is the inner
  product of row r of the left operand with row f of the weight.  Each grid point writes the block of 512 rows it
  computed; the eight blocks tile the array, and within a block the matrix unit's contraction onto a zero
  accumulator is the plain sum over the shared axis (the roundings to bf16 are identities here).
-/
import proofs.«429902_j84310208020548_3_alg».proof.Proof.Ideal.ObligLinear
import proofs.«429902_j84310208020548_3_alg».proof.Proof.Math.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

variable (V : (c : Dev nD) → (b : Ref sig .tc) → Buf (Elt Ideal) ((c : Thread nD τ).loc b))

/-- The arrays the two projections read and write, at their literal types. -/
abbrev arrX0 (c : Dev nD) : (⟨S4096x1024, .f32⟩ : BufTy).Contents (Elt Ideal) := V c main_v0
abbrev arrWA (c : Dev nD) : (⟨S3072x1024, .bf16⟩ : BufTy).Contents (Elt Ideal) := V c main_v1
abbrev arrQKV (c : Dev nD) : (⟨S4096x3072, .bf16⟩ : BufTy).Contents (Elt Ideal) := (dat0 (F := Ideal) V c).arrAt 2 cfg0.N
abbrev arrY2 (c : Dev nD) : (⟨S4096x1024, .bf16⟩ : BufTy).Contents (Elt Ideal) := V c main_v15
abbrev arrWP (c : Dev nD) : (⟨S1024x1024, .bf16⟩ : BufTy).Contents (Elt Ideal) := V c main_v2
abbrev arrOut (c : Dev nD) : (⟨S4096x1024, .f32⟩ : BufTy).Contents (Elt Ideal) := (dat2 (F := Ideal) V c).arrAt 2 cfg2.N

/-! ## Projection one -/

/-- The contraction's operand indices: both operands contract their axis 1, and keep their axis 0 as the result's
    axes 0 and 1. -/
theorem lin0_lhs0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lin0_lhs1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem lin0_rhs0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem lin0_rhs1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The body's payload at an index: the inner product of row `p` of the left tile with row `q` of the weight (the
    shape casts are identities, the roundings are identities over the extended reals, and the contraction onto the zero
    accumulator is the plain sum). -/
theorem lin0_pay (x : FVec Ideal S512x1024 .f32) (w : FVec Ideal S3072x1024 .bf16) (p : Fin 512) (q : Fin 3072) :
    k0_pay1 (F := Ideal) x w (ix2 p q) = ∑ k : Fin 1024, x (ix2 p k) * w (ix2 q k) := by
  unfold k0_pay1
  simp only [matmul, truncf_apply, shapeCast_self, Ideal.matmul_constant_zero_apply]
  rw [← Equiv.sum_comp (contrEquiv1 dot_S512x1024_S3072x1024_S512x3072_1_1_0_0_n_n 1024 rfl rfl).symm]
  refine Finset.sum_congr rfl fun k _ => ?_
  have hk := contrEquiv1_symm_val dot_S512x1024_S3072x1024_S512x3072_1_1_0_0_n_n 1024 rfl rfl k
  have el : dot_S512x1024_S3072x1024_S512x3072_1_1_0_0_n_n.lhsIdx (ix2 p q) ((contrEquiv1 dot_S512x1024_S3072x1024_S512x3072_1_1_0_0_n_n 1024 rfl rfl).symm k) = ix2 p k := funext fun a => Fin.ext (by
    match a with
    | ⟨0, _⟩ => exact lin0_lhs0 _ _
    | ⟨1, _⟩ => exact (lin0_lhs1 _ _).trans hk)
  have er : dot_S512x1024_S3072x1024_S512x3072_1_1_0_0_n_n.rhsIdx (ix2 p q) ((contrEquiv1 dot_S512x1024_S3072x1024_S512x3072_1_1_0_0_n_n 1024 rfl rfl).symm k) = ix2 q k := funext fun a => Fin.ext (by
    match a with
    | ⟨0, _⟩ => exact lin0_rhs0 _ _
    | ⟨1, _⟩ => exact (lin0_rhs1 _ _).trans hk)
  rw [el, er] <;> rfl

/-- The windows' block indices, decided over the grid: the row tile and the output tile move together along the
    rows, the weight stays whole. -/
theorem lin0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row tile at point `t` reads the array 512 rows further down per point. -/
theorem lin0_xTile (c : Dev nD) (t : Fin cfg0.N) (p : Fin 512) (k : Fin 1024) (r : Fin 4096) (hr : r.val = t.val * 512 + p.val) :
    xTile0 V c t (ix2 p k) = arrX0 V c (ix2 r k) := by
  obtain ⟨e0, e1, -, -, -, -⟩ := lin0_idx t
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 1024 + 1 * k.val = k.val; omega
  show V c main_v0 (((cfg0.win 0).blk t).view.emb (ix2 p k)) = V c main_v0 (ix2 r k)
  rw [h]

/-- The weight tile is the whole weight at every point. -/
theorem lin0_wTile (c : Dev nD) (t : Fin cfg0.N) (q : Fin 3072) (k : Fin 1024) (f : Fin 3072) (hf : f.val = q.val) :
    wTile0 V c t (ix2 q k) = arrWA V c (ix2 f k) := by
  obtain ⟨-, -, e0, e1, -, -⟩ := lin0_idx t
  have h : ((cfg0.win 1).blk t).view.emb (ix2 q k) = ix2 f k := by
    funext a; apply Fin.ext
    match a with
    | ⟨0, _⟩ => show win0_1.index t (0 : Fin 2) * 3072 + 1 * q.val = f.val; omega
    | ⟨1, _⟩ => show win0_1.index t (1 : Fin 2) * 1024 + 1 * k.val = k.val; omega
  show V c main_v1 (((cfg0.win 1).blk t).view.emb (ix2 q k)) = V c main_v1 (ix2 f k)
  rw [h]

/-- The result array as one function of the operand arrays: entry (r, f) is the inner product of row r of the left
    operand with row f of the weight. -/
def lin0G (X : S4096x1024.Idx → EReal) (W : S3072x1024.Idx → EReal) (i : S4096x3072.Idx) : EReal :=
  ∑ k : Fin 1024, X (ix2 (n0 := 4096) ⟨(i 0).val, (i 0).isLt⟩ k) * W (ix2 (n0 := 3072) ⟨(i 1).val, (i 1).isLt⟩ k)

/-- The payload of the tiles at point `t`, at a block index, is that function where the block sits in the array. -/
theorem lin0_point (c : Dev nD) (t : Fin cfg0.N) (j : S512x3072.Idx) :
    k0_pay1 (F := Ideal) (xTile0 V c t) (wTile0 V c t) j
      = lin0G (arrX0 V c) (arrWA V c) (((cfg0.win 2).blk t).view.emb j) := by
  obtain ⟨p, q, rfl⟩ : ∃ (p : Fin 512) (q : Fin 3072), j = ix2 p q := ⟨j 0, j 1, eq_ix2 j⟩
  obtain ⟨-, -, -, -, e0, e1⟩ := lin0_idx t
  have hR : ((((cfg0.win 2).blk t).view.emb (ix2 p q)) (0 : Fin 2)).val = t.val * 512 + p.val := by
    show win0_2.index t (0 : Fin 2) * 512 + 1 * p.val = t.val * 512 + p.val; omega
  have hC : ((((cfg0.win 2).blk t).view.emb (ix2 p q)) (1 : Fin 2)).val = q.val := by
    show win0_2.index t (1 : Fin 2) * 3072 + 1 * q.val = q.val; omega
  refine (lin0_pay _ _ p q).trans ?_
  unfold lin0G
  refine Finset.sum_congr rfl fun k _ => ?_
  rw [lin0_xTile V c t p k ⟨_, ((((cfg0.win 2).blk t).view.emb (ix2 p q)) (0 : Fin 2)).isLt⟩ hR,
    lin0_wTile V c t q k ⟨_, ((((cfg0.win 2).blk t).view.emb (ix2 p q)) (1 : Fin 2)).isLt⟩ hC]

/-- What point `t` writes back is its block of that function of the operand arrays. -/
theorem lin0_flushed (c : Dev nD) (t : Fin cfg0.N) :
    (dat0 (F := Ideal) V c).flushed 2 t = ((cfg0.win 2).blk t).view.read (Elt Ideal) (lin0G (arrX0 V c) (arrWA V c)) := by
  show (cfg0.win 2).cut (grid0.coords t) ((dat0 (F := Ideal) V c).after 2 t) = _
  rw [after0_2, linOut0_eq]
  funext j
  exact lin0_point V c t j

/-- An index of the array is in point `t`'s block iff each coordinate is in the block's range on its axis. -/
theorem lin0_mem_blk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v3).slice (win0_2.rect t)).set ↔ _
  rw [View.set_slice_whole, Rect.mem_set_unit]
  exact Iff.rfl

/-- The eight blocks tile the array: row r is in the block of point r / 512. -/
theorem lin0_cover (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, e0, e1⟩ := lin0_idx t
  refine ⟨t, flush0_2 t, ?_⟩
  rw [lin0_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The array after the call: that function of the operand arrays, everywhere. -/
theorem lin0_arr (c : Dev nD) : (dat0 (F := Ideal) V c).arrAt 2 cfg0.N = lin0G (arrX0 V c) (arrWA V c) :=
  (dat0 (F := Ideal) V c).arrAt_eq_of_cover 2 (lin0G (arrX0 V c) (arrWA V c)) (fun t _ => lin0_flushed V c t) lin0_cover

/-- The first projection's result array: rows of `main_v0` against rows of the (bf16) weight `main_v1`. -/
theorem lin0_final (c : Dev nD) (r : Fin 4096) (f : Fin 3072) :
    arrQKV V c (ix2 r f) = ∑ k : Fin 1024, arrX0 V c (ix2 r k) * arrWA V c (ix2 f k) := by
  show (dat0 (F := Ideal) V c).arrAt 2 cfg0.N (ix2 r f) = lin0G (arrX0 V c) (arrWA V c) (ix2 r f)
  rw [lin0_arr V c]

/-! ## Projection two -/

/-- The contraction's operand indices: both operands contract their axis 1, and keep their axis 0 as the result's
    axes 0 and 1. -/
theorem lin2_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lin2_lhs1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem lin2_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem lin2_rhs1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The body's payload at an index: the inner product of row `p` of the left tile with row `q` of the weight (the
    shape casts are identities, the roundings are identities over the extended reals, and the contraction onto the zero
    accumulator is the plain sum). -/
theorem lin2_pay (x : FVec Ideal S512x1024 .bf16) (w : FVec Ideal S1024x1024 .bf16) (p : Fin 512) (q : Fin 1024) :
    k2_pay1 (F := Ideal) x w (ix2 p q) = ∑ k : Fin 1024, x (ix2 p k) * w (ix2 q k) := by
  unfold k2_pay1
  simp only [matmul, shapeCast_self, Ideal.matmul_constant_zero_apply]
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lin2_lhs0 _ _
    | ⟨1, _⟩ => exact (lin2_lhs1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact lin2_rhs0 _ _
    | ⟨1, _⟩ => exact (lin2_rhs1 _ _).trans hk)
  rw [el, er] <;> rfl

/-- The windows' block indices, decided over the grid: the row tile and the output tile move together along the
    rows, the weight stays whole. -/
theorem lin2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row tile at point `t` reads the array 512 rows further down per point. -/
theorem lin2_xTile (c : Dev nD) (t : Fin cfg2.N) (p : Fin 512) (k : Fin 1024) (r : Fin 4096) (hr : r.val = t.val * 512 + p.val) :
    yTile2 V c t (ix2 p k) = arrY2 V c (ix2 r k) := by
  obtain ⟨e0, e1, -, -, -, -⟩ := lin2_idx t
  have h : ((cfg2.win 0).blk t).view.emb (ix2 p k) = ix2 r k := by
    funext a; apply Fin.ext
    match a with
    | ⟨0, _⟩ => show win2_0.index t (0 : Fin 2) * 512 + 1 * p.val = r.val; omega
    | ⟨1, _⟩ => show win2_0.index t (1 : Fin 2) * 1024 + 1 * k.val = k.val; omega
  show V c main_v15 (((cfg2.win 0).blk t).view.emb (ix2 p k)) = V c main_v15 (ix2 r k)
  rw [h]

/-- The weight tile is the whole weight at every point. -/
theorem lin2_wTile (c : Dev nD) (t : Fin cfg2.N) (q : Fin 1024) (k : Fin 1024) (f : Fin 1024) (hf : f.val = q.val) :
    wTile2 V c t (ix2 q k) = arrWP V c (ix2 f k) := by
  obtain ⟨-, -, e0, e1, -, -⟩ := lin2_idx t
  have h : ((cfg2.win 1).blk t).view.emb (ix2 q k) = ix2 f k := by
    funext a; apply Fin.ext
    match a with
    | ⟨0, _⟩ => show win2_1.index t (0 : Fin 2) * 1024 + 1 * q.val = f.val; omega
    | ⟨1, _⟩ => show win2_1.index t (1 : Fin 2) * 1024 + 1 * k.val = k.val; omega
  show V c main_v2 (((cfg2.win 1).blk t).view.emb (ix2 q k)) = V c main_v2 (ix2 f k)
  rw [h]

/-- The result array as one function of the operand arrays: entry (r, f) is the inner product of row r of the left
    operand with row f of the weight. -/
def lin2G (X : S4096x1024.Idx → EReal) (W : S1024x1024.Idx → EReal) (i : S4096x1024.Idx) : EReal :=
  ∑ k : Fin 1024, X (ix2 (n0 := 4096) ⟨(i 0).val, (i 0).isLt⟩ k) * W (ix2 (n0 := 1024) ⟨(i 1).val, (i 1).isLt⟩ k)

/-- The payload of the tiles at point `t`, at a block index, is that function where the block sits in the array. -/
theorem lin2_point (c : Dev nD) (t : Fin cfg2.N) (j : S512x1024.Idx) :
    k2_pay1 (F := Ideal) (yTile2 V c t) (wTile2 V c t) j
      = lin2G (arrY2 V c) (arrWP V c) (((cfg2.win 2).blk t).view.emb j) := by
  obtain ⟨p, q, rfl⟩ : ∃ (p : Fin 512) (q : Fin 1024), j = ix2 p q := ⟨j 0, j 1, eq_ix2 j⟩
  obtain ⟨-, -, -, -, e0, e1⟩ := lin2_idx t
  have hR : ((((cfg2.win 2).blk t).view.emb (ix2 p q)) (0 : Fin 2)).val = t.val * 512 + p.val := by
    show win2_2.index t (0 : Fin 2) * 512 + 1 * p.val = t.val * 512 + p.val; omega
  have hC : ((((cfg2.win 2).blk t).view.emb (ix2 p q)) (1 : Fin 2)).val = q.val := by
    show win2_2.index t (1 : Fin 2) * 1024 + 1 * q.val = q.val; omega
  refine (lin2_pay _ _ p q).trans ?_
  unfold lin2G
  refine Finset.sum_congr rfl fun k _ => ?_
  rw [lin2_xTile V c t p k ⟨_, ((((cfg2.win 2).blk t).view.emb (ix2 p q)) (0 : Fin 2)).isLt⟩ hR,
    lin2_wTile V c t q k ⟨_, ((((cfg2.win 2).blk t).view.emb (ix2 p q)) (1 : Fin 2)).isLt⟩ hC]

/-- What point `t` writes back is its block of that function of the operand arrays. -/
theorem lin2_flushed (c : Dev nD) (t : Fin cfg2.N) :
    (dat2 (F := Ideal) V c).flushed 2 t = ((cfg2.win 2).blk t).view.read (Elt Ideal) (lin2G (arrY2 V c) (arrWP V c)) := by
  show (cfg2.win 2).cut (grid2.coords t) ((dat2 (F := Ideal) V c).after 2 t) = _
  rw [after2_2, linOut2_eq]
  funext j
  exact lin2_point V c t j

/-- An index of the array is in point `t`'s block iff each coordinate is in the block's range on its axis. -/
theorem lin2_mem_blk (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v16).slice (win2_2.rect t)).set ↔ _
  rw [View.set_slice_whole, Rect.mem_set_unit]
  exact Iff.rfl

/-- The eight blocks tile the array: row r is in the block of point r / 512. -/
theorem lin2_cover (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have hN : cfg2.N = 8 := N_2
  obtain ⟨t, ht⟩ : ∃ t : Fin cfg2.N, t.val = (i 0).val / 512 := ⟨⟨(i 0).val / 512, by omega⟩, rfl⟩
  obtain ⟨-, -, -, -, e0, e1⟩ := lin2_idx t
  refine ⟨t, flush2_2 t, ?_⟩
  rw [lin2_mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The array after the call: that function of the operand arrays, everywhere. -/
theorem lin2_arr (c : Dev nD) : (dat2 (F := Ideal) V c).arrAt 2 cfg2.N = lin2G (arrY2 V c) (arrWP V c) :=
  (dat2 (F := Ideal) V c).arrAt_eq_of_cover 2 (lin2G (arrY2 V c) (arrWP V c)) (fun t _ => lin2_flushed V c t) lin2_cover

/-- The second projection's result array: rows of `main_v15` against rows of the (bf16) weight `main_v2`. -/
theorem lin2_final (c : Dev nD) (r : Fin 4096) (o : Fin 1024) :
    arrOut V c (ix2 r o) = ∑ k : Fin 1024, arrY2 V c (ix2 r k) * arrWP V c (ix2 o k) := by
  show (dat2 (F := Ideal) V c).arrAt 2 cfg2.N (ix2 r o) = lin2G (arrY2 V c) (arrWP V c) (ix2 r o)
  rw [lin2_arr V c]

end Cert.KernelIdeal.Hand

end
-- ==== Proof.Math.Consts.lean ====
/-
  The float constants this certificate's programs spell, as the extended reals their patterns denote.  One module
  states them all, so that no other module evaluates a pattern: the attention scale 0.125 = 1/√64, the two
  infinities (the causal mask's −∞, and the +∞ the precondition compares absolute values against) and zero.
-/
import Idealize.ShloMosaic.PureOps.Ideal
import Idealize.ShloMosaic.PureOps.Ideal.Laws

noncomputable section

namespace Cert.Consts

open Idealize.ShloMosaic

/-- 0.125 denotes the real 1/8. -/
theorem ofBits_eighth : Ideal.ofBits .f32 0x3E000000#32 = ((1 / 8 : ℝ) : EReal) := by
  simp [Ideal.ofBits, Ideal.ieee, -EReal.coe_mul]; norm_num

/-- The pattern of −∞ denotes ⊥. -/
theorem ofBits_neg_inf : Ideal.ofBits .f32 0xFF800000#32 = (⊥ : EReal) := by
  simp [Ideal.ofBits, Ideal.ieee]

/-- The pattern of +∞ denotes ⊤. -/
theorem ofBits_pos_inf : Ideal.ofBits .f32 0x7F800000#32 = (⊤ : EReal) := by
  simp [Ideal.ofBits, Ideal.ieee]

/-- +0.0 denotes 0. -/
theorem ofBits_zero : Ideal.ofBits .f32 0x00000000#32 = (0 : EReal) := Ideal.ofBits_zero_f32

end Cert.Consts

end
-- ==== Proof.Value.FlashScore.lean ====
/-
  One (query tile, key tile) pair of the attention kernel read at an index, over the extended reals: the masked,
  scaled scores of the tile pair, the reset values of the scratch buffers, and the final quotient.  Row ρ of query
  tile qi is query row qi·1024 + ρ, column κ of key tile ki is key row ki·1024 + κ; the kernel's mask compares these
  two positions as signed 32-bit words, which are the naturals themselves since both are below 4096.
-/
import proofs.«429902_j84310208020548_3_alg».proof.Proof.Ideal.FlashBody
import proofs.«429902_j84310208020548_3_alg».proof.Proof.Math.Spec
import proofs.«429902_j84310208020548_3_alg».proof.Proof.Math.Consts
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

/-- Row ρ of the three scratch buffers, as a row state. -/
def rowOf (s : St Ideal) (ρ : Fin 1024) : RowSt :=
  (s.1 (ix2 ρ (0 : Fin 1)), s.2.1 (ix2 ρ (0 : Fin 1)), fun d : Fin 64 => s.2.2 (ix2 ρ d))

/-- The masked, scaled score of row ρ of query tile qi against row κ of key tile ki. -/
def tileScore (qi ki : Fin 4) (q k : Vec Ideal S1x1024x64 .bf16) (ρ κ : Fin 1024) : EReal :=
  if ki.val * 1024 + κ.val ≤ qi.val * 1024 + ρ.val then
    (∑ d : Fin 64, q (ix3 (0 : Fin 1) ρ d) * k (ix3 (0 : Fin 1) κ d)) * eighth
  else ⊥

/-! ## The product of the query tile with the transposed key tile -/

/-- The query operand's row is the output's row. -/
theorem lhs_scores_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
/-- The query operand's column is the contraction's coordinate. -/
theorem lhs_scores_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
/-- The transposed key operand's row is the contraction's coordinate. -/
theorem rhs_scores_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
/-- The transposed key operand's column is the output's column. -/
theorem rhs_scores_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The unscaled score tile at (ρ, κ): the inner product of query row ρ with key row κ. -/
theorem scores_apply (q k : FVec Ideal S1x1024x64 .bf16) (ρ κ : Fin 1024) :
    matmul (F := Ideal) (φ₁ := .bf16) (φ₂ := .bf16) dot_S1024x64_S64x1024_S1024x1024_1_0_0_1_n_n none (shapeCast S1024x64 q shapeCasts_S1x1024x64_S1024x64)
        (transpose S64x1024 [1, 0] (shapeCast S1024x64 k shapeCasts_S1x1024x64_S1024x64) transposes_S1024x64_p1_0_S64x1024)
        (constant (F := Ideal) S1024x1024 .f32 0x00000000#32) (ix2 ρ κ)
      = ∑ d : Fin 64, q (ix3 (0 : Fin 1) ρ d) * k (ix3 (0 : Fin 1) κ d) := by
  simp only [matmul]
  rw [Ideal.matmul_constant_zero_apply, ← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  have el : dot_S1024x64_S64x1024_S1024x1024_1_0_0_1_n_n.lhsIdx (ix2 ρ κ) ((contrEquiv1 dot_S1024x64_S64x1024_S1024x1024_1_0_0_1_n_n 64 rfl rfl).symm d) = ix2 ρ d := funext fun a => Fin.ext (by
    match a with
    | ⟨0, _⟩ => exact lhs_scores_0 _ _
    | ⟨1, _⟩ => exact (lhs_scores_1 _ _).trans hd)
  have er : dot_S1024x64_S64x1024_S1024x1024_1_0_0_1_n_n.rhsIdx (ix2 ρ κ) ((contrEquiv1 dot_S1024x64_S64x1024_S1024x1024_1_0_0_1_n_n 64 rfl rfl).symm d) = ix2 d κ := funext fun a => Fin.ext (by
    match a with
    | ⟨0, _⟩ => exact (rhs_scores_0 _ _).trans hd
    | ⟨1, _⟩ => exact rhs_scores_1 _ _)
  rw [el, er]
  refine congrArg₂ (· * ·) ?_ ?_
  · exact shapeCast_1ab_ab_apply q shapeCasts_S1x1024x64_S1024x64 ρ d
  · exact (transpose_ix2_apply (shapeCast S1024x64 k shapeCasts_S1x1024x64_S1024x64) transposes_S1024x64_p1_0_S64x1024 d κ).trans
      (shapeCast_1ab_ab_apply k shapeCasts_S1x1024x64_S1024x64 κ d)

/-! ## The mask: positions as words -/

/-- A [a,1] column broadcast along the rows of [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Tile t's offset plus a position inside the tile, as a 32-bit word, is the word of the natural. -/
theorem pos_word (t : Fin 4) (x : Fin 1024) :
    IntOp.addi (Scalar.muli (BitVec.ofNat 32 t.val) 1024#32) (BitVec.ofNat 32 x.val) = BitVec.ofNat 32 (t.val * 1024 + x.val) := by
  show BitVec.ofNat 32 t.val * BitVec.ofNat 32 1024 + BitVec.ofNat 32 x.val = _
  rw [BitVec.ofNat_mul_ofNat, BitVec.ofNat_add_ofNat]

/-- Two positions below 4096 compare as signed words the way they compare as naturals. -/
theorem word_sge (a b : ℕ) (ha : a < 4096) (hb : b < 4096) :
    IntOp.cmpi .sge (BitVec.ofNat 32 a) (BitVec.ofNat 32 b) = 1#1 ↔ b ≤ a := by
  unfold IntOp.cmpi
  exact StableHlo.Predicate.sle_ofNat_iff b a (by omega) (by omega)

/-- The query position word at (ρ, κ). -/
theorem qpos_apply (qi : Fin 4) (ρ κ : Fin 1024) :
    broadcastTo S1024x1024 (addi (broadcast S1024x1 (Scalar.muli (BitVec.ofNat 32 qi.val) 1024#32)) (iota .tc S1024x1 32 [0] iota_S1024x1_d0_w32))
        broadcasts_S1024x1_S1024x1024 (ix2 ρ κ) = BitVec.ofNat 32 (qi.val * 1024 + ρ.val) := by
  refine (broadcastTo_a1_ab_apply _ broadcasts_S1024x1_S1024x1024 ρ κ).trans ?_
  show IntOp.addi (Scalar.muli (BitVec.ofNat 32 qi.val) 1024#32) (iota .tc S1024x1 32 [0] iota_S1024x1_d0_w32 (ix2 ρ (0 : Fin 1))) = _
  rw [iota_single_apply]
  exact pos_word qi ρ

/-- The key position word at (ρ, κ). -/
theorem kpos_apply (ki : Fin 4) (ρ κ : Fin 1024) :
    broadcastTo S1024x1024 (addi (broadcast S1x1024 (Scalar.muli (BitVec.ofNat 32 ki.val) 1024#32)) (iota .tc S1x1024 32 [1] iota_S1x1024_d1_w32))
        broadcasts_S1x1024_S1024x1024 (ix2 ρ κ) = BitVec.ofNat 32 (ki.val * 1024 + κ.val) := by
  refine (broadcastTo_1b_ab_apply _ broadcasts_S1x1024_S1024x1024 ρ κ).trans ?_
  show IntOp.addi (Scalar.muli (BitVec.ofNat 32 ki.val) 1024#32) (iota .tc S1x1024 32 [1] iota_S1x1024_d1_w32 (ix2 (0 : Fin 1) κ)) = _
  rw [iota_single_apply]
  exact pos_word ki κ

/-- The named large negative constant denotes −∞. -/
theorem neg_big : Named.named (F := Ideal) Cert.KernelIdeal.κ "neg_big" (φ := .f32) 0xFF333332#32 = (⊥ : EReal) :=
  IdealRules.named_const.ideal_named_scalar _ _ _ _ rfl

/-- The kernel's score tile at an index: the product of the query tile with the transposed key tile, scaled, where
    the query position is at or past the key position, and the named −∞ elsewhere. -/
theorem pay9_apply (qi ki : Fin 4) (q k : Vec Ideal S1x1024x64 .bf16) (ρ κ : Fin 1024) :
    k1_pay9 (F := Ideal) (BitVec.ofNat 32 qi.val) (BitVec.ofNat 32 ki.val) q k (ix2 ρ κ) = tileScore qi ki q k ρ κ := by
  have hq := qi.isLt; have hk := ki.isLt; have hρ := ρ.isLt; have hκ := κ.isLt
  unfold k1_pay9 tileScore
  dsimp only
  rw [select_apply, mulf_apply, broadcast_apply, broadcast_apply, scores_apply q k ρ κ, neg_big]
  show Scalar.select (IntOp.cmpi .sge _ _) _ _ = _
  rw [qpos_apply qi ρ κ, kpos_apply ki ρ κ]
  by_cases hle : ki.val * 1024 + κ.val ≤ qi.val * 1024 + ρ.val
  · rw [if_pos hle, (word_sge _ _ (by omega) (by omega)).mpr hle, select_one]
    rfl
  · rw [if_neg hle, eq_zero_of_ne_one (fun h => hle ((word_sge _ _ (by omega) (by omega)).mp h)), select_zero]

/-! ## The reset values and the final quotient -/

/-- The reset maximum is −∞ everywhere. -/
theorem pay1_apply (j : S1024x1.Idx) : k1_pay1 (F := Ideal) j = (⊥ : EReal) := by
  unfold k1_pay1
  rw [shapeCast_self, broadcast_apply]
  exact Cert.Consts.ofBits_neg_inf

/-- The reset sum is 0 everywhere. -/
theorem pay2_apply (j : S1024x1.Idx) : k1_pay2 (F := Ideal) j = (0 : EReal) := by
  unfold k1_pay2
  rw [shapeCast_self, broadcast_apply]
  exact Ideal.ofBits_zero_f32

/-- The reset weighted sum is 0 everywhere. -/
theorem pay3_apply (j : S1024x64.Idx) : k1_pay3 (F := Ideal) j = (0 : EReal) := by
  unfold k1_pay3
  rw [shapeCast_self, broadcast_apply]
  exact Ideal.ofBits_zero_f32

/-- After the reset a row's state is the initial one. -/
theorem stReset_row (ρ : Fin 1024) : rowOf (stReset (F := Ideal)) ρ = rowInit := by
  unfold rowOf stReset rowInit
  refine Prod.ext ?_ (Prod.ext ?_ ?_)
  · exact pay1_apply (ix2 ρ (0 : Fin 1))
  · exact pay2_apply (ix2 ρ (0 : Fin 1))
  · exact funext fun d => pay3_apply (ix2 ρ d)

/-- The output tile at an index: the weighted sum over the sum of exponentials. -/
theorem flashOut_apply (s : St Ideal) (ρ : Fin 1024) (d : Fin 64) :
    flashOut (F := Ideal) s (ix3 (0 : Fin 1) ρ d) = Ideal.div (s.2.2 (ix2 ρ d)) (s.2.1 (ix2 ρ (0 : Fin 1))) := by
  unfold flashOut k1_pay7
  refine (shapeCast_ab_1ab_apply _ shapeCasts_S1024x64_S1x1024x64 (0 : Fin 1) ρ d).trans ?_
  rw [truncf_apply, divf_apply]
  exact congrArg (Ideal.div (s.2.2 (ix2 ρ d))) (broadcastTo_a1_ab_apply s.2.1 broadcasts_S1024x1_S1024x64 ρ d)

end Cert.KernelIdeal.Hand

end
-- ==== Proof.Value.FlashPayload.lean ====
/-
  The online-softmax update of one tile pair read row by row: the new maximum is the old one against the row's
  largest score, both running sums are rescaled by exp(old maximum − new maximum) and extended by the row's
  exponentials (against the value tile's rows for the weighted sum).
-/
import proofs.«429902_j84310208020548_3_alg».proof.Proof.Value.FlashScore

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

/-! ## A vector as a one-column matrix -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A row's maximum and a row's sum -/

/-- The f32 pattern of −∞ is the bottom of the extended reals. -/
theorem negInf_f32 : FloatOps.ofBits (F := Ideal) .f32 0xFF800000#32 = (⊥ : EReal) := by
  exact Cert.Consts.ofBits_neg_inf

/-- Folding `max` from the bottom is the supremum: both are the least upper bound of the values. -/
theorem fold_max_bot_eq_sup {ι : Type} (s : Finset ι) (f : ι → EReal) : s.fold max ⊥ f = s.sup f :=
  eq_of_forall_ge_iff fun c => by
    rw [Finset.fold_max_le, Finset.sup_le_iff]
    exact ⟨fun h => h.2, fun h => ⟨bot_le, h⟩⟩

/-- The index over row ρ with column κ put back on the reduced axis. -/
theorem lift_row (h : S1024x1024.Reduces [1] S1024) (ρ κ : Fin 1024) : h.lift (ix1 ρ) κ = ix2 ρ κ :=
  funext fun c => Fin.ext (by
    match c with
    | ⟨0, _⟩ => rfl
    | ⟨1, _⟩ => rfl)

/-- The lane maximum of a tile from −∞, at row ρ: the supremum of the row. -/
theorem rowMax_apply (S : FVec Ideal S1024x1024 .f32) (h : S1024x1024.Reduces [1] S1024) (ρ : Fin 1024) :
    multiReduction (F := Ideal) .maximumf [1] S1024 S 0xFF800000#32 h (.inl rfl) rfl (ix1 ρ)
      = Finset.univ.sup fun κ : Fin 1024 => S (ix2 ρ κ) := by
  refine (Ideal.multiReduction_maximumf_single S _ h (.inl rfl) rfl (ix1 ρ)).trans ?_
  have hf : (S ∘ h.lift (ix1 ρ)) = fun κ : Fin 1024 => S (ix2 ρ κ) := funext fun κ => congrArg S (lift_row h ρ κ)
  show (Finset.univ : Finset (Fin 1024)).fold max (FloatOps.ofBits (F := Ideal) .f32 0xFF800000#32) (S ∘ h.lift (ix1 ρ)) = _
  rw [hf, negInf_f32]
  exact fold_max_bot_eq_sup _ _

/-- The lane sum of a tile from 0, at row ρ: the sum of the row. -/
theorem rowSum_apply (P : FVec Ideal S1024x1024 .f32) (h : S1024x1024.Reduces [1] S1024) (ρ : Fin 1024) :
    multiReduction (F := Ideal) .add [1] S1024 P 0x00000000#32 h (.inl rfl) rfl (ix1 ρ) = ∑ κ : Fin 1024, P (ix2 ρ κ) := by
  refine (Ideal.multiReduction_add_single P _ h (.inl rfl) rfl (ix1 ρ)).trans ?_
  show ∑ κ : Fin 1024, P (h.lift (ix1 ρ) κ) = ∑ κ : Fin 1024, P (ix2 ρ κ)
  exact Finset.sum_congr rfl fun κ _ => congrArg P (lift_row h ρ κ)

/-! ## The weights against the value tile: the product's contraction index by coordinates -/

theorem lhs_pv_0 (i : S1024x64.Idx) (c : dot_S1024x1024_S1024x64_S1024x64_1_0_0_1_n_n.contr.Idx) :
    (dot_S1024x1024_S1024x64_S1024x64_1_0_0_1_n_n.lhsIdx i c 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_pv_1 (i : S1024x64.Idx) (c : dot_S1024x1024_S1024x64_S1024x64_1_0_0_1_n_n.contr.Idx) :
    (dot_S1024x1024_S1024x64_S1024x64_1_0_0_1_n_n.lhsIdx i c 1).val = (c ⟨0, by decide⟩).val :=
  dot_S1024x1024_S1024x64_S1024x64_1_0_0_1_n_n.lhsIdx_val_of_single rfl i c
theorem rhs_pv_0 (i : S1024x64.Idx) (c : dot_S1024x1024_S1024x64_S1024x64_1_0_0_1_n_n.contr.Idx) :
    (dot_S1024x1024_S1024x64_S1024x64_1_0_0_1_n_n.rhsIdx i c 0).val = (c ⟨0, by decide⟩).val :=
  dot_S1024x1024_S1024x64_S1024x64_1_0_0_1_n_n.rhsIdx_val_of_single rfl i c
theorem rhs_pv_1 (i : S1024x64.Idx) (c : dot_S1024x1024_S1024x64_S1024x64_1_0_0_1_n_n.contr.Idx) :
    (dot_S1024x1024_S1024x64_S1024x64_1_0_0_1_n_n.rhsIdx i c 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The weighted sum's new value at (ρ, d): the old one rescaled by row ρ's factor, plus row ρ of the weights against
    column d of the value tile. -/
theorem accUpd_apply (v : Vec Ideal S1x1024x64 .bf16) (a : FVec Ideal S1024x1 .f32) (p : FVec Ideal S1024x1024 .f32)
    (acc : FVec Ideal S1024x64 .f32) (ρ : Fin 1024) (d : Fin 64) :
    k1_pay5 (F := Ideal) (k1_pay8 (F := Ideal) v) a p acc (ix2 ρ d)
      = (a (ix2 ρ (0 : Fin 1)) : EReal) * (acc (ix2 ρ d) : EReal)
        + ∑ κ : Fin 1024, (p (ix2 ρ κ) : EReal) * (v (ix3 (0 : Fin 1) κ d) : EReal) := by
  unfold k1_pay5 k1_pay8
  refine (congrFun (shapeCast_self _ _) _).trans ?_
  refine (addf_apply _ _ _).trans ?_
  refine congrArg₂ (fun s t : EReal => s + t) ?_ ?_
  · refine (mulf_apply _ _ _).trans ?_
    exact congrArg (fun t : EReal => t * (acc (ix2 ρ d) : EReal)) (broadcastTo_a1_ab_apply a _ ρ d)
  · refine (Ideal.matmul_constant_zero_apply dot_S1024x1024_S1024x64_S1024x64_1_0_0_1_n_n none _ _ (ix2 ρ d)).trans ?_
    rw [← Equiv.sum_comp (contrEquiv1 dot_S1024x1024_S1024x64_S1024x64_1_0_0_1_n_n 1024 rfl rfl).symm]
    refine Finset.sum_congr rfl fun κ _ => ?_
    have hk := contrEquiv1_symm_val dot_S1024x1024_S1024x64_S1024x64_1_0_0_1_n_n 1024 rfl rfl κ
    have el : dot_S1024x1024_S1024x64_S1024x64_1_0_0_1_n_n.lhsIdx (ix2 ρ d) ((contrEquiv1 dot_S1024x1024_S1024x64_S1024x64_1_0_0_1_n_n 1024 rfl rfl).symm κ) = ix2 ρ κ := funext fun ax => Fin.ext (by
      match ax with
      | ⟨0, _⟩ => exact lhs_pv_0 _ _
      | ⟨1, _⟩ => exact (lhs_pv_1 _ _).trans hk)
    have er : dot_S1024x1024_S1024x64_S1024x64_1_0_0_1_n_n.rhsIdx (ix2 ρ d) ((contrEquiv1 dot_S1024x1024_S1024x64_S1024x64_1_0_0_1_n_n 1024 rfl rfl).symm κ) = ix2 κ d := funext fun ax => Fin.ext (by
      match ax with
      | ⟨0, _⟩ => exact (rhs_pv_0 _ _).trans hk
      | ⟨1, _⟩ => exact rhs_pv_1 _ _)
    rw [el, er]
    exact congrArg (fun t : EReal => (p (ix2 ρ κ) : EReal) * t) (shapeCast_1ab_ab_apply v _ κ d)

/-! ## The update's payloads at a row, over the row's scores -/

section Update

variable (a1 a2 : BitVec 32) (q k : Vec Ideal S1x1024x64 .bf16) (m l : FVec Ideal S1024x1 .f32) (ρ : Fin 1024)
  (sc : Fin 1024 → EReal)

/-- The new maximum: the old one against the row's largest score. -/
theorem pay10_row (hS : ∀ κ, k1_pay9 (F := Ideal) a1 a2 q k (ix2 ρ κ) = sc κ) :
    k1_pay10 (F := Ideal) a1 a2 q k m (ix2 ρ (0 : Fin 1)) = max (m (ix2 ρ (0 : Fin 1)) : EReal) (Finset.univ.sup sc) := by
  unfold k1_pay10
  refine (maximumf_apply _ _ _).trans ?_
  refine congrArg (max (m (ix2 ρ (0 : Fin 1)) : EReal)) ?_
  refine (shapeCast_a_a1_apply _ _ ρ 0).trans ?_
  refine (rowMax_apply _ _ ρ).trans ?_
  exact congrArg (Finset.sup Finset.univ) (funext hS)

/-- The rescaling factor: exp(old maximum − new maximum). -/
theorem pay11_row (hS : ∀ κ, k1_pay9 (F := Ideal) a1 a2 q k (ix2 ρ κ) = sc κ) :
    k1_pay11 (F := Ideal) a1 a2 q k m (ix2 ρ (0 : Fin 1))
      = Ideal.exp ((m (ix2 ρ (0 : Fin 1)) : EReal) - max (m (ix2 ρ (0 : Fin 1)) : EReal) (Finset.univ.sup sc)) := by
  unfold k1_pay11
  exact congrArg (fun t : EReal => Ideal.exp ((m (ix2 ρ (0 : Fin 1)) : EReal) - t)) (pay10_row a1 a2 q k m ρ sc hS)

/-- The weights: exp(score − new maximum). -/
theorem pay12_row (hS : ∀ κ, k1_pay9 (F := Ideal) a1 a2 q k (ix2 ρ κ) = sc κ) (κ : Fin 1024) :
    k1_pay12 (F := Ideal) a1 a2 q k m (ix2 ρ κ)
      = Ideal.exp (sc κ - max (m (ix2 ρ (0 : Fin 1)) : EReal) (Finset.univ.sup sc)) := by
  unfold k1_pay12
  refine congrArg₂ (fun s t : EReal => Ideal.exp (s - t)) (hS κ) ?_
  exact (broadcastTo_a1_ab_apply _ _ ρ κ).trans (pay10_row a1 a2 q k m ρ sc hS)

/-- The new sum of exponentials: the old one rescaled, plus the row's weights. -/
theorem pay13_row (hS : ∀ κ, k1_pay9 (F := Ideal) a1 a2 q k (ix2 ρ κ) = sc κ) :
    k1_pay13 (F := Ideal) a1 a2 q k m l (ix2 ρ (0 : Fin 1))
      = Ideal.exp ((m (ix2 ρ (0 : Fin 1)) : EReal) - max (m (ix2 ρ (0 : Fin 1)) : EReal) (Finset.univ.sup sc)) * (l (ix2 ρ (0 : Fin 1)) : EReal)
        + ∑ κ : Fin 1024, Ideal.exp (sc κ - max (m (ix2 ρ (0 : Fin 1)) : EReal) (Finset.univ.sup sc)) := by
  unfold k1_pay13
  refine (addf_apply _ _ _).trans ?_
  refine congrArg₂ (fun s t : EReal => s + t) ?_ ?_
  · refine (mulf_apply _ _ _).trans ?_
    exact congrArg (fun t : EReal => t * (l (ix2 ρ (0 : Fin 1)) : EReal)) (pay11_row a1 a2 q k m ρ sc hS)
  · refine (shapeCast_a_a1_apply _ _ ρ 0).trans ?_
    refine (rowSum_apply _ _ ρ).trans ?_
    exact Finset.sum_congr rfl fun κ _ => pay12_row a1 a2 q k m ρ sc hS κ

end Update

/-- The scratch buffers' update by one tile pair, at row ρ, is the row step over the tile pair's scores and the
    value tile's rows. -/
theorem stUpd_row (qi ki : Fin 4) (q k v : Vec Ideal S1x1024x64 .bf16) (s : St Ideal) (ρ : Fin 1024) :
    rowOf (stUpd (F := Ideal) (BitVec.ofNat 32 qi.val) (BitVec.ofNat 32 ki.val) q k v s) ρ
      = rowStep (fun κ => tileScore qi ki q k ρ κ) (fun κ d => v (ix3 (0 : Fin 1) κ d)) (rowOf s ρ) := by
  have hS : ∀ κ, k1_pay9 (F := Ideal) (BitVec.ofNat 32 qi.val) (BitVec.ofNat 32 ki.val) q k (ix2 ρ κ) = (fun κ => tileScore qi ki q k ρ κ) κ :=
    fun κ => pay9_apply qi ki q k ρ κ
  unfold rowOf stUpd rowStep
  refine Prod.ext ?_ (Prod.ext ?_ (funext fun d => ?_))
  · show k1_pay6 (F := Ideal) (k1_pay10 (F := Ideal) (BitVec.ofNat 32 qi.val) (BitVec.ofNat 32 ki.val) q k s.1) (ix2 ρ (0 : Fin 1)) = _
    unfold k1_pay6
    refine (congrFun (shapeCast_self _ _) _).trans ?_
    exact pay10_row _ _ q k s.1 ρ _ hS
  · show k1_pay4 (F := Ideal) (k1_pay13 (F := Ideal) (BitVec.ofNat 32 qi.val) (BitVec.ofNat 32 ki.val) q k s.1 s.2.1) (ix2 ρ (0 : Fin 1)) = _
    unfold k1_pay4
    refine (congrFun (shapeCast_self _ _) _).trans ?_
    exact pay13_row _ _ q k s.1 s.2.1 ρ _ hS
  · show k1_pay5 (F := Ideal) (k1_pay8 (F := Ideal) v) (k1_pay11 (F := Ideal) (BitVec.ofNat 32 qi.val) (BitVec.ofNat 32 ki.val) q k s.1)
        (k1_pay12 (F := Ideal) (BitVec.ofNat 32 qi.val) (BitVec.ofNat 32 ki.val) q k s.1) s.2.2 (ix2 ρ d) = _
    refine (accUpd_apply v _ _ s.2.2 ρ d).trans ?_
    refine congrArg₂ (fun s t : EReal => s + t) ?_ ?_
    · exact congrArg (fun t : EReal => t * (s.2.2 (ix2 ρ d) : EReal)) (pay11_row _ _ q k s.1 ρ _ hS)
    · exact Finset.sum_congr rfl fun κ _ =>
        congrArg (fun t : EReal => t * (v (ix3 (0 : Fin 1) κ d) : EReal)) (pay12_row _ _ q k s.1 ρ _ hS κ)

end Cert.KernelIdeal.Hand

end
-- ==== Proof.Value.FlashTiles.lean ====
/-
  The attention call's grid and windows: position t of the row-major order is head t / 16, query tile (t / 4) mod 4,
  key tile t mod 4; the query and output windows' block at t is (head, query tile), the key and value windows'
  (head, key tile); so row ρ of a tile is row tile·1024 + ρ of the head's [4096, 64] matrix.  The output window is
  written back exactly at the positions with key tile 3, and those 64 blocks tile the [16, 4096, 64] array.
-/
import proofs.«429902_j84310208020548_3_alg».proof.Proof.Ideal.Data
import proofs.«429902_j84310208020548_3_alg».proof.Proof.Math.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

variable (V : (c : Dev nD) → (b : Ref sig .tc) → Buf (Elt Ideal) ((c : Thread nD τ).loc b))

/-- The arrays the attention call reads and writes, at their literal types. -/
abbrev arrQ (c : Dev nD) : (⟨S16x4096x64, .bf16⟩ : BufTy).Contents (Elt Ideal) := V c main_v8
abbrev arrK (c : Dev nD) : (⟨S16x4096x64, .bf16⟩ : BufTy).Contents (Elt Ideal) := V c main_v10
abbrev arrV (c : Dev nD) : (⟨S16x4096x64, .bf16⟩ : BufTy).Contents (Elt Ideal) := V c main_v12
abbrev arrAttn (c : Dev nD) : (⟨S16x4096x64, .bf16⟩ : BufTy).Contents (Elt Ideal) := (dat1 (F := Ideal) V c).arrAt 3 cfg1.N

/-- A position's head, query tile and key tile. -/
def posH (t : Fin cfg1.N) : Fin 16 := ⟨t.val / 16, by have := t.isLt; have : cfg1.N = 256 := N_1; omega⟩
def posQ (t : Fin cfg1.N) : Fin 4 := ⟨t.val / 4 % 4, by omega⟩
def posK (t : Fin cfg1.N) : Fin 4 := ⟨t.val % 4, by omega⟩
/-- Row ρ of tile b. -/
def tileRow (b : Fin 4) (ρ : Fin 1024) : Fin 4096 := ⟨b.val * 1024 + ρ.val, by omega⟩

/-- The grid's coordinates at every position, decided over the grid. -/
theorem coords_facts : ∀ t : Fin cfg1.N, (grid1.coords t 0).val = t.val / 16 ∧ (grid1.coords t 1).val = t.val / 4 % 4
    ∧ (grid1.coords t 2).val = t.val % 4 :=
  (by decide +kernel : ∀ t : Fin grid1.N, (grid1.coords t 0).val = t.val / 16 ∧ (grid1.coords t 1).val = t.val / 4 % 4
    ∧ (grid1.coords t 2).val = t.val % 4)

/-- The grid's coordinates at a position. -/
theorem coords_at (t : Fin cfg1.N) :
    (grid1.coords t 0).val = (posH t).val ∧ (grid1.coords t 1).val = (posQ t).val ∧ (grid1.coords t 2).val = (posK t).val :=
  coords_facts t

/-- The four windows' block indices at every position, decided over the grid: the query and output windows' block is
    (head, query tile, 0), the key and value windows' (head, key tile, 0). -/
theorem idxQ : ∀ t : Fin cfg1.N, win1_0.index t (0 : Fin 3) = t.val / 16 ∧ win1_0.index t (1 : Fin 3) = t.val / 4 % 4
    ∧ win1_0.index t (2 : Fin 3) = 0 :=
  (by decide +kernel : ∀ t : Fin grid1.N, win1_0.index t (0 : Fin 3) = t.val / 16 ∧ win1_0.index t (1 : Fin 3) = t.val / 4 % 4
    ∧ win1_0.index t (2 : Fin 3) = 0)
theorem idxK : ∀ t : Fin cfg1.N, win1_1.index t (0 : Fin 3) = t.val / 16 ∧ win1_1.index t (1 : Fin 3) = t.val % 4
    ∧ win1_1.index t (2 : Fin 3) = 0 :=
  (by decide +kernel : ∀ t : Fin grid1.N, win1_1.index t (0 : Fin 3) = t.val / 16 ∧ win1_1.index t (1 : Fin 3) = t.val % 4
    ∧ win1_1.index t (2 : Fin 3) = 0)
theorem idxV : ∀ t : Fin cfg1.N, win1_2.index t (0 : Fin 3) = t.val / 16 ∧ win1_2.index t (1 : Fin 3) = t.val % 4
    ∧ win1_2.index t (2 : Fin 3) = 0 :=
  (by decide +kernel : ∀ t : Fin grid1.N, win1_2.index t (0 : Fin 3) = t.val / 16 ∧ win1_2.index t (1 : Fin 3) = t.val % 4
    ∧ win1_2.index t (2 : Fin 3) = 0)
theorem idxO : ∀ t : Fin cfg1.N, win1_3.index t (0 : Fin 3) = t.val / 16 ∧ win1_3.index t (1 : Fin 3) = t.val / 4 % 4
    ∧ win1_3.index t (2 : Fin 3) = 0 :=
  (by decide +kernel : ∀ t : Fin grid1.N, win1_3.index t (0 : Fin 3) = t.val / 16 ∧ win1_3.index t (1 : Fin 3) = t.val / 4 % 4
    ∧ win1_3.index t (2 : Fin 3) = 0)

/-- The three input tiles at a position, entry by entry: a block's coordinate on an axis is the block index times
    the block's extent plus the coordinate inside the block. -/
theorem qTile_at (c : Dev nD) (t : Fin cfg1.N) (ρ : Fin 1024) (d : Fin 64) :
    (qTile V c t : (⟨S1x1024x64, .bf16⟩ : BufTy).Contents (Elt Ideal)) (ix3 (0 : Fin 1) ρ d) = arrQ V c (ix3 (posH t) (tileRow (posQ t) ρ) d) := by
  obtain ⟨e0, e1, e2⟩ := idxQ t
  show (V c main_v8 : (⟨S16x4096x64, .bf16⟩ : BufTy).Contents (Elt Ideal)) (((cfg1.win 0).blk t).view.emb (ix3 (0 : Fin 1) ρ d : S1x1024x64.Idx))
    = (V c main_v8 : (⟨S16x4096x64, .bf16⟩ : BufTy).Contents (Elt Ideal)) (ix3 (posH t) (tileRow (posQ t) ρ) d)
  refine congrArg (V c main_v8 : (⟨S16x4096x64, .bf16⟩ : BufTy).Contents (Elt Ideal)) (funext fun a => Fin.ext ?_)
  match a with
  | ⟨0, _⟩ => show win1_0.index t (0 : Fin 3) * 1 + 1 * 0 = t.val / 16; omega
  | ⟨1, _⟩ => show win1_0.index t (1 : Fin 3) * 1024 + 1 * ρ.val = t.val / 4 % 4 * 1024 + ρ.val; omega
  | ⟨2, _⟩ => show win1_0.index t (2 : Fin 3) * 64 + 1 * d.val = d.val; omega
theorem kTile_at (c : Dev nD) (t : Fin cfg1.N) (κ : Fin 1024) (d : Fin 64) :
    (kTile V c t : (⟨S1x1024x64, .bf16⟩ : BufTy).Contents (Elt Ideal)) (ix3 (0 : Fin 1) κ d) = arrK V c (ix3 (posH t) (tileRow (posK t) κ) d) := by
  obtain ⟨e0, e1, e2⟩ := idxK t
  show (V c main_v10 : (⟨S16x4096x64, .bf16⟩ : BufTy).Contents (Elt Ideal)) (((cfg1.win 1).blk t).view.emb (ix3 (0 : Fin 1) κ d : S1x1024x64.Idx))
    = (V c main_v10 : (⟨S16x4096x64, .bf16⟩ : BufTy).Contents (Elt Ideal)) (ix3 (posH t) (tileRow (posK t) κ) d)
  refine congrArg (V c main_v10 : (⟨S16x4096x64, .bf16⟩ : BufTy).Contents (Elt Ideal)) (funext fun a => Fin.ext ?_)
  match a with
  | ⟨0, _⟩ => show win1_1.index t (0 : Fin 3) * 1 + 1 * 0 = t.val / 16; omega
  | ⟨1, _⟩ => show win1_1.index t (1 : Fin 3) * 1024 + 1 * κ.val = t.val % 4 * 1024 + κ.val; omega
  | ⟨2, _⟩ => show win1_1.index t (2 : Fin 3) * 64 + 1 * d.val = d.val; omega
theorem vTile_at (c : Dev nD) (t : Fin cfg1.N) (κ : Fin 1024) (d : Fin 64) :
    (vTile V c t : (⟨S1x1024x64, .bf16⟩ : BufTy).Contents (Elt Ideal)) (ix3 (0 : Fin 1) κ d) = arrV V c (ix3 (posH t) (tileRow (posK t) κ) d) := by
  obtain ⟨e0, e1, e2⟩ := idxV t
  show (V c main_v12 : (⟨S16x4096x64, .bf16⟩ : BufTy).Contents (Elt Ideal)) (((cfg1.win 2).blk t).view.emb (ix3 (0 : Fin 1) κ d : S1x1024x64.Idx))
    = (V c main_v12 : (⟨S16x4096x64, .bf16⟩ : BufTy).Contents (Elt Ideal)) (ix3 (posH t) (tileRow (posK t) κ) d)
  refine congrArg (V c main_v12 : (⟨S16x4096x64, .bf16⟩ : BufTy).Contents (Elt Ideal)) (funext fun a => Fin.ext ?_)
  match a with
  | ⟨0, _⟩ => show win1_2.index t (0 : Fin 3) * 1 + 1 * 0 = t.val / 16; omega
  | ⟨1, _⟩ => show win1_2.index t (1 : Fin 3) * 1024 + 1 * κ.val = t.val % 4 * 1024 + κ.val; omega
  | ⟨2, _⟩ => show win1_2.index t (2 : Fin 3) * 64 + 1 * d.val = d.val; omega

/-- An entry of the output array is in the block of position `t` iff each coordinate is in the block's range on its axis. -/
theorem mem_blkO (t : Fin cfg1.N) (i : S16x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v13).slice (win1_3.rect t)).set ↔ _
  rw [View.set_slice_whole, Rect.mem_set_unit]
  exact Iff.rfl

/-- What a position with key tile 3 writes back is its block of the function G read at (head, row, column). -/
theorem flushedO_eq (c : Dev nD) (G : Fin 16 → Fin 4096 → Fin 64 → EReal)
    (hG : ∀ (t : Fin cfg1.N), t.val % 4 = 3 → ∀ (ρ : Fin 1024) (d : Fin 64),
      ((dat1 (F := Ideal) V c).after 3 t : (⟨S1x1024x64, .bf16⟩ : BufTy).Contents (Elt Ideal)) (ix3 (0 : Fin 1) ρ d)
        = G (posH t) (tileRow (posQ t) ρ) d)
    (t : Fin cfg1.N) (hf : (cfg1.win 3).flush t = true) :
    (dat1 (F := Ideal) V c).flushed 3 t
      = ((cfg1.win 3).blk t).view.read (Elt Ideal) ((fun i => G (i 0) (i 1) (i 2) : (⟨S16x4096x64, .bf16⟩ : BufTy).Contents (Elt Ideal))) := by
  have h3 : t.val % 4 = 3 := (flush1_3 t).mp hf
  obtain ⟨e0, e1, e2⟩ := idxO t
  refine funext fun (j : S1x1024x64.Idx) => ?_
  obtain ⟨a, ρ, d, rfl⟩ : ∃ (a : Fin 1) (ρ : Fin 1024) (d : Fin 64), j = ix3 a ρ d := ⟨j 0, j 1, j 2, eq_ix3 j⟩
  obtain rfl : a = 0 := Subsingleton.elim _ _
  have key : ∀ (x0 : Fin 16) (x1 : Fin 4096) (x2 : Fin 64), x0.val = t.val / 16 → x1.val = t.val / 4 % 4 * 1024 + ρ.val → x2.val = d.val →
      G (posH t) (tileRow (posQ t) ρ) d = G x0 x1 x2 := by
    intro x0 x1 x2 h0 h1 h2
    obtain rfl : x0 = posH t := Fin.ext h0
    obtain rfl : x1 = tileRow (posQ t) ρ := Fin.ext h1
    obtain rfl : x2 = d := Fin.ext h2
    rfl
  refine (hG t h3 ρ d).trans (key _ _ _ ?_ ?_ ?_)
  · show win1_3.index t (0 : Fin 3) * 1 + 1 * 0 = t.val / 16; omega
  · show win1_3.index t (1 : Fin 3) * 1024 + 1 * ρ.val = t.val / 4 % 4 * 1024 + ρ.val; omega
  · show win1_3.index t (2 : Fin 3) * 64 + 1 * d.val = d.val; omega

/-- The output array from its written-back tiles: if at every position with key tile 3 the output window's buffer
    after the body holds, entry by entry, the function G at (head, query tile·1024 + ρ, d), the array is G. -/
theorem attn_of_tiles (c : Dev nD) (G : Fin 16 → Fin 4096 → Fin 64 → EReal)
    (hG : ∀ (t : Fin cfg1.N), t.val % 4 = 3 → ∀ (ρ : Fin 1024) (d : Fin 64),
      ((dat1 (F := Ideal) V c).after 3 t : (⟨S1x1024x64, .bf16⟩ : BufTy).Contents (Elt Ideal)) (ix3 (0 : Fin 1) ρ d)
        = G (posH t) (tileRow (posQ t) ρ) d)
    (h : Fin 16) (r : Fin 4096) (d : Fin 64) : arrAttn V c (ix3 h r d) = G h r d := by
  have hN : cfg1.N = 256 := N_1
  have key : (dat1 (F := Ideal) V c).arrAt 3 cfg1.N = ((fun i => G (i 0) (i 1) (i 2) : (⟨S16x4096x64, .bf16⟩ : BufTy).Contents (Elt Ideal))) :=
    (dat1 (F := Ideal) V c).arrAt_eq_of_cover 3 _ (flushedO_eq V c G hG) fun (i : S16x4096x64.Idx) => by
      have h0 : (i 0).val < 16 := (i 0).isLt
      have h1 : (i 1).val < 4096 := (i 1).isLt
      have h2 : (i 2).val < 64 := (i 2).isLt
      have hlt : (i 0).val * 16 + (i 1).val / 1024 * 4 + 3 < cfg1.N := by omega
      obtain ⟨e0, e1, e2⟩ := idxO ⟨(i 0).val * 16 + (i 1).val / 1024 * 4 + 3, hlt⟩
      have e0' : win1_3.index ⟨(i 0).val * 16 + (i 1).val / 1024 * 4 + 3, hlt⟩ (0 : Fin 3) = ((i 0).val * 16 + (i 1).val / 1024 * 4 + 3) / 16 := e0
      have e1' : win1_3.index ⟨(i 0).val * 16 + (i 1).val / 1024 * 4 + 3, hlt⟩ (1 : Fin 3) = ((i 0).val * 16 + (i 1).val / 1024 * 4 + 3) / 4 % 4 := e1
      refine ⟨⟨(i 0).val * 16 + (i 1).val / 1024 * 4 + 3, hlt⟩, (flush1_3 _).mpr (by show ((i 0).val * 16 + (i 1).val / 1024 * 4 + 3) % 4 = 3; omega), ?_⟩
      rw [mem_blkO]
      intro a
      match a with
      | ⟨0, _⟩ =>
        show win1_3.index ⟨(i 0).val * 16 + (i 1).val / 1024 * 4 + 3, hlt⟩ (0 : Fin 3) * 1 ≤ (i 0).val
          ∧ (i 0).val < win1_3.index ⟨(i 0).val * 16 + (i 1).val / 1024 * 4 + 3, hlt⟩ (0 : Fin 3) * 1 + 1
        omega
      | ⟨1, _⟩ =>
        show win1_3.index ⟨(i 0).val * 16 + (i 1).val / 1024 * 4 + 3, hlt⟩ (1 : Fin 3) * 1024 ≤ (i 1).val
          ∧ (i 1).val < win1_3.index ⟨(i 0).val * 16 + (i 1).val / 1024 * 4 + 3, hlt⟩ (1 : Fin 3) * 1024 + 1024
        omega
      | ⟨2, _⟩ =>
        show win1_3.index ⟨(i 0).val * 16 + (i 1).val / 1024 * 4 + 3, hlt⟩ (2 : Fin 3) * 64 ≤ (i 2).val
          ∧ (i 2).val < win1_3.index ⟨(i 0).val * 16 + (i 1).val / 1024 * 4 + 3, hlt⟩ (2 : Fin 3) * 64 + 64
        omega
  show (dat1 (F := Ideal) V c).arrAt 3 cfg1.N (ix3 h r d) = G h r d
  rw [key]

end Cert.KernelIdeal.Hand

end
-- ==== Proof.Value.FlashValue.lean ====
/-
  What the attention call leaves in its output array, over the extended reals: entry (h, r, d) is the online-softmax
  sweep of query row r of head h over the key blocks (Math/Spec.lean `attnOnline`).  Grid position t is (head,
  query tile qi, key tile ki); the scratch buffers after position t hold, row by row, the sweep's state of query row
  qi·1024 + ρ after the key blocks 0..ki that are not above the diagonal (by induction along the positions: a reset
  where ki = 0, a row step where ki ≤ qi, nothing otherwise); the output tile is written at ki = 3, and the 64
  written tiles tile the array.
-/
import proofs.«429902_j84310208020548_3_alg».proof.Proof.Ideal.ObligFlash
import proofs.«429902_j84310208020548_3_alg».proof.Proof.Value.FlashPayload
import proofs.«429902_j84310208020548_3_alg».proof.Proof.Value.FlashTiles

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

variable (V : (c : Dev nD) → (b : Ref sig .tc) → Buf (Elt Ideal) ((c : Thread nD τ).loc b))

/-- Head h's query, key and value rows. -/
abbrev qRows (c : Dev nD) (h : Fin 16) : Fin 4096 → Fin 64 → EReal := fun r d => arrQ V c (ix3 h r d)
abbrev kRows (c : Dev nD) (h : Fin 16) : Fin 4096 → Fin 64 → EReal := fun j d => arrK V c (ix3 h j d)
abbrev vRows (c : Dev nD) (h : Fin 16) : Fin 4096 → Fin 64 → EReal := fun j d => arrV V c (ix3 h j d)

/-- The fold condition holds exactly where the key tile is not past the query tile. -/
theorem condB_iff : ∀ t : Fin cfg1.N, condB (grid1.coords t) ↔ t.val % 4 ≤ t.val / 4 % 4 :=
  (by decide +kernel : ∀ t : Fin grid1.N, condB (grid1.coords t) ↔ t.val % 4 ≤ t.val / 4 % 4)

/-- A row's state after one more key block that is folded in, -/
theorem rowAfter_succ_pos (q k v : Fin 4096 → Fin 64 → EReal) (r : Fin 4096) (n : ℕ) (h : n < 4 ∧ n ≤ r.val / 1024) :
    rowAfter q k v r (n + 1)
      = rowStep (fun κ => score q k r (keyRow ⟨n, h.1⟩ κ)) (fun κ d => v (keyRow ⟨n, h.1⟩ κ) d) (rowAfter q k v r n) := by
  rw [rowAfter, dif_pos h]

/-- and after one that is skipped. -/
theorem rowAfter_succ_neg (q k v : Fin 4096 → Fin 64 → EReal) (r : Fin 4096) (n : ℕ) (h : ¬(n < 4 ∧ n ≤ r.val / 1024)) :
    rowAfter q k v r (n + 1) = rowAfter q k v r n := by
  rw [rowAfter, dif_neg h]

/-- A row of a query tile lies in that tile's block of 1024 rows. -/
theorem tileRow_div (b : Fin 4) (ρ : Fin 1024) : (tileRow b ρ).val / 1024 = b.val := by
  show (b.val * 1024 + ρ.val) / 1024 = b.val
  have := ρ.isLt; omega

/-- The tile pair's score at (ρ, κ) is the score of query row qi·1024 + ρ against key row ki·1024 + κ. -/
theorem tileScore_at (c : Dev nD) (t : Fin cfg1.N) (ρ κ : Fin 1024) :
    tileScore (posQ t) (posK t) (qTile V c t) (kTile V c t) ρ κ
      = score (qRows V c (posH t)) (kRows V c (posH t)) (tileRow (posQ t) ρ) (keyRow (posK t) κ) := by
  unfold tileScore score
  have e : ∀ d : Fin 64, (qTile V c t) (ix3 (0 : Fin 1) ρ d) * (kTile V c t) (ix3 (0 : Fin 1) κ d)
      = qRows V c (posH t) (tileRow (posQ t) ρ) d * kRows V c (posH t) (keyRow (posK t) κ) d := fun d => by
    rw [qTile_at V c t ρ d, kTile_at V c t κ d]; rfl
  simp only [e] <;> rfl

/-- The update by the tile pair at position t, read at row ρ, in the head's own rows. -/
theorem upd_row (c : Dev nD) (t : Fin cfg1.N) (s : St Ideal) (ρ : Fin 1024) :
    rowOf (stUpd (F := Ideal) (BitVec.ofNat 32 (grid1.coords t 1).val) (BitVec.ofNat 32 (grid1.coords t 2).val)
        (qTile V c t) (kTile V c t) (vTile V c t) s) ρ
      = rowStep (fun κ => score (qRows V c (posH t)) (kRows V c (posH t)) (tileRow (posQ t) ρ) (keyRow (posK t) κ))
          (fun κ d => vRows V c (posH t) (keyRow (posK t) κ) d) (rowOf s ρ) := by
  have e1 : (grid1.coords t 1).val = (posQ t).val := (coords_at t).2.1
  have e2 : (grid1.coords t 2).val = (posK t).val := (coords_at t).2.2
  have es : (fun κ => tileScore (posQ t) (posK t) (qTile V c t) (kTile V c t) ρ κ)
      = fun κ => score (qRows V c (posH t)) (kRows V c (posH t)) (tileRow (posQ t) ρ) (keyRow (posK t) κ) :=
    funext fun κ => tileScore_at V c t ρ κ
  have ev : (fun (κ : Fin 1024) (d : Fin 64) => (vTile V c t) (ix3 (0 : Fin 1) κ d))
      = fun κ d => vRows V c (posH t) (keyRow (posK t) κ) d :=
    funext fun κ => funext fun d => vTile_at V c t κ d
  rw [e1, e2, stUpd_row (posQ t) (posK t) (qTile V c t) (kTile V c t) (vTile V c t) s ρ, es, ev]

/-- A tile pair that is folded in takes a row from its state after the key blocks below ki to its state after ki. -/
theorem fold_row (c : Dev nD) (t : Fin cfg1.N) (hle : t.val % 4 ≤ t.val / 4 % 4) (s : St Ideal) (ρ : Fin 1024)
    (hs : rowOf s ρ = rowAfter (qRows V c (posH t)) (kRows V c (posH t)) (vRows V c (posH t)) (tileRow (posQ t) ρ) (posK t).val) :
    rowOf (stUpd (F := Ideal) (BitVec.ofNat 32 (grid1.coords t 1).val) (BitVec.ofNat 32 (grid1.coords t 2).val) (qTile V c t) (kTile V c t) (vTile V c t) s) ρ
      = rowAfter (qRows V c (posH t)) (kRows V c (posH t)) (vRows V c (posH t)) (tileRow (posQ t) ρ) ((posK t).val + 1) := by
  refine (upd_row V c t s ρ).trans ?_
  rw [hs]
  exact (rowAfter_succ_pos (qRows V c (posH t)) (kRows V c (posH t)) (vRows V c (posH t)) (tileRow (posQ t) ρ) (posK t).val
    ⟨(posK t).isLt, by rw [tileRow_div]; exact hle⟩).symm

/-- A key tile wholly above the diagonal leaves the row's state as it is. -/
theorem skip_row (c : Dev nD) (t : Fin cfg1.N) (hgt : ¬ t.val % 4 ≤ t.val / 4 % 4) (s : St Ideal) (ρ : Fin 1024)
    (hs : rowOf s ρ = rowAfter (qRows V c (posH t)) (kRows V c (posH t)) (vRows V c (posH t)) (tileRow (posQ t) ρ) (posK t).val) :
    rowOf s ρ = rowAfter (qRows V c (posH t)) (kRows V c (posH t)) (vRows V c (posH t)) (tileRow (posQ t) ρ) ((posK t).val + 1) := by
  rw [hs]
  exact (rowAfter_succ_neg (qRows V c (posH t)) (kRows V c (posH t)) (vRows V c (posH t)) (tileRow (posQ t) ρ) (posK t).val
    (fun h => hgt (by have h2 := h.2; rw [tileRow_div] at h2; exact h2))).symm

/-- One position's effect on a row: from the state after the key blocks below ki (which is the initial one when
    ki = 0, whatever the buffers held) to the state after ki. -/
theorem flashStep_row (c : Dev nD) (t : Fin cfg1.N) (s : St Ideal) (ρ : Fin 1024)
    (hs : t.val % 4 ≠ 0 → rowOf s ρ = rowAfter (qRows V c (posH t)) (kRows V c (posH t)) (vRows V c (posH t)) (tileRow (posQ t) ρ) (posK t).val) :
    rowOf (flashStep (F := Ideal) (grid1.coords t) (qTile V c t) (kTile V c t) (vTile V c t) s) ρ
      = rowAfter (qRows V c (posH t)) (kRows V c (posH t)) (vRows V c (posH t)) (tileRow (posQ t) ρ) ((posK t).val + 1) := by
  by_cases h0 : t.val % 4 = 0
  · have hA : condA (grid1.coords t) := (hcondA t).mpr h0
    have hB : condB (grid1.coords t) := (condB_iff t).mpr (by omega)
    have e : flashStep (F := Ideal) (grid1.coords t) (qTile V c t) (kTile V c t) (vTile V c t) s
        = stUpd (F := Ideal) (BitVec.ofNat 32 (grid1.coords t 1).val) (BitVec.ofNat 32 (grid1.coords t 2).val) (qTile V c t) (kTile V c t) (vTile V c t) stReset := by
      unfold flashStep; simp only [if_pos hA, if_pos hB]
    rw [e]
    refine fold_row V c t (by omega) stReset ρ ?_
    have hk0 : (posK t).val = 0 := h0
    rw [stReset_row, hk0] <;> rfl
  · have hA : ¬condA (grid1.coords t) := fun h => h0 ((hcondA t).mp h)
    by_cases hle : t.val % 4 ≤ t.val / 4 % 4
    · have hB : condB (grid1.coords t) := (condB_iff t).mpr hle
      have e : flashStep (F := Ideal) (grid1.coords t) (qTile V c t) (kTile V c t) (vTile V c t) s
          = stUpd (F := Ideal) (BitVec.ofNat 32 (grid1.coords t 1).val) (BitVec.ofNat 32 (grid1.coords t 2).val) (qTile V c t) (kTile V c t) (vTile V c t) s := by
        unfold flashStep; simp only [if_neg hA, if_pos hB]
      rw [e]
      exact fold_row V c t hle s ρ (hs h0)
    · have hB : ¬condB (grid1.coords t) := fun h => hle ((condB_iff t).mp h)
      have e : flashStep (F := Ideal) (grid1.coords t) (qTile V c t) (kTile V c t) (vTile V c t) s = s := by
        unfold flashStep; simp only [if_neg hA, if_neg hB]
      rw [e]
      exact skip_row V c t hle s ρ (hs h0)

/-- THE INVARIANT: after position t = (head, qi, ki) the scratch buffers hold, at row ρ, the sweep's state of query
    row qi·1024 + ρ of the head after the key blocks 0..ki. -/
theorem scr_row (c : Dev nD) : ∀ (n : ℕ) (hn : n < cfg1.N) (ρ : Fin 1024),
    rowOf (scr (F := Ideal) V c n hn) ρ = rowAfter (qRows V c (posH ⟨n, hn⟩)) (kRows V c (posH ⟨n, hn⟩)) (vRows V c (posH ⟨n, hn⟩)) (tileRow (posQ ⟨n, hn⟩) ρ) ((posK ⟨n, hn⟩).val + 1)
  | 0, hn, ρ => flashStep_row V c ⟨0, hn⟩ stReset ρ (fun h => absurd rfl h)
  | n + 1, hn, ρ => by
    rw [scr_succ]
    refine flashStep_row V c ⟨n + 1, hn⟩ (scr (F := Ideal) V c n (Nat.lt_of_succ_lt hn)) ρ (fun h0 => ?_)
    have h0' : (n + 1) % 4 ≠ 0 := h0
    have ih := scr_row c n (Nat.lt_of_succ_lt hn) ρ
    have eH : posH ⟨n, Nat.lt_of_succ_lt hn⟩ = posH ⟨n + 1, hn⟩ := Fin.ext (by show n / 16 = (n + 1) / 16; omega)
    have eQ : posQ ⟨n, Nat.lt_of_succ_lt hn⟩ = posQ ⟨n + 1, hn⟩ := Fin.ext (by show n / 4 % 4 = (n + 1) / 4 % 4; omega)
    have eK : (posK ⟨n, Nat.lt_of_succ_lt hn⟩).val + 1 = (posK ⟨n + 1, hn⟩).val := by show n % 4 + 1 = (n + 1) % 4; omega
    rw [eH, eQ, eK] at ih
    exact ih

/-- The attention call's result array. -/
theorem attn_final (c : Dev nD) (h : Fin 16) (r : Fin 4096) (d : Fin 64) :
    arrAttn V c (ix3 h r d)
      = attnOnline (fun r' d' => arrQ V c (ix3 h r' d')) (fun j d' => arrK V c (ix3 h j d')) (fun j d' => arrV V c (ix3 h j d')) r d :=
  attn_of_tiles V c (fun h r d => attnOnline (qRows V c h) (kRows V c h) (vRows V c h) r d) (fun t ht ρ d => by
    show _ = attnOnline (qRows V c (posH t)) (kRows V c (posH t)) (vRows V c (posH t)) (tileRow (posQ t) ρ) d
    refine (congrFun (after1_3 (F := Ideal) V c t) (ix3 (0 : Fin 1) ρ d)).trans ?_
    refine (flashOut_apply (scr (F := Ideal) V c t.val t.isLt) ρ d).trans ?_
    have hinv := scr_row V c t.val t.isLt ρ
    have e4 : (posK ⟨t.val, t.isLt⟩).val + 1 = 4 := by show t.val % 4 + 1 = 4; omega
    rw [e4] at hinv
    show Ideal.div ((rowOf (scr (F := Ideal) V c t.val t.isLt) ρ).2.2 d) (rowOf (scr (F := Ideal) V c t.val t.isLt) ρ).2.1 = _
    rw [hinv]; rfl) h r d

end Cert.KernelIdeal.Hand

end
-- ==== Proof.Value.KernelResult.lean ====
/-
  The idealized kernel's result, entry by entry: the last reshape reads the second projection's array; its rows are
  the heads' attention outputs laid side by side (the inverse transpose and reshape), against the output weight as
  converted at the start; each head's attention output is the online sweep of that head's query, key and value
  rows, which the slices, reshapes and transposes pick out of the fused projection's columns; and the fused
  projection is the product of the reshaped activations with the converted weight.  Together: Math/Spec.lean's
  `layerOnline` of the three inputs.
-/
import proofs.«429902_j84310208020548_3_alg».proof.Proof.Value.HostReads
import proofs.«429902_j84310208020548_3_alg».proof.Proof.Value.LinearValue
import proofs.«429902_j84310208020548_3_alg».proof.Proof.Value.FlashValue

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ)

/-- The fused projection's array is the product of the inputs. -/
theorem qkv_at (c : Dev nD) (r : Fin 4096) (f : Fin 3072) : b2v3 m c (ix2 r f) = proj (inX m c) (inWA m c) r f := by
  have h2 : b2v3 m c = arrQKV (V1 m) c := W2_arr m c 2
  rw [h2, lin0_final]
  unfold proj
  refine Finset.sum_congr rfl fun k _ => ?_
  have e0 : arrX0 (V1 m) c (ix2 r k) = b1v0 m c (ix2 r k) := rfl
  have e1 : arrWA (V1 m) c (ix2 f k) = b1v1 m c (ix2 f k) := rfl
  rw [e0, e1, read_v0, read_v1]

/-- Head h's query, key and value rows as the attention call finds them. -/
theorem q_at (c : Dev nD) (h : Fin 16) : (fun r' d' => arrQ (V3 m) c (ix3 h r' d')) = headQ (proj (inX m c) (inWA m c)) h := by
  funext r' d'
  have e : arrQ (V3 m) c (ix3 h r' d') = b3v8 m c (ix3 h r' d') := rfl
  rw [e, read_v8, qkv_at]; rfl
theorem k_at (c : Dev nD) (h : Fin 16) : (fun r' d' => arrK (V3 m) c (ix3 h r' d')) = headK (proj (inX m c) (inWA m c)) h := by
  funext r' d'
  have e : arrK (V3 m) c (ix3 h r' d') = b3v10 m c (ix3 h r' d') := rfl
  rw [e, read_v10, qkv_at]; rfl
theorem v_at (c : Dev nD) (h : Fin 16) : (fun r' d' => arrV (V3 m) c (ix3 h r' d')) = headV (proj (inX m c) (inWA m c)) h := by
  funext r' d'
  have e : arrV (V3 m) c (ix3 h r' d') = b3v12 m c (ix3 h r' d') := rfl
  rw [e, read_v12, qkv_at]; rfl

/-- The attention call's array is every head's online sweep. -/
theorem attn_at (c : Dev nD) (h : Fin 16) (r : Fin 4096) (d : Fin 64) :
    b4v13 m c (ix3 h r d)
      = attnOnline (headQ (proj (inX m c) (inWA m c)) h) (headK (proj (inX m c) (inWA m c)) h) (headV (proj (inX m c) (inWA m c)) h) r d := by
  have h4 : b4v13 m c = arrAttn (V3 m) c := W4_arr m c 3
  rw [h4, attn_final, q_at, k_at, v_at]

/-- The kernel's result, entry by entry, is the online-attention layer of its inputs. -/
theorem kernel_result (c : Dev nD) (r : Fin 4096) (o : Fin 1024) :
    b7v17 m c (ix3 (0 : Fin 1) r o) = layerOnline (inX m c) (inWA m c) (inWP m c) r o := by
  have h6 : b6v16 m c = arrOut (V5 m) c := W6_arr m c 2
  rw [read_v17, h6, lin2_final]
  unfold layerOnline layer
  show _ = proj _ _ r o
  unfold proj
  refine Finset.sum_congr rfl fun k _ => ?_
  have e0 : arrY2 (V5 m) c (ix2 r k) = b5v15 m c (ix2 r k) := rfl
  have e1 : arrWP (V5 m) c (ix2 o k) = b5v2 m c (ix2 o k) := rfl
  rw [e0, e1, read_v15, attn_at, read_v2_late, read_v2]
  rfl

end Cert.KernelIdeal.Hand

end
-- ==== Proof.Value.RefScore.lean ====
/-
  The reference's first stages read index by index over the extended reals: the fused projection is a matrix product;
  slicing its 3072 columns in three, reshaping each row of 1024 as 16 × 64 and exchanging the row and head axes picks
  head h's query, key and value rows (columns h·64 + d, 1024 + h·64 + d, 2048 + h·64 + d); the lower-triangular mask,
  computed from two iotas compared as signed words, is "column ≤ row"; the masked score is the scaled inner product
  where the mask holds and −∞ elsewhere.
-/
import proofs.«429902_j84310208020548_3_alg».proof.Proof.Gen.ReferenceIdeal.Run
import proofs.«429902_j84310208020548_3_alg».proof.Proof.Gen.ReferenceIdeal.Read
import proofs.«429902_j84310208020548_3_alg».proof.Proof.Math.Spec
import proofs.«429902_j84310208020548_3_alg».proof.Proof.Math.Consts
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.ShloMosaic.StableHlo

/-! ## The three inputs as matrices -/

section Stages

variable (x0 : (⟨S1x4096x1024, .f32⟩ : BufTy).Contents (Elt Ideal)) (x1 : (⟨S3072x1024, .f32⟩ : BufTy).Contents (Elt Ideal))
  (x2 : (⟨S1024x1024, .f32⟩ : BufTy).Contents (Elt Ideal))

/-- The activations, the fused weight and the output weight over plain indices. -/
def mX (r : Fin 4096) (k : Fin 1024) : EReal := (x0 : Vec Ideal S1x4096x1024 .f32) (ix3 (0 : Fin 1) r k)
def mWA (f : Fin 3072) (k : Fin 1024) : EReal := (x1 : Vec Ideal S3072x1024 .f32) (ix2 f k)
def mWP (o : Fin 1024) (k : Fin 1024) : EReal := (x2 : Vec Ideal S1024x1024 .f32) (ix2 o k)

/-- The fused projection: entry (r, f) is row r of the activations against row f of the weight. -/
theorem v0_at (r : Fin 4096) (f : Fin 3072) :
    val_main_v0 (F := Ideal) x0 x1 (ix3 (0 : Fin 1) r f) = proj (mX x0) (mWA x1) r f := by
  rw [val_main_v0_apply]
  unfold proj mX mWA
  refine Finset.sum_congr rfl fun k _ => ?_
  have e1 : lidx_main_v0 (ix3 (0 : Fin 1) r f) k = ix3 (0 : Fin 1) r k :=
    funext fun a => Fin.ext (by match a with | ⟨0, _⟩ => rfl | ⟨1, _⟩ => rfl | ⟨2, _⟩ => rfl)
  have e2 : ridx_main_v0 (ix3 (0 : Fin 1) r f) k = ix2 f k :=
    funext fun a => Fin.ext (by match a with | ⟨0, _⟩ => rfl | ⟨1, _⟩ => rfl)
  rw [e1, e2]

/-- Row-major arithmetic of the head split: position ((r·16 + h)·64 + d) of a row of 1024 is row r, column h·64 + d. -/
theorem split_row (h r d : ℕ) (hh : h < 16) (hr : r < 4096) (hd : d < 64) :
    (((0 * 4096 + r) * 16 + h) * 64 + d) / 1024 % 4096 = r := by omega
theorem split_col (h r d : ℕ) (hh : h < 16) (hr : r < 4096) (hd : d < 64) :
    (((0 * 4096 + r) * 16 + h) * 64 + d) % 1024 = h * 64 + d := by omega

/-- Head h's query rows: columns h·64 + d of the first 1024. -/
theorem v5_at (h : Fin 16) (r : Fin 4096) (d : Fin 64) :
    val_main_v5 (F := Ideal) x0 x1 (ix4 (0 : Fin 1) h r d) = headQ (proj (mX x0) (mWA x1)) h r d := by
  rw [val_main_v5_apply, val_main_v4_apply, val_main_v1_apply]
  have e : idx_main_v1 (idx_main_v4 (idx_main_v5 (ix4 (0 : Fin 1) h r d)))
      = ix3 (0 : Fin 1) r (⟨h.val * 64 + d.val, by omega⟩ : Fin 3072) :=
    funext fun a => Fin.ext (by
      match a with
      | ⟨0, _⟩ => rfl
      | ⟨1, _⟩ => exact split_row h.val r.val d.val h.isLt r.isLt d.isLt
      | ⟨2, _⟩ => exact split_col h.val r.val d.val h.isLt r.isLt d.isLt)
  rw [e, v0_at]; rfl

/-- Head h's key rows: columns 1024 + h·64 + d. -/
theorem v7_at (h : Fin 16) (r : Fin 4096) (d : Fin 64) :
    val_main_v7 (F := Ideal) x0 x1 (ix4 (0 : Fin 1) h r d) = headK (proj (mX x0) (mWA x1)) h r d := by
  rw [val_main_v7_apply, val_main_v6_apply, val_main_v2_apply]
  have e : idx_main_v2 (idx_main_v6 (idx_main_v7 (ix4 (0 : Fin 1) h r d)))
      = ix3 (0 : Fin 1) r (⟨1024 + (h.val * 64 + d.val), by omega⟩ : Fin 3072) :=
    funext fun a => Fin.ext (by
      match a with
      | ⟨0, _⟩ => rfl
      | ⟨1, _⟩ => exact split_row h.val r.val d.val h.isLt r.isLt d.isLt
      | ⟨2, _⟩ => exact congrArg (1024 + ·) (split_col h.val r.val d.val h.isLt r.isLt d.isLt))
  rw [e, v0_at]; rfl

/-- Head h's value rows: columns 2048 + h·64 + d. -/
theorem v9_at (h : Fin 16) (r : Fin 4096) (d : Fin 64) :
    val_main_v9 (F := Ideal) x0 x1 (ix4 (0 : Fin 1) h r d) = headV (proj (mX x0) (mWA x1)) h r d := by
  rw [val_main_v9_apply, val_main_v8_apply, val_main_v3_apply]
  have e : idx_main_v3 (idx_main_v8 (idx_main_v9 (ix4 (0 : Fin 1) h r d)))
      = ix3 (0 : Fin 1) r (⟨2048 + (h.val * 64 + d.val), by omega⟩ : Fin 3072) :=
    funext fun a => Fin.ext (by
      match a with
      | ⟨0, _⟩ => rfl
      | ⟨1, _⟩ => exact split_row h.val r.val d.val h.isLt r.isLt d.isLt
      | ⟨2, _⟩ => exact congrArg (2048 + ·) (split_col h.val r.val d.val h.isLt r.isLt d.isLt))
  rw [e, v0_at]; rfl

/-! ## The causal mask and the masked score -/

/-- Two row / column numbers below 4096, as 32-bit words, compare signed as they compare as naturals. -/
theorem word_sge (r j : ℕ) (hr : r < 4096) (hj : j < 4096) :
    IntOp.cmpi .sge (IntOp.addi (BitVec.ofNat 32 r) 0#32) (BitVec.ofNat 32 j) = if j ≤ r then 1#1 else 0#1 := by
  have ha : (IntOp.addi (BitVec.ofNat 32 r) 0#32).toNat = r := by
    unfold IntOp.addi; rw [BitVec.add_zero, BitVec.toNat_ofNat]; omega
  have hb : (BitVec.ofNat 32 j).toNat = j := by rw [BitVec.toNat_ofNat]; omega
  split
  · exact (Predicate.sge_iff_toNat (by omega) (by omega)).2 (by omega)
  · exact eq_zero_of_ne_one (fun h => by have := (Predicate.sge_iff_toNat (by omega) (by omega)).1 h; omega)

/-- The lower-triangular mask: true exactly where the column is at most the row. -/
theorem mask_at (r j : Fin 4096) :
    val_main_v14 (F := Ideal) (ix2 r j) = if j.val ≤ r.val then 1#1 else 0#1 := by
  rw [val_main_v14_apply, val_main_call0_v4_apply, val_main_call0_v2_apply, val_main_call0_v0_apply,
    val_main_call0_v1_apply, val_main_call0_c_apply, val_main_call0_v3_apply, val_main_v13_apply, val_main_c_apply,
    val_main_call0_v5_apply, val_main_call0_c_0_apply]
  show Scalar.select (IntOp.cmpi .sge (IntOp.addi (BitVec.ofNat 32 r.val) 0#32) (BitVec.ofNat 32 j.val)) 1#1 0#1 = _
  rw [word_sge r.val j.val r.isLt j.isLt]
  split
  · exact select_one _ _
  · exact select_zero _ _

/-- The pattern of −∞. -/
theorem ofBits_neg_inf : Ideal.ofBits .f32 0xFF800000#32 = ⊥ := Cert.Consts.ofBits_neg_inf

/-- The masked, scaled score of head h. -/
theorem v16_at (h : Fin 16) (r j : Fin 4096) :
    val_main_v16 (F := Ideal) x0 x1 (ix4 (0 : Fin 1) h r j)
      = score (headQ (proj (mX x0) (mWA x1)) h) (headK (proj (mX x0) (mWA x1)) h) r j := by
  rw [val_main_v16_apply, val_main_call1_v1_apply, val_main_v15_apply, val_main_v12_apply, val_main_v10_apply,
    val_main_v11_apply, val_main_cst_apply, val_main_call1_v2_apply, val_main_call1_v0_apply, val_main_cst_0_apply]
  have em : idx_main_v15 (idx_main_call1_v1 (ix4 (0 : Fin 1) h r j)) = ix2 r j :=
    funext fun a => Fin.ext (by match a with | ⟨0, _⟩ => rfl | ⟨1, _⟩ => rfl)
  rw [em, mask_at]
  have es : ∀ k : Fin 64, val_main_v5 (F := Ideal) x0 x1 (lidx_main_v10 (ix4 (0 : Fin 1) h r j) k)
      * val_main_v7 (F := Ideal) x0 x1 (ridx_main_v10 (ix4 (0 : Fin 1) h r j) k)
      = headQ (proj (mX x0) (mWA x1)) h r k * headK (proj (mX x0) (mWA x1)) h j k := fun k => by
    have e1 : lidx_main_v10 (ix4 (0 : Fin 1) h r j) k = ix4 (0 : Fin 1) h r k :=
      funext fun a => Fin.ext (by match a with | ⟨0, _⟩ => rfl | ⟨1, _⟩ => rfl | ⟨2, _⟩ => rfl | ⟨3, _⟩ => rfl)
    have e2 : ridx_main_v10 (ix4 (0 : Fin 1) h r j) k = ix4 (0 : Fin 1) h j k :=
      funext fun a => Fin.ext (by match a with | ⟨0, _⟩ => rfl | ⟨1, _⟩ => rfl | ⟨2, _⟩ => rfl | ⟨3, _⟩ => rfl)
    rw [e1, e2, v5_at, v7_at]
  rw [Finset.sum_congr rfl fun k _ => es k]
  unfold score
  simp only [Ideal.ofBits_def, Ideal.mulf_def, ofBits_neg_inf]
  split
  · rw [select_one]; rfl
  · rw [select_zero]

end Stages

end Cert.ReferenceIdeal.RefValue

end
-- ==== Proof.Value.RefValue.lean ====
/-
  The reference read index by index, over the extended reals: the fused projection is a matrix product, the three
  slices / reshapes / transposes pick each head's query, key and value rows out of its 3072 columns, the lower-
  triangular mask (row index ≥ column index, computed from two iotas) selects the scaled score or −∞ (these stages
  are read in Value/RefScore.lean), the softmax shifts by the row maximum (the fold of max from −∞ over a row is the
  row's supremum), exponentiates, divides by the row sum, the weighted sum of value rows follows, and the heads'
  outputs are laid side by side and projected.  This is Math/Spec.lean's `layerSoftmax` of the three inputs.
-/
import proofs.«429902_j84310208020548_3_alg».proof.Proof.Gen.ReferenceIdeal.Run
import proofs.«429902_j84310208020548_3_alg».proof.Proof.Gen.ReferenceIdeal.Read
import proofs.«429902_j84310208020548_3_alg».proof.Proof.Math.Spec
import proofs.«429902_j84310208020548_3_alg».proof.Proof.Value.RefScore
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.ShloMosaic.StableHlo

section Stages

variable (x0 : (⟨S1x4096x1024, .f32⟩ : BufTy).Contents (Elt Ideal)) (x1 : (⟨S3072x1024, .f32⟩ : BufTy).Contents (Elt Ideal))
  (x2 : (⟨S1024x1024, .f32⟩ : BufTy).Contents (Elt Ideal))

/-! ## The softmax, the weighted sum of value rows, the merge and the output projection -/

theorem red3 : S1x16x4096x4096.Reduces [3] S1x16x4096 := by decide

/-- The row maximum: the fold of max from −∞ over a row of masked scores is the row's supremum. -/
theorem v17_at (h : Fin 16) (r : Fin 4096) :
    val_main_v17 (F := Ideal) x0 x1 (ix3 (0 : Fin 1) h r)
      = Finset.univ.sup (score (headQ (proj (mX x0) (mWA x1)) h) (headK (proj (mX x0) (mWA x1)) h) r) := by
  unfold val_main_v17
  rw [Host.reduce_eq_fold_single FloatOps.maximumf _ _ reducesTo_S1x16x4096x4096_S1x16x4096_d3 red3 h_S_]
  have ek : ∀ k : Fin 4096, val_main_v16 (F := Ideal) x0 x1 (red3.lift (ix3 (0 : Fin 1) h r) k)
      = score (headQ (proj (mX x0) (mWA x1)) h) (headK (proj (mX x0) (mWA x1)) h) r k := fun k => by
    have e : red3.lift (ix3 (0 : Fin 1) h r) k = ix4 (0 : Fin 1) h r k :=
      funext fun a => Fin.ext (by match a with | ⟨0, _⟩ => rfl | ⟨1, _⟩ => rfl | ⟨2, _⟩ => rfl | ⟨3, _⟩ => rfl)
    rw [e, v16_at]
  have ef : (val_main_v16 (F := Ideal) x0 x1 ∘ red3.lift (ix3 (0 : Fin 1) h r))
      = score (headQ (proj (mX x0) (mWA x1)) h) (headK (proj (mX x0) (mWA x1)) h) r := funext ek
  rw [ef, val_main_cst_1_apply, Ideal.ofBits_def, ofBits_neg_inf]
  rfl

/-- The maximum against −∞ once more changes nothing. -/
theorem v19_at (h : Fin 16) (r : Fin 4096) :
    val_main_v19 (F := Ideal) x0 x1 (ix3 (0 : Fin 1) h r)
      = Finset.univ.sup (score (headQ (proj (mX x0) (mWA x1)) h) (headK (proj (mX x0) (mWA x1)) h) r) := by
  rw [val_main_v19_apply, val_main_v18_apply, val_main_cst_2_apply, v17_at, Ideal.ofBits_def, ofBits_neg_inf,
    Ideal.maximumf_def]
  exact max_eq_right bot_le

/-- The shifted exponential. -/
theorem v23_at (h : Fin 16) (r j : Fin 4096) :
    val_main_v23 (F := Ideal) x0 x1 (ix4 (0 : Fin 1) h r j)
      = Ideal.exp (score (headQ (proj (mX x0) (mWA x1)) h) (headK (proj (mX x0) (mWA x1)) h) r j
          - Finset.univ.sup (score (headQ (proj (mX x0) (mWA x1)) h) (headK (proj (mX x0) (mWA x1)) h) r)) := by
  rw [val_main_v23_apply, val_main_v22_apply, val_main_v21_apply, val_main_v20_apply, v16_at]
  have e : idx_main_v20 (idx_main_v21 (ix4 (0 : Fin 1) h r j)) = ix3 (0 : Fin 1) h r :=
    funext fun a => Fin.ext (by match a with | ⟨0, _⟩ => rfl | ⟨1, _⟩ => rfl | ⟨2, _⟩ => rfl)
  rw [e, v19_at]
  rfl

/-- The row sum of the shifted exponentials. -/
theorem v24_at (h : Fin 16) (r : Fin 4096) :
    val_main_v24 (F := Ideal) x0 x1 (ix3 (0 : Fin 1) h r)
      = ∑ j : Fin 4096, Ideal.exp (score (headQ (proj (mX x0) (mWA x1)) h) (headK (proj (mX x0) (mWA x1)) h) r j
          - Finset.univ.sup (score (headQ (proj (mX x0) (mWA x1)) h) (headK (proj (mX x0) (mWA x1)) h) r)) := by
  rw [val_main_v24_apply, val_main_cst_3_apply, Ideal.ofBits_def, Ideal.ofBits_zero_f32, zero_add]
  refine Finset.sum_congr rfl fun k _ => ?_
  have e : idx_main_v24 (ix3 (0 : Fin 1) h r) k = ix4 (0 : Fin 1) h r k :=
    funext fun a => Fin.ext (by match a with | ⟨0, _⟩ => rfl | ⟨1, _⟩ => rfl | ⟨2, _⟩ => rfl | ⟨3, _⟩ => rfl)
  rw [e, v23_at]

/-- The softmax weight. -/
theorem v27_at (h : Fin 16) (r j : Fin 4096) :
    val_main_v27 (F := Ideal) x0 x1 (ix4 (0 : Fin 1) h r j)
      = Ideal.div (Ideal.exp (score (headQ (proj (mX x0) (mWA x1)) h) (headK (proj (mX x0) (mWA x1)) h) r j
          - Finset.univ.sup (score (headQ (proj (mX x0) (mWA x1)) h) (headK (proj (mX x0) (mWA x1)) h) r)))
        (∑ j' : Fin 4096, Ideal.exp (score (headQ (proj (mX x0) (mWA x1)) h) (headK (proj (mX x0) (mWA x1)) h) r j'
          - Finset.univ.sup (score (headQ (proj (mX x0) (mWA x1)) h) (headK (proj (mX x0) (mWA x1)) h) r))) := by
  rw [val_main_v27_apply, val_main_v26_apply, val_main_v25_apply, v23_at]
  have e : idx_main_v25 (idx_main_v26 (ix4 (0 : Fin 1) h r j)) = ix3 (0 : Fin 1) h r :=
    funext fun a => Fin.ext (by match a with | ⟨0, _⟩ => rfl | ⟨1, _⟩ => rfl | ⟨2, _⟩ => rfl)
  rw [e, v24_at]
  rfl

/-- The weighted sum of value rows: head h's softmax attention. -/
theorem v28_at (h : Fin 16) (r : Fin 4096) (d : Fin 64) :
    val_main_v28 (F := Ideal) x0 x1 (ix4 (0 : Fin 1) h r d)
      = attnSoftmax (headQ (proj (mX x0) (mWA x1)) h) (headK (proj (mX x0) (mWA x1)) h)
          (headV (proj (mX x0) (mWA x1)) h) r d := by
  rw [val_main_v28_apply]
  unfold attnSoftmax
  refine Finset.sum_congr rfl fun k _ => ?_
  have e1 : lidx_main_v28 (ix4 (0 : Fin 1) h r d) k = ix4 (0 : Fin 1) h r k :=
    funext fun a => Fin.ext (by match a with | ⟨0, _⟩ => rfl | ⟨1, _⟩ => rfl | ⟨2, _⟩ => rfl | ⟨3, _⟩ => rfl)
  have e2 : ridx_main_v28 (ix4 (0 : Fin 1) h r d) k = ix4 (0 : Fin 1) h k d :=
    funext fun a => Fin.ext (by match a with | ⟨0, _⟩ => rfl | ⟨1, _⟩ => rfl | ⟨2, _⟩ => rfl | ⟨3, _⟩ => rfl)
  rw [e1, e2, v27_at, v9_at]

/-- Row-major arithmetic of the merge: column c of a row of 1024 is head c / 64, feature c % 64. -/
theorem merge_row (r c : ℕ) (hr : r < 4096) (hc : c < 1024) : ((0 * 4096 + r) * 1024 + c) / 1024 % 4096 = r := by omega
theorem merge_head (r c : ℕ) (hr : r < 4096) (hc : c < 1024) : ((0 * 4096 + r) * 1024 + c) / 64 % 16 = c / 64 := by omega
theorem merge_feat (r c : ℕ) (hr : r < 4096) (hc : c < 1024) : ((0 * 4096 + r) * 1024 + c) % 64 = c % 64 := by omega

/-- The heads' outputs side by side. -/
theorem v30_at (r : Fin 4096) (c : Fin 1024) :
    val_main_v30 (F := Ideal) x0 x1 (ix3 (0 : Fin 1) r c)
      = merged (fun h => attnSoftmax (headQ (proj (mX x0) (mWA x1)) h) (headK (proj (mX x0) (mWA x1)) h)
          (headV (proj (mX x0) (mWA x1)) h)) r c := by
  rw [val_main_v30_apply, val_main_v29_apply]
  have e : idx_main_v29 (idx_main_v30 (ix3 (0 : Fin 1) r c))
      = ix4 (0 : Fin 1) (⟨c.val / 64, by omega⟩ : Fin 16) r (⟨c.val % 64, by omega⟩ : Fin 64) :=
    funext fun a => Fin.ext (by
      match a with
      | ⟨0, _⟩ => rfl
      | ⟨1, _⟩ => exact merge_head r.val c.val r.isLt c.isLt
      | ⟨2, _⟩ => exact merge_row r.val c.val r.isLt c.isLt
      | ⟨3, _⟩ => exact merge_feat r.val c.val r.isLt c.isLt)
  rw [e, v28_at]
  rfl

/-- The output projection: the whole layer. -/
theorem v31_at (r : Fin 4096) (o : Fin 1024) :
    val_main_v31 (F := Ideal) x0 x1 x2 (ix3 (0 : Fin 1) r o) = layerSoftmax (mX x0) (mWA x1) (mWP x2) r o := by
  have hdef : layerSoftmax (mX x0) (mWA x1) (mWP x2) r o
      = ∑ k : Fin 1024, merged (fun h => attnSoftmax (headQ (proj (mX x0) (mWA x1)) h) (headK (proj (mX x0) (mWA x1)) h)
          (headV (proj (mX x0) (mWA x1)) h)) r k * mWP x2 o k := rfl
  rw [hdef, val_main_v31_apply]
  refine Finset.sum_congr rfl fun k _ => ?_
  have e1 : lidx_main_v31 (ix3 (0 : Fin 1) r o) k = ix3 (0 : Fin 1) r k :=
    funext fun a => Fin.ext (by match a with | ⟨0, _⟩ => rfl | ⟨1, _⟩ => rfl | ⟨2, _⟩ => rfl)
  have e2 : ridx_main_v31 (ix3 (0 : Fin 1) r o) k = ix2 o k :=
    funext fun a => Fin.ext (by match a with | ⟨0, _⟩ => rfl | ⟨1, _⟩ => rfl)
  rw [e1, e2, v30_at]
  rfl

end Stages

variable (m : (ℓ : Loc nD τ sig) → Buf (Elt Ideal) ℓ)

/-- The three inputs as matrices over plain indices. -/
def inX (c : Dev nD) (r : Fin 4096) (k : Fin 1024) : EReal :=
  (m ((c.tc : Thread nD τ).loc main_arg0) : Vec Ideal S1x4096x1024 .f32) (ix3 (0 : Fin 1) r k)
def inWA (c : Dev nD) (f : Fin 3072) (k : Fin 1024) : EReal :=
  (m ((c.tc : Thread nD τ).loc main_arg1) : Vec Ideal S3072x1024 .f32) (ix2 f k)
def inWP (c : Dev nD) (o : Fin 1024) (k : Fin 1024) : EReal :=
  (m ((c.tc : Thread nD τ).loc main_arg2) : Vec Ideal S1024x1024 .f32) (ix2 o k)

/-- The reference's result, entry by entry, is the softmax-attention layer of its inputs. -/
theorem ref_result (c : Dev nD) (r : Fin 4096) (o : Fin 1024) :
    (Cert.ReferenceIdeal.Value.res_out0 (F := Ideal) m c : Vec Ideal S1x4096x1024 .f32) (ix3 (0 : Fin 1) r o)
      = layerSoftmax (inX m c) (inWA m c) (inWP m c) r o := by
  have hv := val_main_v31_eq (F := Ideal) m c
  show (Cert.ReferenceIdeal.Value.res_main_v31 (F := Ideal) m c : Vec Ideal S1x4096x1024 .f32) (ix3 (0 : Fin 1) r o) = _
  rw [hv]
  exact v31_at _ _ _ r o

end Cert.ReferenceIdeal.RefValue

end
-- ==== Proof.Value.Finite.lean ====
/-
  Under the precondition every entry of the three inputs is finite, so each input is the coercion of a real matrix.
-/
import proofs.«429902_j84310208020548_3_alg».proof.Defs
import proofs.«429902_j84310208020548_3_alg».proof.Proof.Gen.Pre_finite_inputs
import proofs.«429902_j84310208020548_3_alg».proof.Proof.Value.HostReads
import proofs.«429902_j84310208020548_3_alg».proof.Proof.Math.Consts
import Idealize.ShloMosaic.Lib.ReduceAll

set_option maxRecDepth 16384

noncomputable section

namespace Cert.KernelIdeal.Hand

open Cert.KernelIdeal Cert.Spec
open Idealize.ShloMosaic Idealize.ShloMosaic.TcCoe Idealize.ShloMosaic.ValueIdx

/-- The scalar shape has one index. -/
instance : Subsingleton Cert.Pre_finite_inputs.S_.Idx := ⟨fun a b => funext fun d => d.elim0⟩

private theorem ofBool_one (b : Bool) (h : BitVec.ofBool b = 1#1) : b = true := by
  cases b
  · exact absurd h (by decide)
  · rfl

/-- A strict comparison that came out 1 holds. -/
private theorem lt_of_cmp_olt {x y : EReal} (h : Ideal.cmp .olt x y = 1#1) : x < y := by
  unfold Ideal.cmp at h
  exact of_decide_eq_true (ofBool_one _ h)

/-- An extended real whose absolute value max(x, −x) is below +∞ is neither infinity. -/
private theorem finite_of_abs_lt (x : EReal)
    (h : Ideal.cmp .olt (max x (-x)) (Ideal.ofBits .f32 0x7F800000#32) = 1#1) : x ≠ ⊥ ∧ x ≠ ⊤ := by
  have h2 := lt_of_cmp_olt h
  rw [Cert.Consts.ofBits_pos_inf, max_lt_iff] at h2
  constructor
  · rintro rfl
    exact absurd h2.2 (by simp)
  · rintro rfl
    exact absurd h2.1 (by simp)

/-- The printed predicate decoded: all ones means every entry of every input is finite. -/
private theorem pre_decode [Cert.Pre_finite_inputs.Facts]
    (a0 : FVec Ideal Cert.Pre_finite_inputs.S1x4096x1024 .f32) (a1 : FVec Ideal Cert.Pre_finite_inputs.S3072x1024 .f32)
    (a2 : FVec Ideal Cert.Pre_finite_inputs.S1024x1024 .f32)
    (h : Cert.Pre_finite_inputs.fn (F := Ideal) a0 a1 a2 = fun _ => 1#1) :
    (∀ i, (a0 i : EReal) ≠ ⊥ ∧ (a0 i : EReal) ≠ ⊤) ∧ (∀ i, (a1 i : EReal) ≠ ⊥ ∧ (a1 i : EReal) ≠ ⊤)
      ∧ (∀ i, (a2 i : EReal) ≠ ⊥ ∧ (a2 i : EReal) ≠ ⊤) := by
  have e := congrFun h ix0
  dsimp only [Cert.Pre_finite_inputs.fn] at e
  simp only [andi, IntOp.andi_eq_one] at e
  obtain ⟨⟨e0, e1⟩, e2⟩ := e
  exact ⟨fun i => finite_of_abs_lt (a0 i) (Host.reduce_andi_all _ _ _ _ ix0 e0 i),
    fun i => finite_of_abs_lt (a1 i) (Host.reduce_andi_all _ _ _ _ ix0 e1 i),
    fun i => finite_of_abs_lt (a2 i) (Host.reduce_andi_all _ _ _ _ ix0 e2 i)⟩

/-- The precondition makes the three inputs real matrices. -/
theorem inputs_real [hP : Cert.Pre_finite_inputs.Facts] (m : (ℓ : Loc nD τ sig) → Buf (Elt Ideal) ℓ)
    (hpre : Cert.Pre_KernelIdeal m) (c : Dev nD) :
    ∃ (x : Fin 4096 → Fin 1024 → ℝ) (wa : Fin 3072 → Fin 1024 → ℝ) (wp : Fin 1024 → Fin 1024 → ℝ),
      inX m c = (fun r k => ((x r k : ℝ) : EReal)) ∧ inWA m c = (fun f k => ((wa f k : ℝ) : EReal))
        ∧ inWP m c = (fun o k => ((wp o k : ℝ) : EReal)) := by
  obtain ⟨h0, h1, h2⟩ := pre_decode _ _ _ (hpre c)
  refine ⟨fun r k => (inX m c r k).toReal, fun f k => (inWA m c f k).toReal, fun o k => (inWP m c o k).toReal,
    ?_, ?_, ?_⟩
  · funext r k
    exact (EReal.coe_toReal (h0 (ix3 (0 : Fin 1) r k)).2 (h0 (ix3 (0 : Fin 1) r k)).1).symm
  · funext f k
    exact (EReal.coe_toReal (h1 (ix2 f k)).2 (h1 (ix2 f k)).1).symm
  · funext o k
    exact (EReal.coe_toReal (h2 (ix2 o k)).2 (h2 (ix2 o k)).1).symm

end Cert.KernelIdeal.Hand

end
-- ==== Proof.Math.Softmax.lean ====
/-
  The online-softmax sweep equals the softmax.  For one query row with finite scores below the diagonal and −∞
  above it: after the key blocks 0..b the running maximum m is the maximum of the scores seen, the running sum is
  Σ exp(s_j − m) and the running weighted sum is Σ exp(s_j − m)·v_j over the keys seen — rescaling by
  exp(m_old − m_new) turns the old sums into the new ones because exp(a)·exp(b) = exp(a + b) on the reals and
  exp(−∞) = 0; the keys above the diagonal contribute exp(−∞) = 0 to the reference's sums, so the skipped blocks
  change nothing; and the quotient of the two sums is the sum of the quotients because the denominator is a
  positive real (it contains the term exp(s_0 − m) > 0 of the always-unmasked key 0).
-/
import proofs.«429902_j84310208020548_3_alg».proof.Proof.Math.Spec
import proofs.«429902_j84310208020548_3_alg».proof.Proof.Math.Consts

noncomputable section

open scoped BigOperators

namespace Cert.Spec

open Idealize.ShloMosaic

/-- The scale pattern denotes the real 1/8. -/
theorem eighth_coe : eighth = ((1 / 8 : ℝ) : EReal) := Cert.Consts.ofBits_eighth

/-- The coercion of a finite real sum is the sum of the coercions. -/
private theorem coe_sum {ι : Type} (S : Finset ι) (f : ι → ℝ) :
    ((∑ j ∈ S, f j : ℝ) : EReal) = ∑ j ∈ S, ((f j : ℝ) : EReal) := by
  classical
  induction S using Finset.induction_on with
  | empty => simp
  | insert a S ha ih => rw [Finset.sum_insert ha, Finset.sum_insert ha, EReal.coe_add, ih]

/-- A projection of real matrices is the real matrix product. -/
theorem proj_coe {M N K : ℕ} (x : Fin M → Fin K → ℝ) (w : Fin N → Fin K → ℝ) (i : Fin M) (j : Fin N) :
    proj (fun a b => ((x a b : ℝ) : EReal)) (fun a b => ((w a b : ℝ) : EReal)) i j = ((∑ k : Fin K, x i k * w j k : ℝ) : EReal) := by
  rw [coe_sum]
  simp only [proj, EReal.coe_mul]

/-! ### The exponential of a difference, as a real weight -/

private theorem exp_nonneg (x : EReal) : 0 ≤ Ideal.exp x := by
  induction x using EReal.rec with
  | bot => simp
  | coe x => rw [Ideal.exp_coe]; exact EReal.coe_nonneg.mpr (Real.exp_nonneg x)
  | top => simp

private theorem exp_ne_top {x : EReal} (h : x ≠ ⊤) : Ideal.exp x ≠ ⊤ := by
  induction x using EReal.rec with
  | bot => simp
  | coe x => simp
  | top => exact absurd rfl h

private theorem exp_ne_bot (x : EReal) : Ideal.exp x ≠ ⊥ :=
  (lt_of_lt_of_le EReal.bot_lt_zero (exp_nonneg x)).ne'

/-- The real weight exp(a − m); it is 0 when a = −∞. -/
private def wt (m a : EReal) : ℝ := (Ideal.exp (a - m)).toReal

private theorem exp_eq_wt {m a : EReal} (h : a - m ≠ ⊤) : Ideal.exp (a - m) = ((wt m a : ℝ) : EReal) :=
  (EReal.coe_toReal (exp_ne_top h) (exp_ne_bot _)).symm

private theorem sub_ne_top {a m : EReal} (ha : a ≠ ⊤) (h : a ≤ m) : a - m ≠ ⊤ := by
  induction m using EReal.rec with
  | bot => rw [le_bot_iff.mp h]; simp
  | coe m =>
    induction a using EReal.rec with
    | bot => simp
    | coe a => rw [← EReal.coe_sub]; exact EReal.coe_ne_top _
    | top => exact absurd rfl ha
  | top => rw [EReal.sub_top]; simp

private theorem wt_nonneg (m a : EReal) : 0 ≤ wt m a := EReal.toReal_nonneg (exp_nonneg _)

private theorem wt_bot (m : EReal) : wt m ⊥ = 0 := by
  rw [wt, EReal.bot_sub, Ideal.exp_bot, EReal.toReal_zero]

private theorem wt_coe (m a : ℝ) : wt (m : EReal) (a : EReal) = Real.exp (a - m) := by
  rw [wt, ← EReal.coe_sub, Ideal.exp_coe, EReal.toReal_coe]

/-- Rescaling: exp(m − m')·exp(a − m) = exp(a − m') for a ≤ m ≤ m' < ∞, at a = −∞ and m = −∞ too. -/
private theorem exp_rescale {a m m' : EReal} (ha : a ≠ ⊤) (hm' : m' ≠ ⊤) (h1 : a ≤ m) (h2 : m ≤ m') :
    Ideal.exp (m - m') * Ideal.exp (a - m) = Ideal.exp (a - m') := by
  induction m using EReal.rec with
  | bot =>
    have : a = ⊥ := le_bot_iff.mp h1
    subst this
    simp [EReal.bot_sub]
  | coe m =>
    induction m' using EReal.rec with
    | bot => exact absurd h2 (by simp)
    | coe m' =>
      induction a using EReal.rec with
      | bot => simp [EReal.bot_sub]
      | coe a =>
        rw [← EReal.coe_sub, ← EReal.coe_sub, ← EReal.coe_sub, Ideal.exp_coe, Ideal.exp_coe, Ideal.exp_coe,
          ← EReal.coe_mul, ← Real.exp_add]
        congr 2; ring
      | top => exact absurd rfl ha
    | top => exact absurd rfl hm'
  | top => exact absurd (top_le_iff.mp h2) hm'

private theorem wt_rescale {a m m' : EReal} (ha : a ≠ ⊤) (hm' : m' ≠ ⊤) (h1 : a ≤ m) (h2 : m ≤ m') :
    wt m' m * wt m a = wt m' a := by
  rw [wt, wt, wt, ← EReal.toReal_mul, exp_rescale ha hm' h1 h2]

/-! ### The state after a set of keys -/

/-- The state the sweep holds after the keys in S: their maximum score and the two sums of weights. -/
private def stOf (s : Fin 4096 → EReal) (v : Fin 4096 → Fin 64 → ℝ) (S : Finset (Fin 4096)) : RowSt :=
  (S.sup s, ((∑ j ∈ S, wt (S.sup s) (s j) : ℝ) : EReal),
    fun d => ((∑ j ∈ S, wt (S.sup s) (s j) * v j d : ℝ) : EReal))

/-- The keys of block b. -/
private def blk (b : Fin 4) : Finset (Fin 4096) := Finset.univ.image (keyRow b)

private theorem keyRow_injective (b : Fin 4) : Function.Injective (keyRow b) := by
  intro x y h
  have := congrArg Fin.val h
  simp only [keyRow] at this
  exact Fin.ext (by omega)

/-- Folding block b into the state after S gives the state after S ∪ block b. -/
private theorem rowStep_stOf (s : Fin 4096 → EReal) (v : Fin 4096 → Fin 64 → ℝ) (hs : ∀ j, s j ≠ ⊤)
    (S : Finset (Fin 4096)) (b : Fin 4) (hd : Disjoint S (blk b)) :
    rowStep (fun κ => s (keyRow b κ)) (fun κ d => ((v (keyRow b κ) d : ℝ) : EReal)) (stOf s v S)
      = stOf s v (S ∪ blk b) := by
  have hsup : Finset.univ.sup (fun κ => s (keyRow b κ)) = (blk b).sup s := by
    rw [blk, Finset.sup_image]; rfl
  have hmax : max (S.sup s) ((blk b).sup s) = (S ∪ blk b).sup s := (Finset.sup_union).symm
  have hm'top : (S ∪ blk b).sup s ≠ ⊤ := by
    have : (S ∪ blk b).sup s < ⊤ := by
      rw [Finset.sup_lt_iff (by simp)]
      intro j _; exact lt_top_iff_ne_top.mpr (hs j)
    exact this.ne
  have hSm' : S.sup s ≤ (S ∪ blk b).sup s := Finset.sup_mono Finset.subset_union_left
  have hle : ∀ j ∈ S ∪ blk b, s j ≤ (S ∪ blk b).sup s := fun j hj => Finset.le_sup hj
  have hle' : ∀ j ∈ S, s j ≤ S.sup s := fun j hj => Finset.le_sup hj
  have hStop : S.sup s ≠ ⊤ := ne_top_of_le_ne_top hm'top hSm'
  have e1 : Ideal.exp (S.sup s - (S ∪ blk b).sup s) = ((wt ((S ∪ blk b).sup s) (S.sup s) : ℝ) : EReal) :=
    exp_eq_wt (sub_ne_top hStop hSm')
  have e2 : ∀ κ, Ideal.exp (s (keyRow b κ) - (S ∪ blk b).sup s)
      = ((wt ((S ∪ blk b).sup s) (s (keyRow b κ)) : ℝ) : EReal) := fun κ =>
    exp_eq_wt (sub_ne_top (hs _)
      (hle _ (Finset.mem_union_right _ (Finset.mem_image_of_mem _ (Finset.mem_univ κ)))))
  have hsumS : ∀ f : Fin 4096 → ℝ, wt ((S ∪ blk b).sup s) (S.sup s) * ∑ j ∈ S, wt (S.sup s) (s j) * f j
      = ∑ j ∈ S, wt ((S ∪ blk b).sup s) (s j) * f j := by
    intro f
    rw [Finset.mul_sum]
    refine Finset.sum_congr rfl fun j hj => ?_
    rw [← mul_assoc, wt_rescale (hs j) hm'top (hle' j hj) hSm']
  have hsumB : ∀ f : Fin 4096 → ℝ, ∑ κ : Fin 1024, wt ((S ∪ blk b).sup s) (s (keyRow b κ)) * f (keyRow b κ)
      = ∑ j ∈ blk b, wt ((S ∪ blk b).sup s) (s j) * f j := by
    intro f
    rw [blk, Finset.sum_image (fun x _ y _ h => keyRow_injective b h)]
  simp only [rowStep, stOf, hsup, hmax, e1, e2]
  refine Prod.ext rfl (Prod.ext ?_ ?_)
  · simp only
    rw [← coe_sum, ← EReal.coe_mul, ← EReal.coe_add, Finset.sum_union hd]
    have h1 := hsumS (fun _ => 1)
    have h2 := hsumB (fun _ => 1)
    simp only [mul_one] at h1 h2
    rw [h1, h2]
  · funext d
    simp only [← EReal.coe_mul]
    rw [← coe_sum, ← EReal.coe_add, Finset.sum_union hd, hsumS (fun j => v j d), hsumB (fun j => v j d)]

/-! ### The keys folded in, block by block -/

/-- The keys folded in after n blocks for query row r: those below n·1024 whose block is not above the diagonal. -/
private def seen (r : Fin 4096) (n : ℕ) : Finset (Fin 4096) :=
  Finset.univ.filter fun j => j.val < n * 1024 ∧ j.val / 1024 ≤ r.val / 1024

private theorem mem_blk (b : Fin 4) (j : Fin 4096) :
    j ∈ blk b ↔ b.val * 1024 ≤ j.val ∧ j.val < (b.val + 1) * 1024 := by
  simp only [blk, Finset.mem_image, Finset.mem_univ, true_and]
  constructor
  · rintro ⟨κ, rfl⟩
    simp only [keyRow]
    omega
  · intro h
    exact ⟨⟨j.val - b.val * 1024, by omega⟩, Fin.ext (by simp only [keyRow]; omega)⟩

private theorem seen_zero (r : Fin 4096) : seen r 0 = ∅ := by
  simp [seen]

private theorem seen_succ_of (r : Fin 4096) (n : ℕ) (h : n < 4 ∧ n ≤ r.val / 1024) :
    seen r (n + 1) = seen r n ∪ blk ⟨n, h.1⟩ := by
  ext j
  simp only [seen, Finset.mem_union, Finset.mem_filter, Finset.mem_univ, true_and, mem_blk]
  omega

private theorem seen_succ_of_not (r : Fin 4096) (n : ℕ) (h : ¬ (n < 4 ∧ n ≤ r.val / 1024)) :
    seen r (n + 1) = seen r n := by
  ext j
  simp only [seen, Finset.mem_filter, Finset.mem_univ, true_and]
  have := j.isLt
  omega

private theorem seen_disjoint (r : Fin 4096) (n : ℕ) (h : n < 4) : Disjoint (seen r n) (blk ⟨n, h⟩) := by
  rw [Finset.disjoint_left]
  intro j hj hb
  simp only [seen, Finset.mem_filter, Finset.mem_univ, true_and] at hj
  rw [mem_blk] at hb
  simp only at hb
  omega

/-- The invariant: after n blocks the sweep holds the state after the keys folded in. -/
private theorem rowAfter_eq (q k : Fin 4096 → Fin 64 → EReal) (v : Fin 4096 → Fin 64 → ℝ) (r : Fin 4096)
    (hs : ∀ j, score q k r j ≠ ⊤) (n : ℕ) :
    rowAfter q k (fun a b => ((v a b : ℝ) : EReal)) r n = stOf (score q k r) v (seen r n) := by
  induction n with
  | zero =>
    rw [seen_zero]
    simp [rowAfter, rowInit, stOf]
  | succ n ih =>
    rw [rowAfter]
    split
    · rename_i h
      rw [ih, seen_succ_of r n h]
      exact rowStep_stOf (score q k r) v hs (seen r n) ⟨n, h.1⟩ (seen_disjoint r n h.1)
    · rename_i h
      rw [ih, seen_succ_of_not r n h]

/-- The sweep equals the softmax for any scores below +∞ that mask every key above the diagonal and leave key 0 finite. -/
private theorem attn_aux (q k : Fin 4096 → Fin 64 → EReal) (v : Fin 4096 → Fin 64 → ℝ) (r : Fin 4096) (d : Fin 64)
    (hs : ∀ j, score q k r j ≠ ⊤) (h0 : score q k r ⟨0, by norm_num⟩ ≠ ⊥) :
    attnOnline q k (fun a b => ((v a b : ℝ) : EReal)) r d
      = attnSoftmax q k (fun a b => ((v a b : ℝ) : EReal)) r d := by
  have hmask : ∀ j, j ∉ seen r 4 → score q k r j = ⊥ := by
    intro j hj
    simp only [seen, Finset.mem_filter, Finset.mem_univ, true_and, not_and] at hj
    have hlt := j.isLt
    have : ¬ j.val ≤ r.val := by omega
    simp only [score, if_neg this]
  have hon := rowAfter_eq q k v r hs 4
  unfold attnOnline attnSoftmax
  rw [hon]
  generalize score q k r = s at hs h0 hmask ⊢
  have hsupeq : (seen r 4).sup s = Finset.univ.sup s := by
    apply le_antisymm (Finset.sup_mono (Finset.subset_univ _))
    rw [Finset.sup_le_iff]
    intro j _
    by_cases hj : j ∈ seen r 4
    · exact Finset.le_sup hj
    · rw [hmask j hj]; exact bot_le
  have hmtop : Finset.univ.sup s ≠ ⊤ := by
    have : Finset.univ.sup s < ⊤ := by
      rw [Finset.sup_lt_iff (by simp)]
      intro j _; exact lt_top_iff_ne_top.mpr (hs j)
    exact this.ne
  have hle : ∀ j, s j ≤ Finset.univ.sup s := fun j => Finset.le_sup (Finset.mem_univ j)
  simp only [stOf, hsupeq]
  generalize Finset.univ.sup s = m at hmtop hle ⊢
  have h0mem : (⟨0, by norm_num⟩ : Fin 4096) ∈ seen r 4 := by
    simp [seen]
  have hexp : ∀ j, Ideal.exp (s j - m) = ((wt m (s j) : ℝ) : EReal) := fun j =>
    exp_eq_wt (sub_ne_top (hs j) (hle j))
  have hsum : ∀ f : Fin 4096 → ℝ, ∑ j, wt m (s j) * f j = ∑ j ∈ seen r 4, wt m (s j) * f j := by
    intro f
    symm
    apply Finset.sum_subset (Finset.subset_univ _)
    intro j _ hj
    rw [hmask j hj, wt_bot, zero_mul]
  have hL' : ∑ j, wt m (s j) = ∑ j ∈ seen r 4, wt m (s j) := by
    have := hsum (fun _ => 1)
    simpa only [mul_one] using this
  have hLpos : 0 < ∑ j ∈ seen r 4, wt m (s j) := by
    have h1 : wt m (s ⟨0, by norm_num⟩) ≤ ∑ j ∈ seen r 4, wt m (s j) :=
      Finset.single_le_sum (fun j _ => wt_nonneg m (s j)) h0mem
    have h2 : 0 < wt m (s ⟨0, by norm_num⟩) := by
      have hm_bot : m ≠ ⊥ := fun h => h0 (le_bot_iff.mp (h ▸ hle _))
      obtain ⟨M, hM⟩ : ∃ M : ℝ, m = (M : EReal) := ⟨m.toReal, (EReal.coe_toReal hmtop hm_bot).symm⟩
      obtain ⟨a, ha⟩ : ∃ a : ℝ, s ⟨0, by norm_num⟩ = (a : EReal) :=
        ⟨(s ⟨0, by norm_num⟩).toReal, (EReal.coe_toReal (hs _) h0).symm⟩
      rw [hM, ha, wt_coe]
      exact Real.exp_pos _
    exact lt_of_lt_of_le h2 h1
  simp only [hexp]
  rw [← coe_sum, hL']
  simp only [Ideal.div_coe hLpos.ne', ← EReal.coe_mul]
  rw [← coe_sum]
  congr 1
  rw [Finset.sum_mul]
  have h := hsum (fun j => (1 / ∑ x ∈ seen r 4, wt m (s x)) * v j d)
  simp only [← mul_assoc] at h
  rw [h]
  exact Finset.sum_congr rfl fun j _ => by ring

/-- Over finite queries, keys and values the kernel's sweep computes the reference's softmax attention. -/
theorem attnOnline_eq_softmax (q k v : Fin 4096 → Fin 64 → ℝ) (r : Fin 4096) (d : Fin 64) :
    attnOnline (fun a b => ((q a b : ℝ) : EReal)) (fun a b => ((k a b : ℝ) : EReal)) (fun a b => ((v a b : ℝ) : EReal)) r d
      = attnSoftmax (fun a b => ((q a b : ℝ) : EReal)) (fun a b => ((k a b : ℝ) : EReal)) (fun a b => ((v a b : ℝ) : EReal)) r d := by
  have hreal : ∀ j : Fin 4096, (∑ d : Fin 64, ((q r d : ℝ) : EReal) * ((k j d : ℝ) : EReal)) * eighth
      = (((∑ d : Fin 64, q r d * k j d) * (1 / 8) : ℝ) : EReal) := by
    intro j
    rw [eighth_coe, EReal.coe_mul, coe_sum]
    simp only [EReal.coe_mul]
  apply attn_aux
  · intro j
    simp only [score]
    split
    · rw [hreal]; exact EReal.coe_ne_top _
    · simp
  · simp only [score]
    rw [if_pos (Nat.zero_le _), hreal]
    exact EReal.coe_ne_bot _

end Cert.Spec

end
-- ==== Proof.Math.Layer.lean ====
/-
  The whole layer over finite inputs: the fused projection of real matrices is real, so every head's queries, keys
  and values are real, the two attentions agree on them, and the output projections of equal matrices are equal.
-/
import proofs.«429902_j84310208020548_3_alg».proof.Proof.Math.Softmax

noncomputable section

open scoped BigOperators

namespace Cert.Spec

open Idealize.ShloMosaic

/-- Over finite inputs the kernel's layer is the reference's. -/
theorem layer_eq (x : Fin 4096 → Fin 1024 → ℝ) (wa : Fin 3072 → Fin 1024 → ℝ) (wp : Fin 1024 → Fin 1024 → ℝ) :
    layerOnline (fun a b => ((x a b : ℝ) : EReal)) (fun a b => ((wa a b : ℝ) : EReal)) (fun a b => ((wp a b : ℝ) : EReal))
      = layerSoftmax (fun a b => ((x a b : ℝ) : EReal)) (fun a b => ((wa a b : ℝ) : EReal)) (fun a b => ((wp a b : ℝ) : EReal)) := by
  -- the fused projection is the coercion of the real matrix product
  have hp : proj (fun a b => ((x a b : ℝ) : EReal)) (fun a b => ((wa a b : ℝ) : EReal))
      = fun i j => ((∑ k : Fin 1024, x i k * wa j k : ℝ) : EReal) := by
    funext i j
    exact proj_coe x wa i j
  -- on every head of a real matrix the two attentions agree
  have key : ∀ P : Fin 4096 → Fin 3072 → ℝ,
      (fun h => attnOnline (headQ (fun i j => ((P i j : ℝ) : EReal)) h) (headK (fun i j => ((P i j : ℝ) : EReal)) h)
          (headV (fun i j => ((P i j : ℝ) : EReal)) h))
        = (fun h => attnSoftmax (headQ (fun i j => ((P i j : ℝ) : EReal)) h) (headK (fun i j => ((P i j : ℝ) : EReal)) h)
          (headV (fun i j => ((P i j : ℝ) : EReal)) h)) := by
    intro P
    funext h r d
    exact attnOnline_eq_softmax (fun r d => P r ⟨h.val * 64 + d.val, by omega⟩)
      (fun r d => P r ⟨1024 + (h.val * 64 + d.val), by omega⟩)
      (fun r d => P r ⟨2048 + (h.val * 64 + d.val), by omega⟩) r d
  unfold layerOnline layerSoftmax layer
  rw [hp, key (fun i j => ∑ k : Fin 1024, x i k * wa j k)]

end Cert.Spec

end
-- ==== Proof.lean ====
/-
  Causal multi-head self-attention: a kernel made of a fused query/key/value projection, a flash-attention sweep
  (online softmax over key blocks, the blocks above the diagonal skipped, a finite stand-in for −∞ named −∞) and an
  output projection, against the plain softmax-attention reference.

  Frames: each program's @main runs to the end and leaves its arguments as launched — the two kernel programs by
  the several-regions launch over hand-written body triples (the attention body's scratch buffers carried from
  grid point to grid point through the region's invariant), the reference by its generated run.
  Preserves: the one named constant denotes −∞ by the certificate's table.
  Algebraic: over the extended reals the kernel's result is the online-attention layer of its inputs and the
  reference's the softmax-attention layer; the precondition makes the inputs real matrices, and over real inputs
  the online sweep is the softmax: the running sums rescaled by exp(m_old − m_new) are the sums of exp(s − m_new),
  the masked scores contribute exp(−∞) = 0, and the final quotient is the normalised weighted sum.
-/
import proofs.«429902_j84310208020548_3_alg».proof.Defs
import proofs.«429902_j84310208020548_3_alg».proof.Proof.Gen.Kernel
import proofs.«429902_j84310208020548_3_alg».proof.Proof.Gen.KernelIdeal
import proofs.«429902_j84310208020548_3_alg».proof.Proof.Gen.ReferenceIdeal
import proofs.«429902_j84310208020548_3_alg».proof.Proof.Gen.Pre_finite_inputs
import proofs.«429902_j84310208020548_3_alg».proof.Proof.Gen.ReferenceIdeal.Run
import proofs.«429902_j84310208020548_3_alg».proof.Proof.Bits.Run
import proofs.«429902_j84310208020548_3_alg».proof.Proof.Ideal.Run
import proofs.«429902_j84310208020548_3_alg».proof.Proof.Value.KernelResult
import proofs.«429902_j84310208020548_3_alg».proof.Proof.Value.RefValue
import proofs.«429902_j84310208020548_3_alg».proof.Proof.Value.Finite
import proofs.«429902_j84310208020548_3_alg».proof.Proof.Math.Layer
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

namespace Parts

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ledger's one entry: the certificate's table gives the masking constant the value −∞. -/
theorem preserves : Cert.preserves_Kernel_KernelIdeal :=
  IdealRules.named_const.statement Cert.KernelIdeal.κ "neg_big" .f32 0xFF333332#32 ⊥ rfl

open Cert.KernelIdeal.Hand in
/-- Both programs end with the same result array: the kernel's is the online-attention layer of the inputs, the
    reference's the softmax-attention layer of the same inputs, and the inputs are real. -/
theorem algebraic : Cert.algebraic_KernelIdeal_ReferenceIdeal := by
  intro m ρ m' ρ' hpre hagree
  refine ⟨fun c => W7 (F := Ideal) m c (Proc.devRef .tc Cert.KernelIdeal.main_v17), ?_, ?_⟩
  · exact (θ_run (Cert.KernelIdeal.defs (F := Ideal)) _ _).mono (fun r h c =>
      ⟨h c _ (mem_uc Cert.KernelIdeal.main_v17 (by decide)),
       (h c _ (mem_uc Cert.KernelIdeal.main_arg0 (by decide))).trans (W7_main_arg0 m c),
       (h c _ (mem_uc Cert.KernelIdeal.main_arg1 (by decide))).trans (W7_main_arg1 m c),
       (h c _ (mem_uc Cert.KernelIdeal.main_arg2 (by decide))).trans (W7_main_arg2 m c)⟩) (run_all (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    obtain ⟨x, wa, wp, hx, hwa, hwp⟩ := inputs_real m hpre c
    have hX : Cert.ReferenceIdeal.RefValue.inX m' c = inX m c := by
      funext r k; unfold Cert.ReferenceIdeal.RefValue.inX inX; rw [(hagree c).1]
    have hWA : Cert.ReferenceIdeal.RefValue.inWA m' c = inWA m c := by
      funext f k; unfold Cert.ReferenceIdeal.RefValue.inWA inWA; rw [(hagree c).2.1]
    have hWP : Cert.ReferenceIdeal.RefValue.inWP m' c = inWP m c := by
      funext o k; unfold Cert.ReferenceIdeal.RefValue.inWP inWP; rw [(hagree c).2.2]
    refine funext fun (i : Cert.ReferenceIdeal.S1x4096x1024.Idx) => ?_
    obtain ⟨z, r, o, rfl⟩ : ∃ (z : Fin 1) (r : Fin 4096) (o : Fin 1024), i = ix3 z r o := ⟨i 0, i 1, i 2, eq_ix3 i⟩
    obtain rfl : z = 0 := Subsingleton.elim _ _
    refine (Cert.ReferenceIdeal.RefValue.ref_result m' c r o).trans ?_
    refine Eq.trans ?_ (kernel_result m c r o).symm
    rw [hX, hWA, hWP, hx, hwa, hwp]
    exact (congrFun (congrFun (Cert.Spec.layer_eq x wa wp) r) o).symm

end Parts

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
